-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S129x128x128 : Shape := ⟨3, ![129, 128, 128]⟩
abbrev S129 : Shape := ⟨1, ![129]⟩
abbrev S128 : Shape := ⟨1, ![128]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S129x128x128 : S_.BroadcastsInDim S129x128x128 (![] : Fin 0 → Fin S129x128x128.rank)
  reducesTo_S129x128x128_S_d0_1_2 : S129x128x128.ReducesTo [0, 1, 2] S_
  bcast_S_S129 : S_.BroadcastsInDim S129 (![] : Fin 0 → Fin S129.rank)
  reducesTo_S129_S_d0 : S129.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S128x8192 .f32) (main_arg1 : FVec F S129x128x128 .f32) (main_arg2 : FVec F S129 .f32) (main_arg3 : FVec F S128 .f32) : IVec S_ 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S129x128x128 .f32 := Host.absf main_arg1
  let main_cst_0 : FVec F S_ .f32 := constant S_ .f32 0x7F800000#32
  let main_v5 : FVec F S129x128x128 .f32 := broadcastInDim S129x128x128 ![] bcast_S_S129x128x128 main_cst_0
  let main_v6 : IVec S129x128x128 1 := cmpf .olt main_v4 main_v5
  let main_c_1 : IVec S_ 1 := constantI S_ 1 1#1
  let main_v7 : IVec S_ 1 := (fun x v => Host.reduce IntOp.andi x v reducesTo_S129x128x128_S_d0_1_2 h_S_) main_v6 main_c_1
  let main_v8 : IVec S_ 1 := andi main_v3 main_v7
  let main_v9 : FVec F S129 .f32 := Host.absf main_arg2
  let main_cst_2 : FVec F S_ .f32 := constant S_ .f32 0x7F800000#32
  let main_v10 : FVec F S129 .f32 := broadcastInDim S129 ![] bcast_S_S129 main_cst_2
  let main_v11 : IVec S129 1 := cmpf .olt main_v9 main_v10
  let main_c_3 : IVec S_ 1 := constantI S_ 1 1#1
  let main_v12 : IVec S_ 1 := (fun x v => Host.reduce IntOp.andi x v reducesTo_S129_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S128x8192 : Shape := ⟨2, ![128, 8192]⟩
abbrev S129x128x128 : Shape := ⟨3, ![129, 128, 128]⟩
abbrev S129 : Shape := ⟨1, ![129]⟩
abbrev S128 : Shape := ⟨1, ![128]⟩
abbrev S128x1x8192 : Shape := ⟨3, ![128, 1, 8192]⟩
abbrev S128x128x129 : Shape := ⟨3, ![128, 128, 129]⟩
abbrev S128x128x128 : Shape := ⟨3, ![128, 128, 128]⟩
abbrev S128x128x256 : Shape := ⟨3, ![128, 128, 256]⟩
abbrev S128x1 : Shape := ⟨2, ![128, 1]⟩
abbrev S16x1x4096 : Shape := ⟨3, ![16, 1, 4096]⟩
abbrev S16x128x256 : Shape := ⟨3, ![16, 128, 256]⟩
abbrev S128x4096 : Shape := ⟨2, ![128, 4096]⟩
abbrev S1x1x4096 : Shape := ⟨3, ![1, 1, 4096]⟩
abbrev S1x4096 : Shape := ⟨2, ![1, 4096]⟩
abbrev S4096 : Shape := ⟨1, ![4096]⟩
abbrev S1x128x128 : Shape := ⟨3, ![1, 128, 128]⟩
abbrev S128x128 : Shape := ⟨2, ![128, 128]⟩

abbrev nBuf : Space → Nat
  | .hbm => 15
  | .vmem => 8
  | .smem => 0
  | _ => 0

abbrev bufTy : (tb : Table) → Fin (tcTables nBuf tb) → BufTy
  | .hbm, ⟨0, _⟩ => ⟨S128x8192, .f32⟩
  | .hbm, ⟨1, _⟩ => ⟨S129x128x128, .f32⟩
  | .hbm, ⟨2, _⟩ => ⟨S129, .f32⟩
  | .hbm, ⟨3, _⟩ => ⟨S128, .f32⟩
  | .hbm, ⟨4, _⟩ => ⟨S128x1x8192, .f32⟩
  | .hbm, ⟨5, _⟩ => ⟨S128x128x129, .f32⟩
  | .hbm, ⟨6, _⟩ => ⟨S128x128x128, .f32⟩
  | .hbm, ⟨7, _⟩ => ⟨S128x128x128, .f32⟩
  | .hbm, ⟨8, _⟩ => ⟨S128x128x128, .f32⟩
  | .hbm, ⟨9, _⟩ => ⟨S128x128x256, .f32⟩
  | .hbm, ⟨10, _⟩ => ⟨S128x128x256, .bf16⟩
  | .hbm, ⟨11, _⟩ => ⟨S128, .f32⟩
  | .hbm, ⟨12, _⟩ => ⟨S128x1, .f32⟩
  | .hbm, ⟨13, _⟩ => ⟨S128x1, .f32⟩
  | .hbm, ⟨14, _⟩ => ⟨S128x8192, .f32⟩
  | .local _ .vmem, ⟨0, _⟩ => ⟨S16x1x4096, .f32⟩
  | .local _ .vmem, ⟨1, _⟩ => ⟨S16x1x4096, .f32⟩
  | .local _ .vmem, ⟨2, _⟩ => ⟨S16x128x256, .bf16⟩
  | .local _ .vmem, ⟨3, _⟩ => ⟨S16x128x256, .bf16⟩
  | .local _ .vmem, ⟨4, _⟩ => ⟨S128x1, .f32⟩
  | .local _ .vmem, ⟨5, _⟩ => ⟨S128x1, .f32⟩
  | .local _ .vmem, ⟨6, _⟩ => ⟨S128x4096, .f32⟩
  | .local _ .vmem, ⟨7, _⟩ => ⟨S128x4096, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_4 : BitVec 32 := 0#32
  let c16_i32 : BitVec 32 := 16#32
  let v8 : BitVec 32 := Scalar.addi c0_i32_4 c16_i32
  let c1_i32 : BitVec 32 := 1#32
  ⟨c0_i32_4, v8, c1_i32⟩
def k0_off1 (k0_t1 : Fin k0_t1_loop.trips) : Fin 3 → Nat :=
  let c0_i32_7 : BitVec 32 := 0#32
  let c0_i32_4 : BitVec 32 := 0#32
  let c1_i32 : BitVec 32 := 1#32
  let arg7 : BitVec 32 := Scf.iv c0_i32_4 c1_i32 k0_t1
  let c1_i32_6 : BitVec 32 := 1#32
  let v9 : BitVec 32 := Scalar.muli arg7 c1_i32_6
  let v10 : BitVec 32 := Scalar.addi c0_i32_7 v9
  let v11 : Index := Scalar.indexCast v10
  let c0_8 : Index := 0#32
  let c0_9 : Index := 0#32
  ![v11.toNat, 0, 0]
def k0_off2 (k0_t1 : Fin k0_t1_loop.trips) : Fin 3 → Nat :=
  let c0_i32_7 : BitVec 32 := 0#32
  let c0_i32_4 : BitVec 32 := 0#32
  let c1_i32 : BitVec 32 := 1#32
  let arg7 : BitVec 32 := Scf.iv c0_i32_4 c1_i32 k0_t1
  let c1_i32_6 : BitVec 32 := 1#32
  let v9 : BitVec 32 := Scalar.muli arg7 c1_i32_6
  let v10 : BitVec 32 := Scalar.addi c0_i32_7 v9
  let v53 : Index := Scalar.indexCast v10
  let c0_18 : Index := 0#32
  let c0_19 : Index := 0#32
  ![v53.toNat, 0, 0]
def k0_off3 (k0_t1 : Fin k0_t1_loop.trips) : Fin 3 → Nat :=
  let c0_i32_7 : BitVec 32 := 0#32
  let c0_i32_4 : BitVec 32 := 0#32
  let c1_i32 : BitVec 32 := 1#32
  let arg7 : BitVec 32 := Scf.iv c0_i32_4 c1_i32 k0_t1
  let c1_i32_6 : BitVec 32 := 1#32
  let v9 : BitVec 32 := Scalar.muli arg7 c1_i32_6
  let v10 : BitVec 32 := Scalar.addi c0_i32_7 v9
  let v56 : Index := Scalar.indexCast v10
  let c0_20 : Index := 0#32
  let c128 : Index := 128#32
  ![v56.toNat, 0, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128x8192_S128x1x8192 : S128x8192.ShapeCasts S128x1x8192
  transposes_S129x128x128_S128x128x129_2_1_0 : S129x128x128.Transposes [2, 1, 0] S128x128x129
  slices_S128x128x129_S128x128x128_0_0_0 : S128x128x129.Slices ![0, 0, 0] S128x128x128
  slices_S128x128x129_S128x128x128_0_0_1 : S128x128x129.Slices ![0, 0, 1] S128x128x128
  concatenates_S128x128x128_S128x128x128_S128x128x256_d2 : Shape.Concatenates [S128x128x128, S128x128x128] S128x128x256 2
  bitsLt_bf16_f32 : FTy.bits .bf16 < FTy.bits .f32
  slices_S129_S128_0 : S129.Slices ![0] S128
  shapeCasts_S128_S128x1 : S128.ShapeCasts S128x1
  inb_S128x4096_S128x4096_0_0 : ∀ a, (![0, 0] : Fin 2 → Nat) a + S128x4096.size a ≤ S128x4096.size a
  h_S128x4096 : 0 < S128x4096.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x1_d0_w32 : S128x1.Iotas .tc 32 [0]
  h_S1x1x4096 : 0 < S1x1x4096.numel
  shapeCasts_S1x1x4096_S1x4096 : S1x1x4096.ShapeCasts S1x4096
  broadcasts_S128x1_S128x4096 : S128x1.Broadcasts S128x4096
  broadcasts_S1x4096_S128x4096 : S1x4096.Broadcasts S128x4096
  natLt_1_32 : 1 < 32
  reduces_S128x4096_S4096 : S128x4096.Reduces [0] S4096
  shapeCasts_S4096_S1x4096 : S4096.ShapeCasts S1x4096
  h_S1x128x128 : 0 < S1x128x128.numel
  shapeCasts_S1x128x128_S128x128 : S1x128x128.ShapeCasts S128x128
  shapeCasts_S128x4096_S128x4096 : S128x4096.ShapeCasts S128x4096
  dot_S128x128_S128x4096_S128x4096_1_0_0_1_n_n_wf : DotDims.WF S128x128 S128x4096 S128x4096 [1] [0] [0] [1] [] []
  hrank0 : 0 < grid0.rank
  k0_t1_ok : k0_t1_loop.OK
  k0_off1_inb : ∀ k0_t1 : Fin k0_t1_loop.trips, ∀ a, (k0_off1 k0_t1) a + S1x1x4096.size a ≤ S16x1x4096.size a
  k0_off2_inb : ∀ k0_t1 : Fin k0_t1_loop.trips, ∀ a, (k0_off2 k0_t1) a + S1x128x128.size a ≤ S16x128x256.size a
  k0_off3_inb : ∀ k0_t1 : Fin k0_t1_loop.trips, ∀ a, (k0_off3 k0_t1) a + S1x128x128.size a ≤ S16x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x4096.size a ≤ S128x1x8192.size a
  hwx0_0 : ∀ i : grid0.Coords, EltTy.bits .f32 = 32 ∨ (Rect.block (s := S128x1x8192) S16x1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x256.size a ≤ S128x128x256.size a
  hwx0_1 : ∀ i : grid0.Coords, EltTy.bits .bf16 = 32 ∨ (Rect.block (s := S128x128x256) S16x128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S128x8192.size a
  hwx0_4 : ∀ i : grid0.Coords, EltTy.bits .f32 = 32 ∨ (Rect.block (s := S128x8192) S128x4096.size (cc0_transform_4 i) (hinb0_4 i)).WholeWords (EltTy.packing .f32)

variable [Facts₀]

def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf

abbrev win0_0 : Pipeline.Window sig grid0 :=
  Pipeline.Window.ofSpec (Memref.whole main_v0) S16x1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x8192 : Shape := ⟨2, ![128, 8192]⟩
abbrev S129x128x128 : Shape := ⟨3, ![129, 128, 128]⟩
abbrev S129 : Shape := ⟨1, ![129]⟩
abbrev S128 : Shape := ⟨1, ![128]⟩
abbrev S_ : Shape := ⟨0, ![]⟩
abbrev S128x8192x1 : Shape := ⟨3, ![128, 8192, 1]⟩
abbrev S128x129x128 : Shape := ⟨3, ![128, 129, 128]⟩
abbrev S128x1 : Shape := ⟨2, ![128, 1]⟩
abbrev S128x8192x2 : Shape := ⟨3, ![128, 8192, 2]⟩
abbrev S128x8192x128 : Shape := ⟨3, ![128, 8192, 128]⟩
abbrev S8192x128 : Shape := ⟨2, ![8192, 128]⟩

abbrev nBuf : Space → Nat
  | .hbm => 117
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S129x128x128, .f32⟩
  | .hbm, ⟨2, _⟩ => ⟨S129, .f32⟩
  | .hbm, ⟨3, _⟩ => ⟨S128, .f32⟩
  | .hbm, ⟨4, _⟩ => ⟨S128x8192, .f32⟩
  | .hbm, ⟨5, _⟩ => ⟨S128x8192, .f32⟩
  | .hbm, ⟨6, _⟩ => ⟨S128x8192, .f32⟩
  | .hbm, ⟨7, _⟩ => ⟨S_, .f32⟩
  | .hbm, ⟨8, _⟩ => ⟨S128x8192, .f32⟩
  | .hbm, ⟨9, _⟩ => ⟨S128x8192, .i1⟩
  | .hbm, ⟨10, _⟩ => ⟨S_, .f32⟩
  | .hbm, ⟨11, _⟩ => ⟨S128x8192, .f32⟩
  | .hbm, ⟨12, _⟩ => ⟨S128x8192, .f32⟩
  | .hbm, ⟨13, _⟩ => ⟨S_, .f32⟩
  | .hbm, ⟨14, _⟩ => ⟨S128x8192, .f32⟩
  | .hbm, ⟨15, _⟩ => ⟨S128x8192, .f32⟩
  | .hbm, ⟨16, _⟩ => ⟨S_, .f32⟩
  | .hbm, ⟨17, _⟩ => ⟨S128x8192, .f32⟩
  | .hbm, ⟨18, _⟩ => ⟨S128x8192, .f32⟩
  | .hbm, ⟨19, _⟩ => ⟨S128x8192, .f32⟩
  | .hbm, ⟨20, _⟩ => ⟨S_, .f32⟩
  | .hbm, ⟨21, _⟩ => ⟨S128x8192, .f32⟩
  | .hbm, ⟨22, _⟩ => ⟨S128x8192, .f32⟩
  | .hbm, ⟨23, _⟩ => ⟨S128x8192, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S128x8192, .i32⟩
  | .hbm, ⟨28, _⟩ => ⟨S128x8192, .i32⟩
  | .hbm, ⟨29, _⟩ => ⟨S_, .i32⟩
  | .hbm, ⟨30, _⟩ => ⟨S128x8192, .i32⟩
  | .hbm, ⟨31, _⟩ => ⟨S128x8192, .i32⟩
  | .hbm, ⟨32, _⟩ => ⟨S_, .i32⟩
  | .hbm, ⟨33, _⟩ => ⟨S128x8192, .i32⟩
  | .hbm, ⟨34, _⟩ => ⟨S128x8192, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S128x8192, .i32⟩
  | .hbm, ⟨39, _⟩ => ⟨S128x8192, .i32⟩
  | .hbm, ⟨40, _⟩ => ⟨S_, .i32⟩
  | .hbm, ⟨41, _⟩ => ⟨S128x8192, .i32⟩
  | .hbm, ⟨42, _⟩ => ⟨S128x8192, .i32⟩
  | .hbm, ⟨43, _⟩ => ⟨S_, .i32⟩
  | .hbm, ⟨44, _⟩ => ⟨S128x8192, .i32⟩
  | .hbm, ⟨45, _⟩ => ⟨S128x8192, .i1⟩
  | .hbm, ⟨46, _⟩ => ⟨S_, .i32⟩
  | .hbm, ⟨47, _⟩ => ⟨S128x8192, .i32⟩
  | .hbm, ⟨48, _⟩ => ⟨S128x8192, .i32⟩
  | .hbm, ⟨49, _⟩ => ⟨S128x8192, .i32⟩
  | .hbm, ⟨50, _⟩ => ⟨S128x8192x1, .i32⟩
  | .hbm, ⟨51, _⟩ => ⟨S128x8192, .f32⟩
  | .hbm, ⟨52, _⟩ => ⟨S_, .i32⟩
  | .hbm, ⟨53, _⟩ => ⟨S128x8192, .i32⟩
  | .hbm, ⟨54, _⟩ => ⟨S128x8192, .i1⟩
  | .hbm, ⟨55, _⟩ => ⟨S_, .i32⟩
  | .hbm, ⟨56, _⟩ => ⟨S128x8192, .i32⟩
  | .hbm, ⟨57, _⟩ => ⟨S128x8192, .i32⟩
  | .hbm, ⟨58, _⟩ => ⟨S128x8192, .i32⟩
  | .hbm, ⟨59, _⟩ => ⟨S128x8192x1, .i32⟩
  | .hbm, ⟨60, _⟩ => ⟨S128x8192, .f32⟩
  | .hbm, ⟨61, _⟩ => ⟨S128x8192, .f32⟩
  | .hbm, ⟨62, _⟩ => ⟨S128x8192, .f32⟩
  | .hbm, ⟨63, _⟩ => ⟨S128x129x128, .f32⟩
  | .hbm, ⟨64, _⟩ => ⟨S128, .i32⟩
  | .hbm, ⟨65, _⟩ => ⟨S128x1, .i32⟩
  | .hbm, ⟨66, _⟩ => ⟨S_, .i32⟩
  | .hbm, ⟨67, _⟩ => ⟨S128x1, .i32⟩
  | .hbm, ⟨68, _⟩ => ⟨S128x1, .i1⟩
  | .hbm, ⟨69, _⟩ => ⟨S_, .i32⟩
  | .hbm, ⟨70, _⟩ => ⟨S128x1, .i32⟩
  | .hbm, ⟨71, _⟩ => ⟨S128x1, .i32⟩
  | .hbm, ⟨72, _⟩ => ⟨S128x1, .i32⟩
  | .hbm, ⟨73, _⟩ => ⟨S_, .i32⟩
  | .hbm, ⟨74, _⟩ => ⟨S128x8192, .i32⟩
  | .hbm, ⟨75, _⟩ => ⟨S128x8192, .i1⟩
  | .hbm, ⟨76, _⟩ => ⟨S_, .i32⟩
  | .hbm, ⟨77, _⟩ => ⟨S128x8192, .i32⟩
  | .hbm, ⟨78, _⟩ => ⟨S128x8192, .i32⟩
  | .hbm, ⟨79, _⟩ => ⟨S128x8192, .i32⟩
  | .hbm, ⟨80, _⟩ => ⟨S128x8192, .i32⟩
  | .hbm, ⟨81, _⟩ => ⟨S128x8192x1, .i32⟩
  | .hbm, ⟨82, _⟩ => ⟨S128x8192x1, .i32⟩
  | .hbm, ⟨83, _⟩ => ⟨S128x8192x2, .i32⟩
  | .hbm, ⟨84, _⟩ => ⟨S128x8192x128, .f32⟩
  | .hbm, ⟨85, _⟩ => ⟨S_, .i32⟩
  | .hbm, ⟨86, _⟩ => ⟨S128x1, .i32⟩
  | .hbm, ⟨87, _⟩ => ⟨S128x1, .i1⟩
  | .hbm, ⟨88, _⟩ => ⟨S_, .i32⟩
  | .hbm, ⟨89, _⟩ => ⟨S128x1, .i32⟩
  | .hbm, ⟨90, _⟩ => ⟨S128x1, .i32⟩
  | .hbm, ⟨91, _⟩ => ⟨S128x1, .i32⟩
  | .hbm, ⟨92, _⟩ => ⟨S_, .i32⟩
  | .hbm, ⟨93, _⟩ => ⟨S128x8192, .i32⟩
  | .hbm, ⟨94, _⟩ => ⟨S128x8192, .i1⟩
  | .hbm, ⟨95, _⟩ => ⟨S_, .i32⟩
  | .hbm, ⟨96, _⟩ => ⟨S128x8192, .i32⟩
  | .hbm, ⟨97, _⟩ => ⟨S128x8192, .i32⟩
  | .hbm, ⟨98, _⟩ => ⟨S128x8192, .i32⟩
  | .hbm, ⟨99, _⟩ => ⟨S128x8192, .i32⟩
  | .hbm, ⟨100, _⟩ => ⟨S128x8192x1, .i32⟩
  | .hbm, ⟨101, _⟩ => ⟨S128x8192x1, .i32⟩
  | .hbm, ⟨102, _⟩ => ⟨S128x8192x2, .i32⟩
  | .hbm, ⟨103, _⟩ => ⟨S128x8192x128, .f32⟩
  | .hbm, ⟨104, _⟩ => ⟨S_, .f32⟩
  | .hbm, ⟨105, _⟩ => ⟨S128x8192, .f32⟩
  | .hbm, ⟨106, _⟩ => ⟨S128x8192, .f32⟩
  | .hbm, ⟨107, _⟩ => ⟨S128x8192x1, .f32⟩
  | .hbm, ⟨108, _⟩ => ⟨S128x8192x128, .f32⟩
  | .hbm, ⟨109, _⟩ => ⟨S128x8192x128, .f32⟩
  | .hbm, ⟨110, _⟩ => ⟨S128x8192x1, .f32⟩
  | .hbm, ⟨111, _⟩ => ⟨S128x8192x128, .f32⟩
  | .hbm, ⟨112, _⟩ => ⟨S128x8192x128, .f32⟩
  | .hbm, ⟨113, _⟩ => ⟨S128x8192x128, .f32⟩
  | .hbm, ⟨114, _⟩ => ⟨S_, .f32⟩
  | .hbm, ⟨115, _⟩ => ⟨S8192x128, .f32⟩
  | .hbm, ⟨116, _⟩ => ⟨S128x8192, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_c_4 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_c_7 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v18 : Ref sig .tc := ⟨.hbm, 42, rfl⟩
abbrev main_c_8 : Ref sig .tc := ⟨.hbm, 43, rfl⟩
abbrev main_v19 : Ref sig .tc := ⟨.hbm, 44, rfl⟩
abbrev main_v20 : Ref sig .tc := ⟨.hbm, 45, rfl⟩
abbrev main_c_9 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_10 : Ref sig .tc := ⟨.hbm, 52, rfl⟩
abbrev main_v26 : Ref sig .tc := ⟨.hbm, 53, rfl⟩
abbrev main_v27 : Ref sig .tc := ⟨.hbm, 54, rfl⟩
abbrev main_c_11 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_12 : Ref sig .tc := ⟨.hbm, 66, rfl⟩
abbrev main_v38 : Ref sig .tc := ⟨.hbm, 67, rfl⟩
abbrev main_v39 : Ref sig .tc := ⟨.hbm, 68, rfl⟩
abbrev main_c_13 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_14 : Ref sig .tc := ⟨.hbm, 73, rfl⟩
abbrev main_v43 : Ref sig .tc := ⟨.hbm, 74, rfl⟩
abbrev main_v44 : Ref sig .tc := ⟨.hbm, 75, rfl⟩
abbrev main_c_15 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_16 : Ref sig .tc := ⟨.hbm, 85, rfl⟩
abbrev main_v53 : Ref sig .tc := ⟨.hbm, 86, rfl⟩
abbrev main_v54 : Ref sig .tc := ⟨.hbm, 87, rfl⟩
abbrev main_c_17 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_18 : Ref sig .tc := ⟨.hbm, 92, rfl⟩
abbrev main_v58 : Ref sig .tc := ⟨.hbm, 93, rfl⟩
abbrev main_v59 : Ref sig .tc := ⟨.hbm, 94, rfl⟩
abbrev main_c_19 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_20 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_21 : Ref sig .tc := ⟨.hbm, 114, rfl⟩
abbrev main_v77 : Ref sig .tc := ⟨.hbm, 115, rfl⟩
abbrev main_v78 : Ref sig .tc := ⟨.hbm, 116, rfl⟩

abbrev nD : Nat := 1
abbrev τ : Topo := Topo.v7x

variable {F : FTy → Type} [FloatOps F]

class Facts₀ : Prop where
  bcast_S_S128x8192 : S_.BroadcastsInDim S128x8192 (![] : Fin 0 → Fin S128x8192.rank)
  bcast_S128x8192_S128x8192x1_0_1 : S128x8192.BroadcastsInDim S128x8192x1 (![0, 1] : Fin 2 → Fin S128x8192x1.rank)
  transposes_S129x128x128_S128x129x128_2_0_1 : S129x128x128.Transposes [2, 0, 1] S128x129x128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x8192_0_1 : S128x1.BroadcastsInDim S128x8192 (![0, 1] : Fin 2 → Fin S128x8192.rank)
  concatenates_S128x8192x1_S128x8192x1_S128x8192x2_d2 : Shape.Concatenates [S128x8192x1, S128x8192x1] S128x8192x2 2
  bcast_S128x8192x1_S128x8192x128_0_1_2 : S128x8192x1.BroadcastsInDim S128x8192x128 (![0, 1, 2] : Fin 3 → Fin S128x8192x128.rank)
  reducesTo_S128x8192x128_S8192x128_d0 : S128x8192x128.ReducesTo [0] S8192x128
  h_S_ : 0 < S_.numel
  transposes_S8192x128_S128x8192_1_0 : S8192x128.Transposes [1, 0] S128x8192
  gather_S129_S128x8192x1_S128x8192_n_0_n_n_0_2_1_wf : GatherDims.WF S129 S128x8192x1 S128x8192 [] [0] [] [0] [] 2 ![1]
  gather_S128_S128x8192x1_S128x8192_n_0_n_n_0_2_1_wf : GatherDims.WF S128 S128x8192x1 S128x8192 [] [0] [] [0] [] 2 ![1]
  gather_S128x129x128_S128x8192x2_S128x8192x128_2_01_n_n_01_2_11128_wf : GatherDims.WF S128x129x128 S128x8192x2 S128x8192x128 [2] [0, 1] [] [0, 1] [] 2 ![1, 1, 128]

variable [Facts₀]

def gather_S129_S128x8192x1_S128x8192_n_0_n_n_0_2_1 : GatherDims S129 S128x8192x1 S128x8192 where
  offsetDims := []
  collapsedSliceDims := [0]
  operandBatchingDims := []
  startIndicesBatchingDims := []
  startIndexMap := [0]
  indexVectorDim := 2
  sliceSizes := ![1]
  wf := gather_S129_S128x8192x1_S128x8192_n_0_n_n_0_2_1_wf
def gather_S128_S128x8192x1_S128x8192_n_0_n_n_0_2_1 : GatherDims S128 S128x8192x1 S128x8192 where
  offsetDims := []
  collapsedSliceDims := [0]
  operandBatchingDims := []
  startIndicesBatchingDims := []
  startIndexMap := [0]
  indexVectorDim := 2
  sliceSizes := ![1]
  wf := gather_S128_S128x8192x1_S128x8192_n_0_n_n_0_2_1_wf
def gather_S128x129x128_S128x8192x2_S128x8192x128_2_01_n_n_01_2_11128 : GatherDims S128x129x128 S128x8192x2 S128x8192x128 where
  offsetDims := [2]
  collapsedSliceDims := [0, 1]
  operandBatchingDims := []
  startIndicesBatchingDims := []
  startIndexMap := [0, 1]
  indexVectorDim := 2
  sliceSizes := ![1, 1, 128]
  wf := gather_S128x129x128_S128x8192x2_S128x8192x128_2_01_n_n_01_2_11128_wf

class Facts : Prop extends Facts₀ where

variable [Facts]
-- ==== Proof.Spec.lean ====
/-
  The function both programs compute, stated once over the argument arrays.

  For an input dimension `i` and a batch column `b` let `a = x[i, b]`. The Laplace distribution function sends `a` to
  `cdf a ∈ [0, 1]`; scaled by the number of grid cells (128), truncated to an integer and clamped into `[0, 127]`
  it names a cell `bkt a`. Inside that cell the position of `a` is the weight
  `w = (a - borders[bkt a]) · inverse_chunk_lengths[bkt a]`, and output row `o` receives from dimension `i` the value
  of the piecewise-linear function with knots `P[·, o, i]` there: `P[n, o, i] + (P[n + 1, o, i] - P[n, o, i]) · w`,
  which is the same real number as `(1 - w) · P[n, o, i] + w · P[n + 1, o, i]` whenever everything is finite.
  The result at `(o, b)` is the sum of these contributions over the 128 input dimensions.
-/
import Idealize.ShloMosaic.PureOps.Ideal
import Idealize.ShloMosaic.Lib.ValueIdx

noncomputable section

namespace Cert.Interp

open Idealize.ShloMosaic Idealize.ShloMosaic.ValueIdx

/-- The shapes of the four arguments and of the result. -/
abbrev XS : Shape := ⟨2, ![128, 8192]⟩
abbrev PS : Shape := ⟨3, ![129, 128, 128]⟩
abbrev BS : Shape := ⟨1, ![129]⟩
abbrev LS : Shape := ⟨1, ![128]⟩

/-- The four float literals of the computation: 0, 1/2, 1 and the number of cells 128. -/
abbrev zeroF : EReal := Ideal.ofBits .f32 0x00000000#32
abbrev halfF : EReal := Ideal.ofBits .f32 0x3F000000#32
abbrev oneF : EReal := Ideal.ofBits .f32 0x3F800000#32
abbrev cellsF : EReal := Ideal.ofBits .f32 0x43000000#32

/-- `exp (-|a|)`, written as the difference `0 - |a|` under the exponential. -/
def expNegAbs (a : EReal) : EReal := Ideal.exp (zeroF - FloatOps.absf (F := Ideal) (φ := .f32) a)

/-- The Laplace distribution function: `1 - exp (-|a|) / 2` to the right of zero, `exp (-|a|) / 2` elsewhere. -/
def cdf (a : EReal) : EReal :=
  Scalar.select (FloatOps.cmpf (F := Ideal) (φ := .f32) .ogt a zeroF) (oneF - halfF * expNegAbs a) (halfF * expNegAbs a)

/-- The cell of `a` as a 32-bit word: `cdf a · 128` truncated toward zero, then clamped into `[0, 127]`. -/
def bucket (a : EReal) : BitVec 32 :=
  IntOp.minsi 127#32 (IntOp.maxsi 0#32 (Ideal.fptosi 32 (cdf a * cellsF)))

/-- A word clamped below by 0 and above by 127 (signed) is a natural number below 128. -/
theorem clamp_toNat_lt (z : BitVec 32) : (IntOp.minsi 127#32 (IntOp.maxsi 0#32 z)).toNat < 128 := by
  have h0 : (0#32 : BitVec 32).toInt = 0 := by decide
  have h127 : (127#32 : BitVec 32).toInt = 127 := by decide
  have key : ∀ r : BitVec 32, 0 ≤ r.toInt → r.toInt ≤ 127 → r.toNat < 128 := by
    intro r h1 h2
    rw [BitVec.toInt_eq_toNat_cond] at h1 h2
    split_ifs at h1 h2 <;> omega
  apply key
  · unfold IntOp.minsi IntOp.maxsi
    simp only [BitVec.slt, decide_eq_true_eq]
    split_ifs <;> simp only [h0, h127] at * <;> omega
  · unfold IntOp.minsi IntOp.maxsi
    simp only [BitVec.slt, decide_eq_true_eq]
    split_ifs <;> simp only [h0, h127] at * <;> omega

theorem bucket_lt (a : EReal) : (bucket a).toNat < 128 := clamp_toNat_lt _

/-- The cell of `a`, as an index into the 128 cells. -/
def bkt (a : EReal) : Fin 128 := ⟨(bucket a).toNat, bucket_lt a⟩

/-- The left knot's index `bkt a` and the right knot's `bkt a + 1` among the 129 knots. -/
def knotL (a : EReal) : Fin 129 := ⟨(bkt a).val, Nat.lt_succ_of_lt (bkt a).isLt⟩
def knotR (a : EReal) : Fin 129 := ⟨(bkt a).val + 1, Nat.succ_lt_succ (bkt a).isLt⟩

section
variable (x : XS.Idx → EReal) (P : PS.Idx → EReal) (bd : BS.Idx → EReal) (il : LS.Idx → EReal)

/-- The position of `a` inside its cell: `(a - borders[bkt a]) · inverse_chunk_lengths[bkt a]`. -/
def wgt (a : EReal) : EReal := (a - bd (ix1 (knotL a))) * il (ix1 (bkt a))

/-- Dimension `i`'s contribution to output `(o, b)`, as left knot plus weighted difference. -/
def termK (i o : Fin 128) (b : Fin 8192) : EReal :=
  P (ix3 (knotL (x (ix2 i b))) o i)
    + (P (ix3 (knotR (x (ix2 i b))) o i) - P (ix3 (knotL (x (ix2 i b))) o i)) * wgt bd il (x (ix2 i b))

/-- The same contribution as the convex combination of the two knots. -/
def termR (i o : Fin 128) (b : Fin 8192) : EReal :=
  (oneF - wgt bd il (x (ix2 i b))) * P (ix3 (knotL (x (ix2 i b))) o i)
    + wgt bd il (x (ix2 i b)) * P (ix3 (knotR (x (ix2 i b))) o i)

/-- The result array in the first form: at `(o, b)` the sum over the input dimensions. -/
def GK : XS.Idx → EReal := fun y =>
  ∑ i : Fin 128, termK x P bd il i ⟨(y 0).val, idx2_lt0 y⟩ ⟨(y 1).val, idx2_lt1 y⟩

/-- The result array in the second form. -/
def GR : XS.Idx → EReal := fun y =>
  ∑ i : Fin 128, termR x P bd il i ⟨(y 0).val, idx2_lt0 y⟩ ⟨(y 1).val, idx2_lt1 y⟩

end

end Cert.Interp

end
-- ==== Proof.Facts.lean ====
/-
  The two forms of one contribution are the same real number when the arrays hold finite numbers, so the two forms of
  the result array agree.
-/
import proofs.«113301_j2293512536822_2_alg».proof.Proof.Spec

noncomputable section

namespace Cert.Interp

open Idealize.ShloMosaic Idealize.ShloMosaic.ValueIdx

/-- The literal `1.0`: sign bit clear, biased exponent 127, fraction zero, so `2 ^ 23 · 2 ^ (127 - 127 - 23) = 1`. -/
theorem oneF_eq : oneF = ((1 : ℝ) : EReal) := by
  simp [Ideal.ofBits, Ideal.ieee, -EReal.coe_mul]
  norm_num

/-- The identity on real numbers: with the weight `w = (a - d) · s`, the convex combination `(1 - w) · l + w · r` of the
    knots `l` and `r` is `l + (r - l) · w`. All five numbers are finite, so every operation on the extended reals is the
    real one, and the equation is an identity of the commutative ring `ℝ`. -/
theorem convex_eq_knot_add (a l r d s : ℝ) :
    (oneF - ((a : EReal) - (d : EReal)) * (s : EReal)) * (l : EReal) + ((a : EReal) - (d : EReal)) * (s : EReal) * (r : EReal)
      = (l : EReal) + ((r : EReal) - (l : EReal)) * (((a : EReal) - (d : EReal)) * (s : EReal)) := by
  rw [oneF_eq]
  simp only [← EReal.coe_sub, ← EReal.coe_mul, ← EReal.coe_add]
  rw [EReal.coe_eq_coe_iff]
  ring

section
variable (x : XS.Idx → EReal) (P : PS.Idx → EReal) (bd : BS.Idx → EReal) (il : LS.Idx → EReal)

/-- One dimension's contribution: the entry `x[i, b]`, the two knots, the border and the inverse length it selects are
    all real, so the two forms agree by the identity above. -/
theorem termR_eq_termK
    (hx : ∀ y, ∃ r : ℝ, x y = (r : EReal)) (hP : ∀ y, ∃ r : ℝ, P y = (r : EReal))
    (hbd : ∀ y, ∃ r : ℝ, bd y = (r : EReal)) (hil : ∀ y, ∃ r : ℝ, il y = (r : EReal))
    (i o : Fin 128) (b : Fin 8192) : termR x P bd il i o b = termK x P bd il i o b := by
  unfold termR termK wgt
  obtain ⟨l, hl⟩ := hP (ix3 (knotL (x (ix2 i b))) o i)
  obtain ⟨r, hr⟩ := hP (ix3 (knotR (x (ix2 i b))) o i)
  obtain ⟨d, hd⟩ := hbd (ix1 (knotL (x (ix2 i b))))
  obtain ⟨s, hs⟩ := hil (ix1 (bkt (x (ix2 i b))))
  obtain ⟨a, ha⟩ := hx (ix2 i b)
  rw [hl, hr, hd, hs, ha]
  exact convex_eq_knot_add a l r d s

end

/-- With every entry of the four arrays a real number, the convex combination of the two knots is the left knot plus
    the weighted difference, dimension by dimension, hence the sums agree. -/
theorem GR_eq_GK (x : XS.Idx → EReal) (P : PS.Idx → EReal) (bd : BS.Idx → EReal) (il : LS.Idx → EReal)
    (hx : ∀ y, ∃ r : ℝ, x y = (r : EReal)) (hP : ∀ y, ∃ r : ℝ, P y = (r : EReal))
    (hbd : ∀ y, ∃ r : ℝ, bd y = (r : EReal)) (hil : ∀ y, ∃ r : ℝ, il y = (r : EReal)) :
    GR x P bd il = GK x P bd il := by
  funext y
  unfold GR GK
  exact Finset.sum_congr rfl (fun i _ => termR_eq_termK x P bd il hx hP hbd hil i _ _)

end Cert.Interp

end
-- ==== Proof.Finite.lean ====
/-
  The precondition says every entry of the four argument arrays is smaller in absolute value than +∞; on the
  extended reals that makes each entry a real number.
-/
import proofs.«113301_j2293512536822_2_alg».proof.Defs
import proofs.«113301_j2293512536822_2_alg».proof.Proof.Gen.Pre_finite_inputs
import proofs.«113301_j2293512536822_2_alg».proof.Proof.Spec
import Idealize.ShloMosaic.Lib.ReduceAll

noncomputable section

namespace Cert.Interp

open Idealize.ShloMosaic Idealize.ShloMosaic.ValueIdx Idealize.SL.Sem

/-- The rank-0 shape has exactly one index, the empty tuple. -/
instance subsingleton_scalarIdx : Subsingleton Cert.Pre_finite_inputs.S_.Idx :=
  ⟨fun _ _ => funext fun d => d.elim0⟩

/-- The pattern with the exponent field all ones, fraction zero and sign clear is `+∞`. -/
theorem posInf_eq : Ideal.ofBits .f32 0x7F800000#32 = (⊤ : EReal) := by
  simp [Ideal.ofBits, Ideal.ieee]

/-- A truth value whose one-bit word is `1` is `true`. -/
theorem ofBool_eq_one {b : Bool} (h : BitVec.ofBool b = 1#1) : b = true := by
  revert h
  cases b <;> decide

/-- One entry: `|a| = max a (-a)` on the extended reals, and `max a (-a) < +∞` rules out both `a = +∞` and
    `a = -∞` (whose negation is `+∞`); what is left is a real number. -/
theorem real_of_abs_lt_posInf (a : EReal)
    (h : FloatOps.cmpf (F := Ideal) (φ := .f32) .olt (FloatOps.hostAbsf (F := Ideal) (φ := .f32) a)
          (FloatOps.ofBits (F := Ideal) .f32 0x7F800000#32) = 1#1) :
    ∃ r : ℝ, a = (r : EReal) := by
  have h' : Ideal.cmp .olt (max a (-a)) (Ideal.ofBits .f32 0x7F800000#32) = 1#1 := h
  rw [posInf_eq] at h'
  have hb : BitVec.ofBool (decide (max a (-a) < ⊤)) = 1#1 := h'
  have hlt : max a (-a) < ⊤ := of_decide_eq_true (ofBool_eq_one hb)
  induction a using EReal.rec with
  | bot => simp at hlt
  | coe r => exact ⟨r, rfl⟩
  | top => simp at hlt

/-- Under the precondition every entry of each argument array of the idealized kernel is a real number. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ y, ∃ r : ℝ, (m ((c.tc : Thread Cert.KernelIdeal.nD Cert.KernelIdeal.τ).loc Cert.KernelIdeal.main_arg0) : XS.Idx → EReal) y = (r : EReal))
    ∧ (∀ y, ∃ r : ℝ, (m ((c.tc : Thread Cert.KernelIdeal.nD Cert.KernelIdeal.τ).loc Cert.KernelIdeal.main_arg1) : PS.Idx → EReal) y = (r : EReal))
    ∧ (∀ y, ∃ r : ℝ, (m ((c.tc : Thread Cert.KernelIdeal.nD Cert.KernelIdeal.τ).loc Cert.KernelIdeal.main_arg2) : BS.Idx → EReal) y = (r : EReal))
    ∧ (∀ y, ∃ r : ℝ, (m ((c.tc : Thread Cert.KernelIdeal.nD Cert.KernelIdeal.τ).loc Cert.KernelIdeal.main_arg3) : LS.Idx → EReal) y = (r : EReal)) := by
  have h0 := congrFun (h c) ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun y => ?_, fun y => ?_, fun y => ?_, fun y => ?_⟩
  · exact real_of_abs_lt_posInf _ (Host.reduce_andi_all _ _ _ _ _ h0' y)
  · exact real_of_abs_lt_posInf _ (Host.reduce_andi_all _ _ _ _ _ h1 y)
  · exact real_of_abs_lt_posInf _ (Host.reduce_andi_all _ _ _ _ _ h2 y)
  · exact real_of_abs_lt_posInf _ (Host.reduce_andi_all _ _ _ _ _ h3 y)

end Cert.Interp

end
-- ==== Proof.RefStretches.lean ====
/-
   The reference program's 113 host operations, cut into thirteen stretches, each run over ANY buffer contents `W`:
   the cumulative distribution value, the cell, the next cell, the border at the cell, the inverse length at the
   cell, the weight, the transposed table with the row numbers, the two index columns of the left knots' gather and
   that gather, the row numbers again, the two index columns of the right knots' gather and that gather, and the
   combination summed over the input dimensions. A stretch reads the contents before it at a few
   buffers only, so what it leaves is a stage function of those few values, whatever the rest of `W` is; and a
   buffer a stretch does not write is left as it was. -/
import proofs.«113301_j2293512536822_2_alg».proof.Proof.RefOps
import proofs.«113301_j2293512536822_2_alg».proof.Proof.RefRead
import Idealize.ShloMosaic.Lib.StableHlo.Run

set_option maxRecDepth 8192
set_option maxHeartbeats 4000000

noncomputable section

namespace Cert.ReferenceIdeal.RefStretches

open Cert.ReferenceIdeal Cert.ReferenceIdeal.Gen Cert.ReferenceIdeal.RefOps Cert.ReferenceIdeal.RefRead Idealize.ShloMosaic Idealize.ShloMosaic.TcCoe Idealize.SL.Sem Idealize.ShloMosaic.StableHlo

variable {F : FTy → Type} [FloatOps F]

/-- Stretch 1: operations 1 … 16 of the line. -/
abbrev st1 : List (HloOp τ sig (Elt F)) :=
  [ unary main_arg0 main_v0 (Host.absf : (⟨S128x8192, .f32⟩ : BufTy).Contents (Elt F) → (⟨S128x8192, .f32⟩ : BufTy).Contents (Elt F)),
    unary main_v0 main_v1 (Host.negf : (⟨S128x8192, .f32⟩ : BufTy).Contents (Elt F) → (⟨S128x8192, .f32⟩ : BufTy).Contents (Elt F)),
    unary main_v1 main_v2 (Host.exp : (⟨S128x8192, .f32⟩ : BufTy).Contents (Elt F) → (⟨S128x8192, .f32⟩ : BufTy).Contents (Elt F)),
    nullary main_cst (constant S_ .f32 0x00000000#32),
    unary main_cst main_v3 (broadcastInDim S128x8192 ![] bcast_S_S128x8192 : (⟨S_, .f32⟩ : BufTy).Contents (Elt F) → (⟨S128x8192, .f32⟩ : BufTy).Contents (Elt F)),
    binary main_arg0 main_v3 main_v4 (cmpf .ogt : (⟨S128x8192, .f32⟩ : BufTy).Contents (Elt F) → (⟨S128x8192, .f32⟩ : BufTy).Contents (Elt F) → (⟨S128x8192, .i1⟩ : BufTy).Contents (Elt F)),
    nullary main_cst_0 (constant S_ .f32 0x3F000000#32),
    unary main_cst_0 main_v5 (broadcastInDim S128x8192 ![] bcast_S_S128x8192 : (⟨S_, .f32⟩ : BufTy).Contents (Elt F) → (⟨S128x8192, .f32⟩ : BufTy).Contents (Elt F)),
    binary main_v5 main_v2 main_v6 (mulf : (⟨S128x8192, .f32⟩ : BufTy).Contents (Elt F) → (⟨S128x8192, .f32⟩ : BufTy).Contents (Elt F) → (⟨S128x8192, .f32⟩ : BufTy).Contents (Elt F)),
    nullary main_cst_1 (constant S_ .f32 0x3F800000#32),
    unary main_cst_1 main_v7 (broadcastInDim S128x8192 ![] bcast_S_S128x8192 : (⟨S_, .f32⟩ : BufTy).Contents (Elt F) → (⟨S128x8192, .f32⟩ : BufTy).Contents (Elt F)),
    binary main_v7 main_v6 main_v8 (subf : (⟨S128x8192, .f32⟩ : BufTy).Contents (Elt F) → (⟨S128x8192, .f32⟩ : BufTy).Contents (Elt F) → (⟨S128x8192, .f32⟩ : BufTy).Contents (Elt F)),
    nullary main_cst_2 (constant S_ .f32 0x3F000000#32),
    unary main_cst_2 main_v9 (broadcastInDim S128x8192 ![] bcast_S_S128x8192 : (⟨S_, .f32⟩ : BufTy).Contents (Elt F) → (⟨S128x8192, .f32⟩ : BufTy).Contents (Elt F)),
    binary main_v9 main_v2 main_v10 (mulf : (⟨S128x8192, .f32⟩ : BufTy).Contents (Elt F) → (⟨S128x8192, .f32⟩ : BufTy).Contents (Elt F) → (⟨S128x8192, .f32⟩ : BufTy).Contents (Elt F)),
    TRef.ternary (TRef.of (T := ⟨S128x8192, .i1⟩) main_v4) (TRef.of (T := ⟨S128x8192, .f32⟩) main_v8) (TRef.of (T := ⟨S128x8192, .f32⟩) main_v10) (TRef.of (T := ⟨S128x8192, .f32⟩) main_v11) select ]

/-- Stretch 2: operations 17 … 28 of the line. -/
abbrev st2 : List (HloOp τ sig (Elt F)) :=
  [ nullary main_cst_3 (constant S_ .f32 0x43000000#32),
    unary main_cst_3 main_v12 (broadcastInDim S128x8192 ![] bcast_S_S128x8192 : (⟨S_, .f32⟩ : BufTy).Contents (Elt F) → (⟨S128x8192, .f32⟩ : BufTy).Contents (Elt F)),
    binary main_v11 main_v12 main_v13 (mulf : (⟨S128x8192, .f32⟩ : BufTy).Contents (Elt F) → (⟨S128x8192, .f32⟩ : BufTy).Contents (Elt F) → (⟨S128x8192, .f32⟩ : BufTy).Contents (Elt F)),
    unary main_v13 main_v14 (fptosi 32 : (⟨S128x8192, .f32⟩ : BufTy).Contents (Elt F) → (⟨S128x8192, .i32⟩ : BufTy).Contents (Elt F)),
    nullary main_c (constantI S_ 32 0#32),
    nullary main_c_4 (constantI S_ 32 127#32),
    TRef.unary (TRef.of (T := ⟨S_, .i32⟩) main_c) (TRef.of (T := ⟨S_, .i32⟩) main_call1_v0) id,
    TRef.unary (TRef.of (T := ⟨S_, .i32⟩) main_call1_v0) (TRef.of (T := ⟨S128x8192, .i32⟩) main_call1_v1) (broadcastInDim S128x8192 ![] bcast_S_S128x8192),
    TRef.binary (TRef.of (T := ⟨S128x8192, .i32⟩) main_call1_v1) (TRef.of (T := ⟨S128x8192, .i32⟩) main_v14) (TRef.of (T := ⟨S128x8192, .i32⟩) main_call1_v2) maxsi,
    TRef.unary (TRef.of (T := ⟨S_, .i32⟩) main_c_4) (TRef.of (T := ⟨S_, .i32⟩) main_call1_v3) id,
    TRef.unary (TRef.of (T := ⟨S_, .i32⟩) main_call1_v3) (TRef.of (T := ⟨S128x8192, .i32⟩) main_call1_v4) (broadcastInDim S128x8192 ![] bcast_S_S128x8192),
    TRef.binary (TRef.of (T := ⟨S128x8192, .i32⟩) main_call1_v4) (TRef.of (T := ⟨S128x8192, .i32⟩) main_call1_v2) (TRef.of (T := ⟨S128x8192, .i32⟩) main_v15) minsi ]

/-- Stretch 3: operations 29 … 39 of the line. -/
abbrev st3 : List (HloOp τ sig (Elt F)) :=
  [ nullary main_c_5 (constantI S_ 32 1#32),
    unary main_c_5 main_v16 (broadcastInDim S128x8192 ![] bcast_S_S128x8192 : (⟨S_, .i32⟩ : BufTy).Contents (Elt F) → (⟨S128x8192, .i32⟩ : BufTy).Contents (Elt F)),
    binary main_v15 main_v16 main_v17 (addi : (⟨S128x8192, .i32⟩ : BufTy).Contents (Elt F) → (⟨S128x8192, .i32⟩ : BufTy).Contents (Elt F) → (⟨S128x8192, .i32⟩ : BufTy).Contents (Elt F)),
    nullary main_c_6 (constantI S_ 32 0#32),
    nullary main_c_7 (constantI S_ 32 128#32),
    TRef.unary (TRef.of (T := ⟨S_, .i32⟩) main_c_6) (TRef.of (T := ⟨S_, .i32⟩) main_call2_v0) id,
    TRef.unary (TRef.of (T := ⟨S_, .i32⟩) main_call2_v0) (TRef.of (T := ⟨S128x8192, .i32⟩) main_call2_v1) (broadcastInDim S128x8192 ![] bcast_S_S128x8192),
    TRef.binary (TRef.of (T := ⟨S128x8192, .i32⟩) main_call2_v1) (TRef.of (T := ⟨S128x8192, .i32⟩) main_v17) (TRef.of (T := ⟨S128x8192, .i32⟩) main_call2_v2) maxsi,
    TRef.unary (TRef.of (T := ⟨S_, .i32⟩) main_c_7) (TRef.of (T := ⟨S_, .i32⟩) main_call2_v3) id,
    TRef.unary (TRef.of (T := ⟨S_, .i32⟩) main_call2_v3) (TRef.of (T := ⟨S128x8192, .i32⟩) main_call2_v4) (broadcastInDim S128x8192 ![] bcast_S_S128x8192),
    TRef.binary (TRef.of (T := ⟨S128x8192, .i32⟩) main_call2_v4) (TRef.of (T := ⟨S128x8192, .i32⟩) main_call2_v2) (TRef.of (T := ⟨S128x8192, .i32⟩) main_v18) minsi ]

/-- Stretch 4: operations 40 … 48 of the line. -/
abbrev st4 : List (HloOp τ sig (Elt F)) :=
  [ nullary main_c_8 (constantI S_ 32 0#32),
    unary main_c_8 main_v19 (broadcastInDim S128x8192 ![] bcast_S_S128x8192 : (⟨S_, .i32⟩ : BufTy).Contents (Elt F) → (⟨S128x8192, .i32⟩ : BufTy).Contents (Elt F)),
    binary main_v15 main_v19 main_v20 (cmpi .slt : (⟨S128x8192, .i32⟩ : BufTy).Contents (Elt F) → (⟨S128x8192, .i32⟩ : BufTy).Contents (Elt F) → (⟨S128x8192, .i1⟩ : BufTy).Contents (Elt F)),
    nullary main_c_9 (constantI S_ 32 129#32),
    unary main_c_9 main_v21 (broadcastInDim S128x8192 ![] bcast_S_S128x8192 : (⟨S_, .i32⟩ : BufTy).Contents (Elt F) → (⟨S128x8192, .i32⟩ : BufTy).Contents (Elt F)),
    binary main_v15 main_v21 main_v22 (addi : (⟨S128x8192, .i32⟩ : BufTy).Contents (Elt F) → (⟨S128x8192, .i32⟩ : BufTy).Contents (Elt F) → (⟨S128x8192, .i32⟩ : BufTy).Contents (Elt F)),
    ternary main_v20 main_v22 main_v15 main_v23 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v23 main_v24 (broadcastInDim S128x8192x1 ![0, 1] bcast_S128x8192_S128x8192x1_0_1 : (⟨S128x8192, .i32⟩ : BufTy).Contents (Elt F) → (⟨S128x8192x1, .i32⟩ : BufTy).Contents (Elt F)),
    binary main_arg2 main_v24 main_v25 ((fun x i => Host.gather gather_S129_S128x8192x1_S128x8192_n_0_n_n_0_2_1 x i) : (⟨S129, .f32⟩ : BufTy).Contents (Elt F) → (⟨S128x8192x1, .i32⟩ : BufTy).Contents (Elt F) → (⟨S128x8192, .f32⟩ : BufTy).Contents (Elt F)) ]

/-- Stretch 5: operations 49 … 57 of the line. -/
abbrev st5 : List (HloOp τ sig (Elt F)) :=
  [ nullary main_c_10 (constantI S_ 32 0#32),
    unary main_c_10 main_v26 (broadcastInDim S128x8192 ![] bcast_S_S128x8192 : (⟨S_, .i32⟩ : BufTy).Contents (Elt F) → (⟨S128x8192, .i32⟩ : BufTy).Contents (Elt F)),
    binary main_v15 main_v26 main_v27 (cmpi .slt : (⟨S128x8192, .i32⟩ : BufTy).Contents (Elt F) → (⟨S128x8192, .i32⟩ : BufTy).Contents (Elt F) → (⟨S128x8192, .i1⟩ : BufTy).Contents (Elt F)),
    nullary main_c_11 (constantI S_ 32 128#32),
    unary main_c_11 main_v28 (broadcastInDim S128x8192 ![] bcast_S_S128x8192 : (⟨S_, .i32⟩ : BufTy).Contents (Elt F) → (⟨S128x8192, .i32⟩ : BufTy).Contents (Elt F)),
    binary main_v15 main_v28 main_v29 (addi : (⟨S128x8192, .i32⟩ : BufTy).Contents (Elt F) → (⟨S128x8192, .i32⟩ : BufTy).Contents (Elt F) → (⟨S128x8192, .i32⟩ : BufTy).Contents (Elt F)),
    ternary main_v27 main_v29 main_v15 main_v30 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v30 main_v31 (broadcastInDim S128x8192x1 ![0, 1] bcast_S128x8192_S128x8192x1_0_1 : (⟨S128x8192, .i32⟩ : BufTy).Contents (Elt F) → (⟨S128x8192x1, .i32⟩ : BufTy).Contents (Elt F)),
    binary main_arg3 main_v31 main_v32 ((fun x i => Host.gather gather_S128_S128x8192x1_S128x8192_n_0_n_n_0_2_1 x i) : (⟨S128, .f32⟩ : BufTy).Contents (Elt F) → (⟨S128x8192x1, .i32⟩ : BufTy).Contents (Elt F) → (⟨S128x8192, .f32⟩ : BufTy).Contents (Elt F)) ]

/-- Stretch 6: operations 58 … 59 of the line. -/
abbrev st6 : List (HloOp τ sig (Elt F)) :=
  [ binary main_arg0 main_v25 main_v33 (subf : (⟨S128x8192, .f32⟩ : BufTy).Contents (Elt F) → (⟨S128x8192, .f32⟩ : BufTy).Contents (Elt F) → (⟨S128x8192, .f32⟩ : BufTy).Contents (Elt F)),
    binary main_v33 main_v32 main_v34 (mulf : (⟨S128x8192, .f32⟩ : BufTy).Contents (Elt F) → (⟨S128x8192, .f32⟩ : BufTy).Contents (Elt F) → (⟨S128x8192, .f32⟩ : BufTy).Contents (Elt F)) ]

/-- Stretch 7: operations 60 … 69 of the line. -/
abbrev st7 : List (HloOp τ sig (Elt F)) :=
  [ unary main_arg1 main_v35 ((transpose S128x129x128 [2, 0, 1] · transposes_S129x128x128_S128x129x128_2_0_1) : (⟨S129x128x128, .f32⟩ : BufTy).Contents (Elt F) → (⟨S128x129x128, .f32⟩ : BufTy).Contents (Elt F)),
    nullary main_v36 (iotaInDim S128 32 0),
    unary main_v36 main_v37 (broadcastInDim S128x1 ![0] bcast_S128_S128x1_0 : (⟨S128, .i32⟩ : BufTy).Contents (Elt F) → (⟨S128x1, .i32⟩ : BufTy).Contents (Elt F)),
    nullary main_c_12 (constantI S_ 32 0#32),
    unary main_c_12 main_v38 (broadcastInDim S128x1 ![] bcast_S_S128x1 : (⟨S_, .i32⟩ : BufTy).Contents (Elt F) → (⟨S128x1, .i32⟩ : BufTy).Contents (Elt F)),
    binary main_v37 main_v38 main_v39 (cmpi .slt : (⟨S128x1, .i32⟩ : BufTy).Contents (Elt F) → (⟨S128x1, .i32⟩ : BufTy).Contents (Elt F) → (⟨S128x1, .i1⟩ : BufTy).Contents (Elt F)),
    nullary main_c_13 (constantI S_ 32 128#32),
    unary main_c_13 main_v40 (broadcastInDim S128x1 ![] bcast_S_S128x1 : (⟨S_, .i32⟩ : BufTy).Contents (Elt F) → (⟨S128x1, .i32⟩ : BufTy).Contents (Elt F)),
    binary main_v37 main_v40 main_v41 (addi : (⟨S128x1, .i32⟩ : BufTy).Contents (Elt F) → (⟨S128x1, .i32⟩ : BufTy).Contents (Elt F) → (⟨S128x1, .i32⟩ : BufTy).Contents (Elt F)),
    ternary main_v39 main_v41 main_v37 main_v42 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)) ]

/-- Stretch 8: operations 70 … 79 of the line. -/
abbrev st8 : List (HloOp τ sig (Elt F)) :=
  [ nullary main_c_14 (constantI S_ 32 0#32),
    unary main_c_14 main_v43 (broadcastInDim S128x8192 ![] bcast_S_S128x8192 : (⟨S_, .i32⟩ : BufTy).Contents (Elt F) → (⟨S128x8192, .i32⟩ : BufTy).Contents (Elt F)),
    binary main_v15 main_v43 main_v44 (cmpi .slt : (⟨S128x8192, .i32⟩ : BufTy).Contents (Elt F) → (⟨S128x8192, .i32⟩ : BufTy).Contents (Elt F) → (⟨S128x8192, .i1⟩ : BufTy).Contents (Elt F)),
    nullary main_c_15 (constantI S_ 32 129#32),
    unary main_c_15 main_v45 (broadcastInDim S128x8192 ![] bcast_S_S128x8192 : (⟨S_, .i32⟩ : BufTy).Contents (Elt F) → (⟨S128x8192, .i32⟩ : BufTy).Contents (Elt F)),
    binary main_v15 main_v45 main_v46 (addi : (⟨S128x8192, .i32⟩ : BufTy).Contents (Elt F) → (⟨S128x8192, .i32⟩ : BufTy).Contents (Elt F) → (⟨S128x8192, .i32⟩ : BufTy).Contents (Elt F)),
    ternary main_v44 main_v46 main_v15 main_v47 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v42 main_v48 (broadcastInDim S128x8192 ![0, 1] bcast_S128x1_S128x8192_0_1 : (⟨S128x1, .i32⟩ : BufTy).Contents (Elt F) → (⟨S128x8192, .i32⟩ : BufTy).Contents (Elt F)),
    unary main_v48 main_v49 (broadcastInDim S128x8192x1 ![0, 1] bcast_S128x8192_S128x8192x1_0_1 : (⟨S128x8192, .i32⟩ : BufTy).Contents (Elt F) → (⟨S128x8192x1, .i32⟩ : BufTy).Contents (Elt F)),
    unary main_v47 main_v50 (broadcastInDim S128x8192x1 ![0, 1] bcast_S128x8192_S128x8192x1_0_1 : (⟨S128x8192, .i32⟩ : BufTy).Contents (Elt F) → (⟨S128x8192x1, .i32⟩ : BufTy).Contents (Elt F)) ]

/-- Stretch 9: operations 80 … 81 of the line. -/
abbrev st9 : List (HloOp τ sig (Elt F)) :=
  [ binary main_v49 main_v50 main_v51 ((fun a b => concatenate S128x8192x2 2 [⟨S128x8192x1, a⟩, ⟨S128x8192x1, b⟩] concatenates_S128x8192x1_S128x8192x1_S128x8192x2_d2) : (⟨S128x8192x1, .i32⟩ : BufTy).Contents (Elt F) → (⟨S128x8192x1, .i32⟩ : BufTy).Contents (Elt F) → (⟨S128x8192x2, .i32⟩ : BufTy).Contents (Elt F)),
    binary main_v35 main_v51 main_v52 ((fun x i => Host.gather gather_S128x129x128_S128x8192x2_S128x8192x128_2_01_n_n_01_2_11128 x i) : (⟨S128x129x128, .f32⟩ : BufTy).Contents (Elt F) → (⟨S128x8192x2, .i32⟩ : BufTy).Contents (Elt F) → (⟨S128x8192x128, .f32⟩ : BufTy).Contents (Elt F)) ]

/-- Stretch 10: operations 82 … 88 of the line. -/
abbrev st10 : List (HloOp τ sig (Elt F)) :=
  [ nullary main_c_16 (constantI S_ 32 0#32),
    unary main_c_16 main_v53 (broadcastInDim S128x1 ![] bcast_S_S128x1 : (⟨S_, .i32⟩ : BufTy).Contents (Elt F) → (⟨S128x1, .i32⟩ : BufTy).Contents (Elt F)),
    binary main_v37 main_v53 main_v54 (cmpi .slt : (⟨S128x1, .i32⟩ : BufTy).Contents (Elt F) → (⟨S128x1, .i32⟩ : BufTy).Contents (Elt F) → (⟨S128x1, .i1⟩ : BufTy).Contents (Elt F)),
    nullary main_c_17 (constantI S_ 32 128#32),
    unary main_c_17 main_v55 (broadcastInDim S128x1 ![] bcast_S_S128x1 : (⟨S_, .i32⟩ : BufTy).Contents (Elt F) → (⟨S128x1, .i32⟩ : BufTy).Contents (Elt F)),
    binary main_v37 main_v55 main_v56 (addi : (⟨S128x1, .i32⟩ : BufTy).Contents (Elt F) → (⟨S128x1, .i32⟩ : BufTy).Contents (Elt F) → (⟨S128x1, .i32⟩ : BufTy).Contents (Elt F)),
    ternary main_v54 main_v56 main_v37 main_v57 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)) ]

/-- Stretch 11: operations 89 … 98 of the line. -/
abbrev st11 : List (HloOp τ sig (Elt F)) :=
  [ nullary main_c_18 (constantI S_ 32 0#32),
    unary main_c_18 main_v58 (broadcastInDim S128x8192 ![] bcast_S_S128x8192 : (⟨S_, .i32⟩ : BufTy).Contents (Elt F) → (⟨S128x8192, .i32⟩ : BufTy).Contents (Elt F)),
    binary main_v18 main_v58 main_v59 (cmpi .slt : (⟨S128x8192, .i32⟩ : BufTy).Contents (Elt F) → (⟨S128x8192, .i32⟩ : BufTy).Contents (Elt F) → (⟨S128x8192, .i1⟩ : BufTy).Contents (Elt F)),
    nullary main_c_19 (constantI S_ 32 129#32),
    unary main_c_19 main_v60 (broadcastInDim S128x8192 ![] bcast_S_S128x8192 : (⟨S_, .i32⟩ : BufTy).Contents (Elt F) → (⟨S128x8192, .i32⟩ : BufTy).Contents (Elt F)),
    binary main_v18 main_v60 main_v61 (addi : (⟨S128x8192, .i32⟩ : BufTy).Contents (Elt F) → (⟨S128x8192, .i32⟩ : BufTy).Contents (Elt F) → (⟨S128x8192, .i32⟩ : BufTy).Contents (Elt F)),
    ternary main_v59 main_v61 main_v18 main_v62 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v57 main_v63 (broadcastInDim S128x8192 ![0, 1] bcast_S128x1_S128x8192_0_1 : (⟨S128x1, .i32⟩ : BufTy).Contents (Elt F) → (⟨S128x8192, .i32⟩ : BufTy).Contents (Elt F)),
    unary main_v63 main_v64 (broadcastInDim S128x8192x1 ![0, 1] bcast_S128x8192_S128x8192x1_0_1 : (⟨S128x8192, .i32⟩ : BufTy).Contents (Elt F) → (⟨S128x8192x1, .i32⟩ : BufTy).Contents (Elt F)),
    unary main_v62 main_v65 (broadcastInDim S128x8192x1 ![0, 1] bcast_S128x8192_S128x8192x1_0_1 : (⟨S128x8192, .i32⟩ : BufTy).Contents (Elt F) → (⟨S128x8192x1, .i32⟩ : BufTy).Contents (Elt F)) ]

/-- Stretch 12: operations 99 … 100 of the line. -/
abbrev st12 : List (HloOp τ sig (Elt F)) :=
  [ binary main_v64 main_v65 main_v66 ((fun a b => concatenate S128x8192x2 2 [⟨S128x8192x1, a⟩, ⟨S128x8192x1, b⟩] concatenates_S128x8192x1_S128x8192x1_S128x8192x2_d2) : (⟨S128x8192x1, .i32⟩ : BufTy).Contents (Elt F) → (⟨S128x8192x1, .i32⟩ : BufTy).Contents (Elt F) → (⟨S128x8192x2, .i32⟩ : BufTy).Contents (Elt F)),
    binary main_v35 main_v66 main_v67 ((fun x i => Host.gather gather_S128x129x128_S128x8192x2_S128x8192x128_2_01_n_n_01_2_11128 x i) : (⟨S128x129x128, .f32⟩ : BufTy).Contents (Elt F) → (⟨S128x8192x2, .i32⟩ : BufTy).Contents (Elt F) → (⟨S128x8192x128, .f32⟩ : BufTy).Contents (Elt F)) ]

/-- Stretch 13: operations 101 … 113 of the line. -/
abbrev st13 : List (HloOp τ sig (Elt F)) :=
  [ nullary main_cst_20 (constant S_ .f32 0x3F800000#32),
    unary main_cst_20 main_v68 (broadcastInDim S128x8192 ![] bcast_S_S128x8192 : (⟨S_, .f32⟩ : BufTy).Contents (Elt F) → (⟨S128x8192, .f32⟩ : BufTy).Contents (Elt F)),
    binary main_v68 main_v34 main_v69 (subf : (⟨S128x8192, .f32⟩ : BufTy).Contents (Elt F) → (⟨S128x8192, .f32⟩ : BufTy).Contents (Elt F) → (⟨S128x8192, .f32⟩ : BufTy).Contents (Elt F)),
    unary main_v69 main_v70 (broadcastInDim S128x8192x1 ![0, 1] bcast_S128x8192_S128x8192x1_0_1 : (⟨S128x8192, .f32⟩ : BufTy).Contents (Elt F) → (⟨S128x8192x1, .f32⟩ : BufTy).Contents (Elt F)),
    unary main_v70 main_v71 (broadcastInDim S128x8192x128 ![0, 1, 2] bcast_S128x8192x1_S128x8192x128_0_1_2 : (⟨S128x8192x1, .f32⟩ : BufTy).Contents (Elt F) → (⟨S128x8192x128, .f32⟩ : BufTy).Contents (Elt F)),
    binary main_v71 main_v52 main_v72 (mulf : (⟨S128x8192x128, .f32⟩ : BufTy).Contents (Elt F) → (⟨S128x8192x128, .f32⟩ : BufTy).Contents (Elt F) → (⟨S128x8192x128, .f32⟩ : BufTy).Contents (Elt F)),
    unary main_v34 main_v73 (broadcastInDim S128x8192x1 ![0, 1] bcast_S128x8192_S128x8192x1_0_1 : (⟨S128x8192, .f32⟩ : BufTy).Contents (Elt F) → (⟨S128x8192x1, .f32⟩ : BufTy).Contents (Elt F)),
    unary main_v73 main_v74 (broadcastInDim S128x8192x128 ![0, 1, 2] bcast_S128x8192x1_S128x8192x128_0_1_2 : (⟨S128x8192x1, .f32⟩ : BufTy).Contents (Elt F) → (⟨S128x8192x128, .f32⟩ : BufTy).Contents (Elt F)),
    binary main_v74 main_v67 main_v75 (mulf : (⟨S128x8192x128, .f32⟩ : BufTy).Contents (Elt F) → (⟨S128x8192x128, .f32⟩ : BufTy).Contents (Elt F) → (⟨S128x8192x128, .f32⟩ : BufTy).Contents (Elt F)),
    binary main_v72 main_v75 main_v76 (addf : (⟨S128x8192x128, .f32⟩ : BufTy).Contents (Elt F) → (⟨S128x8192x128, .f32⟩ : BufTy).Contents (Elt F) → (⟨S128x8192x128, .f32⟩ : BufTy).Contents (Elt F)),
    nullary main_cst_21 (constant S_ .f32 0x00000000#32),
    binary main_v76 main_cst_21 main_v77 ((fun x v => Host.reduceAdd x v reducesTo_S128x8192x128_S8192x128_d0 h_S_) : (⟨S128x8192x128, .f32⟩ : BufTy).Contents (Elt F) → (⟨S_, .f32⟩ : BufTy).Contents (Elt F) → (⟨S8192x128, .f32⟩ : BufTy).Contents (Elt F)),
    unary main_v77 main_v78 ((transpose S128x8192 [1, 0] · transposes_S8192x128_S128x8192_1_0) : (⟨S8192x128, .f32⟩ : BufTy).Contents (Elt F) → (⟨S128x8192, .f32⟩ : BufTy).Contents (Elt F)) ]

/-- The line is the stretches in order. -/
theorem ops_eq_stretches : (ops : List (HloOp τ sig (Elt F))) = st1 ++ (st2 ++ (st3 ++ (st4 ++ (st5 ++ (st6 ++ (st7 ++ (st8 ++ (st9 ++ (st10 ++ (st11 ++ (st12 ++ (st13)))))))))))) := rfl

/-- Stretch 1 leaves `main_v11` at its stage, from what it finds at the buffers it reads. -/
theorem st1_v11 (W : Valuation τ sig (Elt F)) (x0 : (⟨S128x8192, .f32⟩ : BufTy).Contents (Elt F)) (h_arg0 : W (Proc.devRef .tc main_arg0) = x0) :
    after (st1 (F := F)) W (Proc.devRef .tc main_v11) = val_main_v11 (F := F) x0 := by
  after_results_simp
  rw [h_arg0]
  try simp only [TRef.ofBuf, TRef.toBuf, cast_eq]
  rfl

/-- Stretch 2 leaves `main_v15` at its stage, from what it finds at the buffers it reads. -/
theorem st2_v15 (W : Valuation τ sig (Elt F)) (x0 : (⟨S128x8192, .f32⟩ : BufTy).Contents (Elt F)) (h_v11 : W (Proc.devRef .tc main_v11) = val_main_v11 (F := F) x0) :
    after (st2 (F := F)) W (Proc.devRef .tc main_v15) = val_main_v15 (F := F) x0 := by
  after_results_simp
  rw [h_v11]
  try simp only [TRef.ofBuf, TRef.toBuf, cast_eq]
  rfl

/-- Stretch 3 leaves `main_v18` at its stage, from what it finds at the buffers it reads. -/
theorem st3_v18 (W : Valuation τ sig (Elt F)) (x0 : (⟨S128x8192, .f32⟩ : BufTy).Contents (Elt F)) (h_v15 : W (Proc.devRef .tc main_v15) = val_main_v15 (F := F) x0) :
    after (st3 (F := F)) W (Proc.devRef .tc main_v18) = val_main_v18 (F := F) x0 := by
  after_results_simp
  rw [h_v15]
  try simp only [TRef.ofBuf, TRef.toBuf, cast_eq]
  rfl

/-- Stretch 4 leaves `main_v25` at its stage, from what it finds at the buffers it reads. -/
theorem st4_v25 (W : Valuation τ sig (Elt F)) (x0 : (⟨S128x8192, .f32⟩ : BufTy).Contents (Elt F)) (x2 : (⟨S129, .f32⟩ : BufTy).Contents (Elt F)) (h_v15 : W (Proc.devRef .tc main_v15) = val_main_v15 (F := F) x0) (h_arg2 : W (Proc.devRef .tc main_arg2) = x2) :
    after (st4 (F := F)) W (Proc.devRef .tc main_v25) = val_main_v25 (F := F) x0 x2 := by
  after_results_simp
  rw [h_v15, h_arg2]
  try simp only [TRef.ofBuf, TRef.toBuf, cast_eq]
  rfl

/-- Stretch 5 leaves `main_v32` at its stage, from what it finds at the buffers it reads. -/
theorem st5_v32 (W : Valuation τ sig (Elt F)) (x0 : (⟨S128x8192, .f32⟩ : BufTy).Contents (Elt F)) (x3 : (⟨S128, .f32⟩ : BufTy).Contents (Elt F)) (h_v15 : W (Proc.devRef .tc main_v15) = val_main_v15 (F := F) x0) (h_arg3 : W (Proc.devRef .tc main_arg3) = x3) :
    after (st5 (F := F)) W (Proc.devRef .tc main_v32) = val_main_v32 (F := F) x0 x3 := by
  after_results_simp
  rw [h_v15, h_arg3]
  try simp only [TRef.ofBuf, TRef.toBuf, cast_eq]
  rfl

/-- Stretch 6 leaves `main_v34` at its stage, from what it finds at the buffers it reads. -/
theorem st6_v34 (W : Valuation τ sig (Elt F)) (x0 : (⟨S128x8192, .f32⟩ : BufTy).Contents (Elt F)) (x2 : (⟨S129, .f32⟩ : BufTy).Contents (Elt F)) (x3 : (⟨S128, .f32⟩ : BufTy).Contents (Elt F)) (h_arg0 : W (Proc.devRef .tc main_arg0) = x0) (h_v25 : W (Proc.devRef .tc main_v25) = val_main_v25 (F := F) x0 x2) (h_v32 : W (Proc.devRef .tc main_v32) = val_main_v32 (F := F) x0 x3) :
    after (st6 (F := F)) W (Proc.devRef .tc main_v34) = val_main_v34 (F := F) x0 x2 x3 := by
  after_results_simp
  rw [h_arg0, h_v25, h_v32]
  try simp only [TRef.ofBuf, TRef.toBuf, cast_eq]
  rfl

/-- Stretch 7 leaves `main_v35` at its stage, from what it finds at the buffers it reads. -/
theorem st7_v35 (W : Valuation τ sig (Elt F)) (x1 : (⟨S129x128x128, .f32⟩ : BufTy).Contents (Elt F)) (h_arg1 : W (Proc.devRef .tc main_arg1) = x1) :
    after (st7 (F := F)) W (Proc.devRef .tc main_v35) = val_main_v35 (F := F) x1 := by
  after_results_simp
  rw [h_arg1]
  try simp only [TRef.ofBuf, TRef.toBuf, cast_eq]
  rfl

/-- Stretch 7 leaves `main_v37` at its stage, from what it finds at the buffers it reads. -/
theorem st7_v37 (W : Valuation τ sig (Elt F)) :
    after (st7 (F := F)) W (Proc.devRef .tc main_v37) = val_main_v37 (F := F) := by
  after_results_simp
  try simp only [TRef.ofBuf, TRef.toBuf, cast_eq]
  rfl

/-- Stretch 7 leaves `main_v42` at its stage, from what it finds at the buffers it reads. -/
theorem st7_v42 (W : Valuation τ sig (Elt F)) :
    after (st7 (F := F)) W (Proc.devRef .tc main_v42) = val_main_v42 (F := F) := by
  after_results_simp
  try simp only [TRef.ofBuf, TRef.toBuf, cast_eq]
  rfl

/-- Stretch 8 leaves `main_v49` at its stage, from what it finds at the buffers it reads. -/
theorem st8_v49 (W : Valuation τ sig (Elt F)) (h_v42 : W (Proc.devRef .tc main_v42) = val_main_v42 (F := F)) :
    after (st8 (F := F)) W (Proc.devRef .tc main_v49) = val_main_v49 (F := F) := by
  after_results_simp
  rw [h_v42]
  try simp only [TRef.ofBuf, TRef.toBuf, cast_eq]
  rfl

/-- Stretch 8 leaves `main_v50` at its stage, from what it finds at the buffers it reads. -/
theorem st8_v50 (W : Valuation τ sig (Elt F)) (x0 : (⟨S128x8192, .f32⟩ : BufTy).Contents (Elt F)) (h_v15 : W (Proc.devRef .tc main_v15) = val_main_v15 (F := F) x0) :
    after (st8 (F := F)) W (Proc.devRef .tc main_v50) = val_main_v50 (F := F) x0 := by
  after_results_simp
  rw [h_v15]
  try simp only [TRef.ofBuf, TRef.toBuf, cast_eq]
  rfl

/-- Stretch 9 leaves `main_v52` at its stage, from what it finds at the buffers it reads. -/
theorem st9_v52 (W : Valuation τ sig (Elt F)) (x0 : (⟨S128x8192, .f32⟩ : BufTy).Contents (Elt F)) (x1 : (⟨S129x128x128, .f32⟩ : BufTy).Contents (Elt F)) (h_v35 : W (Proc.devRef .tc main_v35) = val_main_v35 (F := F) x1) (h_v49 : W (Proc.devRef .tc main_v49) = val_main_v49 (F := F)) (h_v50 : W (Proc.devRef .tc main_v50) = val_main_v50 (F := F) x0) :
    after (st9 (F := F)) W (Proc.devRef .tc main_v52) = val_main_v52 (F := F) x0 x1 := by
  after_results_simp
  rw [h_v35, h_v49, h_v50]
  try simp only [TRef.ofBuf, TRef.toBuf, cast_eq]
  rfl

/-- Stretch 10 leaves `main_v57` at its stage, from what it finds at the buffers it reads. -/
theorem st10_v57 (W : Valuation τ sig (Elt F)) (h_v37 : W (Proc.devRef .tc main_v37) = val_main_v37 (F := F)) :
    after (st10 (F := F)) W (Proc.devRef .tc main_v57) = val_main_v57 (F := F) := by
  after_results_simp
  rw [h_v37]
  try simp only [TRef.ofBuf, TRef.toBuf, cast_eq]
  rfl

/-- Stretch 11 leaves `main_v64` at its stage, from what it finds at the buffers it reads. -/
theorem st11_v64 (W : Valuation τ sig (Elt F)) (h_v57 : W (Proc.devRef .tc main_v57) = val_main_v57 (F := F)) :
    after (st11 (F := F)) W (Proc.devRef .tc main_v64) = val_main_v64 (F := F) := by
  after_results_simp
  rw [h_v57]
  try simp only [TRef.ofBuf, TRef.toBuf, cast_eq]
  rfl

/-- Stretch 11 leaves `main_v65` at its stage, from what it finds at the buffers it reads. -/
theorem st11_v65 (W : Valuation τ sig (Elt F)) (x0 : (⟨S128x8192, .f32⟩ : BufTy).Contents (Elt F)) (h_v18 : W (Proc.devRef .tc main_v18) = val_main_v18 (F := F) x0) :
    after (st11 (F := F)) W (Proc.devRef .tc main_v65) = val_main_v65 (F := F) x0 := by
  after_results_simp
  rw [h_v18]
  try simp only [TRef.ofBuf, TRef.toBuf, cast_eq]
  rfl

/-- Stretch 12 leaves `main_v67` at its stage, from what it finds at the buffers it reads. -/
theorem st12_v67 (W : Valuation τ sig (Elt F)) (x0 : (⟨S128x8192, .f32⟩ : BufTy).Contents (Elt F)) (x1 : (⟨S129x128x128, .f32⟩ : BufTy).Contents (Elt F)) (h_v35 : W (Proc.devRef .tc main_v35) = val_main_v35 (F := F) x1) (h_v64 : W (Proc.devRef .tc main_v64) = val_main_v64 (F := F)) (h_v65 : W (Proc.devRef .tc main_v65) = val_main_v65 (F := F) x0) :
    after (st12 (F := F)) W (Proc.devRef .tc main_v67) = val_main_v67 (F := F) x0 x1 := by
  after_results_simp
  rw [h_v35, h_v64, h_v65]
  try simp only [TRef.ofBuf, TRef.toBuf, cast_eq]
  rfl

/-- Stretch 13 leaves `main_v78` at its stage, from what it finds at the buffers it reads. -/
theorem st13_v78 (W : Valuation τ sig (Elt F)) (x0 : (⟨S128x8192, .f32⟩ : BufTy).Contents (Elt F)) (x1 : (⟨S129x128x128, .f32⟩ : BufTy).Contents (Elt F)) (x2 : (⟨S129, .f32⟩ : BufTy).Contents (Elt F)) (x3 : (⟨S128, .f32⟩ : BufTy).Contents (Elt F)) (h_v34 : W (Proc.devRef .tc main_v34) = val_main_v34 (F := F) x0 x2 x3) (h_v52 : W (Proc.devRef .tc main_v52) = val_main_v52 (F := F) x0 x1) (h_v67 : W (Proc.devRef .tc main_v67) = val_main_v67 (F := F) x0 x1) :
    after (st13 (F := F)) W (Proc.devRef .tc main_v78) = val_main_v78 (F := F) x0 x1 x2 x3 := by
  after_results_simp
  rw [h_v34, h_v52, h_v67]
  try simp only [TRef.ofBuf, TRef.toBuf, cast_eq]
  rfl

theorem st1_keeps_arg0 (W : Valuation τ sig (Elt F)) : after (st1 (F := F)) W (Proc.devRef .tc main_arg0) = W (Proc.devRef .tc main_arg0) := by after_results_simp
theorem st2_keeps_arg0 (W : Valuation τ sig (Elt F)) : after (st2 (F := F)) W (Proc.devRef .tc main_arg0) = W (Proc.devRef .tc main_arg0) := by after_results_simp
theorem st3_keeps_arg0 (W : Valuation τ sig (Elt F)) : after (st3 (F := F)) W (Proc.devRef .tc main_arg0) = W (Proc.devRef .tc main_arg0) := by after_results_simp
theorem st4_keeps_arg0 (W : Valuation τ sig (Elt F)) : after (st4 (F := F)) W (Proc.devRef .tc main_arg0) = W (Proc.devRef .tc main_arg0) := by after_results_simp
theorem st5_keeps_arg0 (W : Valuation τ sig (Elt F)) : after (st5 (F := F)) W (Proc.devRef .tc main_arg0) = W (Proc.devRef .tc main_arg0) := by after_results_simp
theorem st1_keeps_arg1 (W : Valuation τ sig (Elt F)) : after (st1 (F := F)) W (Proc.devRef .tc main_arg1) = W (Proc.devRef .tc main_arg1) := by after_results_simp
theorem st2_keeps_arg1 (W : Valuation τ sig (Elt F)) : after (st2 (F := F)) W (Proc.devRef .tc main_arg1) = W (Proc.devRef .tc main_arg1) := by after_results_simp
theorem st3_keeps_arg1 (W : Valuation τ sig (Elt F)) : after (st3 (F := F)) W (Proc.devRef .tc main_arg1) = W (Proc.devRef .tc main_arg1) := by after_results_simp
theorem st4_keeps_arg1 (W : Valuation τ sig (Elt F)) : after (st4 (F := F)) W (Proc.devRef .tc main_arg1) = W (Proc.devRef .tc main_arg1) := by after_results_simp
theorem st5_keeps_arg1 (W : Valuation τ sig (Elt F)) : after (st5 (F := F)) W (Proc.devRef .tc main_arg1) = W (Proc.devRef .tc main_arg1) := by after_results_simp
theorem st6_keeps_arg1 (W : Valuation τ sig (Elt F)) : after (st6 (F := F)) W (Proc.devRef .tc main_arg1) = W (Proc.devRef .tc main_arg1) := by after_results_simp
theorem st1_keeps_arg2 (W : Valuation τ sig (Elt F)) : after (st1 (F := F)) W (Proc.devRef .tc main_arg2) = W (Proc.devRef .tc main_arg2) := by after_results_simp
theorem st2_keeps_arg2 (W : Valuation τ sig (Elt F)) : after (st2 (F := F)) W (Proc.devRef .tc main_arg2) = W (Proc.devRef .tc main_arg2) := by after_results_simp
theorem st3_keeps_arg2 (W : Valuation τ sig (Elt F)) : after (st3 (F := F)) W (Proc.devRef .tc main_arg2) = W (Proc.devRef .tc main_arg2) := by after_results_simp
theorem st1_keeps_arg3 (W : Valuation τ sig (Elt F)) : after (st1 (F := F)) W (Proc.devRef .tc main_arg3) = W (Proc.devRef .tc main_arg3) := by after_results_simp
theorem st2_keeps_arg3 (W : Valuation τ sig (Elt F)) : after (st2 (F := F)) W (Proc.devRef .tc main_arg3) = W (Proc.devRef .tc main_arg3) := by after_results_simp
theorem st3_keeps_arg3 (W : Valuation τ sig (Elt F)) : after (st3 (F := F)) W (Proc.devRef .tc main_arg3) = W (Proc.devRef .tc main_arg3) := by after_results_simp
theorem st4_keeps_arg3 (W : Valuation τ sig (Elt F)) : after (st4 (F := F)) W (Proc.devRef .tc main_arg3) = W (Proc.devRef .tc main_arg3) := by after_results_simp
theorem st3_keeps_v15 (W : Valuation τ sig (Elt F)) : after (st3 (F := F)) W (Proc.devRef .tc main_v15) = W (Proc.devRef .tc main_v15) := by after_results_simp
theorem st4_keeps_v15 (W : Valuation τ sig (Elt F)) : after (st4 (F := F)) W (Proc.devRef .tc main_v15) = W (Proc.devRef .tc main_v15) := by after_results_simp
theorem st5_keeps_v15 (W : Valuation τ sig (Elt F)) : after (st5 (F := F)) W (Proc.devRef .tc main_v15) = W (Proc.devRef .tc main_v15) := by after_results_simp
theorem st6_keeps_v15 (W : Valuation τ sig (Elt F)) : after (st6 (F := F)) W (Proc.devRef .tc main_v15) = W (Proc.devRef .tc main_v15) := by after_results_simp
theorem st7_keeps_v15 (W : Valuation τ sig (Elt F)) : after (st7 (F := F)) W (Proc.devRef .tc main_v15) = W (Proc.devRef .tc main_v15) := by after_results_simp
theorem st4_keeps_v18 (W : Valuation τ sig (Elt F)) : after (st4 (F := F)) W (Proc.devRef .tc main_v18) = W (Proc.devRef .tc main_v18) := by after_results_simp
theorem st5_keeps_v18 (W : Valuation τ sig (Elt F)) : after (st5 (F := F)) W (Proc.devRef .tc main_v18) = W (Proc.devRef .tc main_v18) := by after_results_simp
theorem st6_keeps_v18 (W : Valuation τ sig (Elt F)) : after (st6 (F := F)) W (Proc.devRef .tc main_v18) = W (Proc.devRef .tc main_v18) := by after_results_simp
theorem st7_keeps_v18 (W : Valuation τ sig (Elt F)) : after (st7 (F := F)) W (Proc.devRef .tc main_v18) = W (Proc.devRef .tc main_v18) := by after_results_simp
theorem st8_keeps_v18 (W : Valuation τ sig (Elt F)) : after (st8 (F := F)) W (Proc.devRef .tc main_v18) = W (Proc.devRef .tc main_v18) := by after_results_simp
theorem st9_keeps_v18 (W : Valuation τ sig (Elt F)) : after (st9 (F := F)) W (Proc.devRef .tc main_v18) = W (Proc.devRef .tc main_v18) := by after_results_simp
theorem st10_keeps_v18 (W : Valuation τ sig (Elt F)) : after (st10 (F := F)) W (Proc.devRef .tc main_v18) = W (Proc.devRef .tc main_v18) := by after_results_simp
theorem st5_keeps_v25 (W : Valuation τ sig (Elt F)) : after (st5 (F := F)) W (Proc.devRef .tc main_v25) = W (Proc.devRef .tc main_v25) := by after_results_simp
theorem st7_keeps_v34 (W : Valuation τ sig (Elt F)) : after (st7 (F := F)) W (Proc.devRef .tc main_v34) = W (Proc.devRef .tc main_v34) := by after_results_simp
theorem st8_keeps_v34 (W : Valuation τ sig (Elt F)) : after (st8 (F := F)) W (Proc.devRef .tc main_v34) = W (Proc.devRef .tc main_v34) := by after_results_simp
theorem st9_keeps_v34 (W : Valuation τ sig (Elt F)) : after (st9 (F := F)) W (Proc.devRef .tc main_v34) = W (Proc.devRef .tc main_v34) := by after_results_simp
theorem st10_keeps_v34 (W : Valuation τ sig (Elt F)) : after (st10 (F := F)) W (Proc.devRef .tc main_v34) = W (Proc.devRef .tc main_v34) := by after_results_simp
theorem st11_keeps_v34 (W : Valuation τ sig (Elt F)) : after (st11 (F := F)) W (Proc.devRef .tc main_v34) = W (Proc.devRef .tc main_v34) := by after_results_simp
theorem st12_keeps_v34 (W : Valuation τ sig (Elt F)) : after (st12 (F := F)) W (Proc.devRef .tc main_v34) = W (Proc.devRef .tc main_v34) := by after_results_simp
theorem st8_keeps_v35 (W : Valuation τ sig (Elt F)) : after (st8 (F := F)) W (Proc.devRef .tc main_v35) = W (Proc.devRef .tc main_v35) := by after_results_simp
theorem st9_keeps_v35 (W : Valuation τ sig (Elt F)) : after (st9 (F := F)) W (Proc.devRef .tc main_v35) = W (Proc.devRef .tc main_v35) := by after_results_simp
theorem st10_keeps_v35 (W : Valuation τ sig (Elt F)) : after (st10 (F := F)) W (Proc.devRef .tc main_v35) = W (Proc.devRef .tc main_v35) := by after_results_simp
theorem st11_keeps_v35 (W : Valuation τ sig (Elt F)) : after (st11 (F := F)) W (Proc.devRef .tc main_v35) = W (Proc.devRef .tc main_v35) := by after_results_simp
theorem st8_keeps_v37 (W : Valuation τ sig (Elt F)) : after (st8 (F := F)) W (Proc.devRef .tc main_v37) = W (Proc.devRef .tc main_v37) := by after_results_simp
theorem st9_keeps_v37 (W : Valuation τ sig (Elt F)) : after (st9 (F := F)) W (Proc.devRef .tc main_v37) = W (Proc.devRef .tc main_v37) := by after_results_simp
theorem st10_keeps_v52 (W : Valuation τ sig (Elt F)) : after (st10 (F := F)) W (Proc.devRef .tc main_v52) = W (Proc.devRef .tc main_v52) := by after_results_simp
theorem st11_keeps_v52 (W : Valuation τ sig (Elt F)) : after (st11 (F := F)) W (Proc.devRef .tc main_v52) = W (Proc.devRef .tc main_v52) := by after_results_simp
theorem st12_keeps_v52 (W : Valuation τ sig (Elt F)) : after (st12 (F := F)) W (Proc.devRef .tc main_v52) = W (Proc.devRef .tc main_v52) := by after_results_simp

end Cert.ReferenceIdeal.RefStretches

end
-- ==== Proof.RefChain.lean ====
/-
  The reference's line of host operations, run stretch by stretch. The line is thirteen stretches in order
  (Proof/RefStretches.lean); running the line from contents `V` is running each stretch from what the stretches before
  it left. Which earlier value each stretch needs:
    the cumulative distribution value needs the inputs; the cell needs that value; the next cell needs the cell;
    the border and the inverse length at the cell need the cell and their table; the weight needs the inputs and
    those two; the transposed table needs the parameters, the row numbers nothing; the two index columns of the left
    knots' gather need the row numbers and the cell, and the gather needs them and the table; likewise for the right
    knots with the next cell; the result needs the weight and the two knot arrays.
  A value made by one stretch and needed several stretches later is carried across the stretches in between, none of
  which writes its buffer. So the result buffer ends at the last stage function of the four arguments.
-/
import proofs.«113301_j2293512536822_2_alg».proof.Proof.RefStretches
import Idealize.ShloMosaic.Lib.Pipeline.Frame

set_option maxRecDepth 8192

noncomputable section

namespace Cert.ReferenceIdeal.RefChain

open Cert.ReferenceIdeal Cert.ReferenceIdeal.Gen Cert.ReferenceIdeal.RefOps Cert.ReferenceIdeal.RefRead Cert.ReferenceIdeal.RefStretches
open Idealize.ShloMosaic Idealize.ShloMosaic.TcCoe Idealize.SL.Sem Idealize.ShloMosaic.StableHlo

variable {F : FTy → Type} [FloatOps F]

/-- The contents after the first stretch, the first two, … the first twelve. -/
abbrev A1 (V : Valuation τ sig (Elt F)) : Valuation τ sig (Elt F) := after (st1 (F := F)) V
abbrev A2 (V : Valuation τ sig (Elt F)) : Valuation τ sig (Elt F) := after (st2 (F := F)) (A1 V)
abbrev A3 (V : Valuation τ sig (Elt F)) : Valuation τ sig (Elt F) := after (st3 (F := F)) (A2 V)
abbrev A4 (V : Valuation τ sig (Elt F)) : Valuation τ sig (Elt F) := after (st4 (F := F)) (A3 V)
abbrev A5 (V : Valuation τ sig (Elt F)) : Valuation τ sig (Elt F) := after (st5 (F := F)) (A4 V)
abbrev A6 (V : Valuation τ sig (Elt F)) : Valuation τ sig (Elt F) := after (st6 (F := F)) (A5 V)
abbrev A7 (V : Valuation τ sig (Elt F)) : Valuation τ sig (Elt F) := after (st7 (F := F)) (A6 V)
abbrev A8 (V : Valuation τ sig (Elt F)) : Valuation τ sig (Elt F) := after (st8 (F := F)) (A7 V)
abbrev A9 (V : Valuation τ sig (Elt F)) : Valuation τ sig (Elt F) := after (st9 (F := F)) (A8 V)
abbrev A10 (V : Valuation τ sig (Elt F)) : Valuation τ sig (Elt F) := after (st10 (F := F)) (A9 V)
abbrev A11 (V : Valuation τ sig (Elt F)) : Valuation τ sig (Elt F) := after (st11 (F := F)) (A10 V)
abbrev A12 (V : Valuation τ sig (Elt F)) : Valuation τ sig (Elt F) := after (st12 (F := F)) (A11 V)

/-- From contents `V` holding the four arguments, the line leaves the result buffer at the last stage. -/
theorem after_ops_v78 (V : Valuation τ sig (Elt F)) (x0 : (⟨S128x8192, .f32⟩ : BufTy).Contents (Elt F)) (x1 : (⟨S129x128x128, .f32⟩ : BufTy).Contents (Elt F)) (x2 : (⟨S129, .f32⟩ : BufTy).Contents (Elt F)) (x3 : (⟨S128, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3) :
    after (ops (F := F)) V (Proc.devRef .tc main_v78) = val_main_v78 (F := F) x0 x1 x2 x3 := by
  rw [ops_eq_stretches]
  simp only [StableHlo.after_append]
  show after (st13 (F := F)) (A12 V) (Proc.devRef .tc main_v78) = _
  have f1_v11 := st1_v11 V x0 h0
  have f1_arg0 := (st1_keeps_arg0 V).trans h0
  have f1_arg1 := (st1_keeps_arg1 V).trans h1
  have f1_arg2 := (st1_keeps_arg2 V).trans h2
  have f1_arg3 := (st1_keeps_arg3 V).trans h3
  have f2_v15 := st2_v15 (A1 V) x0 f1_v11
  have f2_arg0 := (st2_keeps_arg0 (A1 V)).trans f1_arg0
  have f2_arg1 := (st2_keeps_arg1 (A1 V)).trans f1_arg1
  have f2_arg2 := (st2_keeps_arg2 (A1 V)).trans f1_arg2
  have f2_arg3 := (st2_keeps_arg3 (A1 V)).trans f1_arg3
  have f3_v18 := st3_v18 (A2 V) x0 f2_v15
  have f3_arg0 := (st3_keeps_arg0 (A2 V)).trans f2_arg0
  have f3_arg1 := (st3_keeps_arg1 (A2 V)).trans f2_arg1
  have f3_arg2 := (st3_keeps_arg2 (A2 V)).trans f2_arg2
  have f3_arg3 := (st3_keeps_arg3 (A2 V)).trans f2_arg3
  have f3_v15 := (st3_keeps_v15 (A2 V)).trans f2_v15
  have f4_v25 := st4_v25 (A3 V) x0 x2 f3_v15 f3_arg2
  have f4_arg0 := (st4_keeps_arg0 (A3 V)).trans f3_arg0
  have f4_arg1 := (st4_keeps_arg1 (A3 V)).trans f3_arg1
  have f4_arg3 := (st4_keeps_arg3 (A3 V)).trans f3_arg3
  have f4_v15 := (st4_keeps_v15 (A3 V)).trans f3_v15
  have f4_v18 := (st4_keeps_v18 (A3 V)).trans f3_v18
  have f5_v32 := st5_v32 (A4 V) x0 x3 f4_v15 f4_arg3
  have f5_arg0 := (st5_keeps_arg0 (A4 V)).trans f4_arg0
  have f5_arg1 := (st5_keeps_arg1 (A4 V)).trans f4_arg1
  have f5_v15 := (st5_keeps_v15 (A4 V)).trans f4_v15
  have f5_v18 := (st5_keeps_v18 (A4 V)).trans f4_v18
  have f5_v25 := (st5_keeps_v25 (A4 V)).trans f4_v25
  have f6_v34 := st6_v34 (A5 V) x0 x2 x3 f5_arg0 f5_v25 f5_v32
  have f6_arg1 := (st6_keeps_arg1 (A5 V)).trans f5_arg1
  have f6_v15 := (st6_keeps_v15 (A5 V)).trans f5_v15
  have f6_v18 := (st6_keeps_v18 (A5 V)).trans f5_v18
  have f7_v35 := st7_v35 (A6 V) x1 f6_arg1
  have f7_v37 := st7_v37 (A6 V)
  have f7_v42 := st7_v42 (A6 V)
  have f7_v15 := (st7_keeps_v15 (A6 V)).trans f6_v15
  have f7_v18 := (st7_keeps_v18 (A6 V)).trans f6_v18
  have f7_v34 := (st7_keeps_v34 (A6 V)).trans f6_v34
  have f8_v49 := st8_v49 (A7 V) f7_v42
  have f8_v50 := st8_v50 (A7 V) x0 f7_v15
  have f8_v18 := (st8_keeps_v18 (A7 V)).trans f7_v18
  have f8_v34 := (st8_keeps_v34 (A7 V)).trans f7_v34
  have f8_v35 := (st8_keeps_v35 (A7 V)).trans f7_v35
  have f8_v37 := (st8_keeps_v37 (A7 V)).trans f7_v37
  have f9_v52 := st9_v52 (A8 V) x0 x1 f8_v35 f8_v49 f8_v50
  have f9_v18 := (st9_keeps_v18 (A8 V)).trans f8_v18
  have f9_v34 := (st9_keeps_v34 (A8 V)).trans f8_v34
  have f9_v35 := (st9_keeps_v35 (A8 V)).trans f8_v35
  have f9_v37 := (st9_keeps_v37 (A8 V)).trans f8_v37
  have f10_v57 := st10_v57 (A9 V) f9_v37
  have f10_v18 := (st10_keeps_v18 (A9 V)).trans f9_v18
  have f10_v34 := (st10_keeps_v34 (A9 V)).trans f9_v34
  have f10_v35 := (st10_keeps_v35 (A9 V)).trans f9_v35
  have f10_v52 := (st10_keeps_v52 (A9 V)).trans f9_v52
  have f11_v64 := st11_v64 (A10 V) f10_v57
  have f11_v65 := st11_v65 (A10 V) x0 f10_v18
  have f11_v34 := (st11_keeps_v34 (A10 V)).trans f10_v34
  have f11_v35 := (st11_keeps_v35 (A10 V)).trans f10_v35
  have f11_v52 := (st11_keeps_v52 (A10 V)).trans f10_v52
  have f12_v67 := st12_v67 (A11 V) x0 x1 f11_v35 f11_v64 f11_v65
  have f12_v34 := (st12_keeps_v34 (A11 V)).trans f11_v34
  have f12_v52 := (st12_keeps_v52 (A11 V)).trans f11_v52
  exact st13_v78 (A12 V) x0 x1 x2 x3 f12_v34 f12_v52 f12_v67

end Cert.ReferenceIdeal.RefChain

end
-- ==== Proof.RefValue.lean ====
/-
  The reference program's result array is the sum over the input dimensions of the convex combinations of the two
  knots around each input's cell.

  The road, one entry at a time. The cell index the reference computes is the specification's `bucket`: the two write
  `exp (-|a|)` differently, and `0 - y = -y`. That index is a word below 128, so it is not negative read signed: each
  index normalisation `select (z < 0) (z + N) z` returns `z`, the successor clamped into `[0, 128]` is the successor,
  and the clamp a gather applies to a start index is the identity. A gather from a flat table then reads the table at
  the cell; the gather of knot rows, whose start indices have the two components (input dimension, cell), reads the
  transposed parameter array at that pair and at the output row. The sum over axis 0 from the initial value zero is the
  sum of the contributions.
-/
import proofs.«113301_j2293512536822_2_alg».proof.Defs
import proofs.«113301_j2293512536822_2_alg».proof.Proof.RefRun
import proofs.«113301_j2293512536822_2_alg».proof.Proof.RefRead
import proofs.«113301_j2293512536822_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRead Idealize.ShloMosaic Idealize.ShloMosaic.TcCoe Idealize.ShloMosaic.ValueIdx Idealize.SL.Sem Cert.Interp

/-! ## Words below 129 -/

/-- A word below 129 read signed is the natural number it is read unsigned. -/
theorem toInt_of_small (z : BitVec 32) (hz : z.toNat < 129) : z.toInt = (z.toNat : Int) := by
  rw [BitVec.toInt_eq_toNat_cond]
  split_ifs <;> omega

/-- The test "negative, read signed" fails on a word below 129, so the index normalisation
    `select (z < 0) (z + N) z` returns `z`. -/
theorem select_slt_zero_of_small {α : Type} (z : BitVec 32) (hz : z.toNat < 129) (A B : α) :
    Scalar.select (IntOp.cmpi .slt z 0#32) A B = B := by
  have h : z.slt 0#32 = false := by
    simp only [BitVec.slt, BitVec.toInt_zero, decide_eq_false_iff_not, Int.not_lt]
    rw [toInt_of_small z hz]; omega
  show (if BitVec.ofBool (z.slt 0#32) = 1 then A else B) = B
  rw [h]; rfl

/-- A start index below 129 that fits its axis is left alone by the gather's clamp. -/
theorem clamp_of_small (z : BitVec 32) (N : Nat) (hz : z.toNat ≤ N) (hN : N < 129) :
    min z.toInt.toNat N = z.toNat := by
  rw [toInt_of_small z (by omega)]; omega

/-- The successor of a word below 128, as a natural number. -/
theorem toNat_succ_of_small (z : BitVec 32) (hz : z.toNat < 128) : (IntOp.addi z 1#32).toNat = z.toNat + 1 := by
  show (z + 1#32).toNat = _
  rw [BitVec.toNat_add, BitVec.toNat_ofNat]; omega

/-- Clamping the successor of a word below 128 into `[0, 128]` changes nothing. -/
theorem clip_succ_of_small (z : BitVec 32) (hz : z.toNat < 128) :
    IntOp.minsi 128#32 (IntOp.maxsi 0#32 (IntOp.addi z 1#32)) = IntOp.addi z 1#32 := by
  have h1 := toNat_succ_of_small z hz
  have hi := toInt_of_small (IntOp.addi z 1#32) (by omega)
  have h0 : (0#32 : BitVec 32).toInt = 0 := by decide
  have h128 : (128#32 : BitVec 32).toInt = 128 := by decide
  have hin : IntOp.maxsi 0#32 (IntOp.addi z 1#32) = IntOp.addi z 1#32 := by
    unfold IntOp.maxsi
    rw [if_neg]
    simp only [BitVec.slt, decide_eq_true_eq, h0, hi]; omega
  rw [hin]
  unfold IntOp.minsi
  rw [if_neg]
  simp only [BitVec.slt, decide_eq_true_eq, h128, hi]; omega

/-- A row number below 128 as a 32-bit word. -/
theorem toNat_ofNat_row (i : Fin 128) : (BitVec.ofNat 32 i.val).toNat = i.val := by
  rw [BitVec.toNat_ofNat]; exact Nat.mod_eq_of_lt (by have := i.isLt; omega)

/-! ## The gather of knot rows, read at an index -/

/-- The dimension numbers of the row gather: operand `[128, 129, 128]`, start indices `[128, 8192, 2]`. -/
abbrev G3 : GatherDims S128x129x128 S128x8192x2 S128x8192x128 :=
  gather_S128x129x128_S128x8192x2_S128x8192x128_2_01_n_n_01_2_11128

section
variable (idx : IVec S128x8192x2 32) (i : Fin 128) (b : Fin 8192) (o : Fin 128)

/-- Component 0 of the start index of result entry `(i, b, o)` sits at `[i, b, 0]` of the start indices … -/
theorem G3_si0 (h : List.idxOf (0 : Fin 3) G3.startIndexMap < G3.startIndexMap.length) :
    G3.siIdx (ix3 i b o) ⟨List.idxOf (0 : Fin 3) G3.startIndexMap, h⟩ = ix3 i b (0 : Fin 2) := by
  funext c; refine Fin.ext ?_
  match c with
  | ⟨0, _⟩ => rfl
  | ⟨1, _⟩ => rfl
  | ⟨2, _⟩ => rfl

/-- … and component 1 at `[i, b, 1]`. -/
theorem G3_si1 (h : List.idxOf (1 : Fin 3) G3.startIndexMap < G3.startIndexMap.length) :
    G3.siIdx (ix3 i b o) ⟨List.idxOf (1 : Fin 3) G3.startIndexMap, h⟩ = ix3 i b (1 : Fin 2) := by
  funext c; refine Fin.ext ?_
  match c with
  | ⟨0, _⟩ => rfl
  | ⟨1, _⟩ => rfl
  | ⟨2, _⟩ => rfl

/-- On operand axis 0, which start component 0 names and the slice collapses, the operand index is that component read
    signed and clamped into `[0, 127]`: no batch and no offset coordinate adds to it. -/
theorem G3_axis0 :
    (G3.operandIdx (ix3 i b o) idx (0 : Fin 3)).val = min (idx (ix3 i b (0 : Fin 2))).toInt.toNat 127 := by
  show G3.start (ix3 i b o) idx 0 + G3.batchCoord (ix3 i b o) 0 + G3.offCoord (ix3 i b o) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 3) ∈ G3.startIndexMap by decide), G3_si0]
  rfl

/-- On operand axis 1, named by start component 1 and collapsed too, it is that component clamped into `[0, 128]`. -/
theorem G3_axis1 :
    (G3.operandIdx (ix3 i b o) idx (1 : Fin 3)).val = min (idx (ix3 i b (1 : Fin 2))).toInt.toNat 128 := by
  show G3.start (ix3 i b o) idx 1 + G3.batchCoord (ix3 i b o) 1 + G3.offCoord (ix3 i b o) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ G3.startIndexMap by decide), G3_si1]
  rfl

/-- On operand axis 2, which no start component names and the slice keeps whole, the operand index is the result's
    offset coordinate `o`. -/
theorem G3_axis2 : (G3.operandIdx (ix3 i b o) idx (2 : Fin 3)).val = o.val := by
  show G3.start (ix3 i b o) idx 2 + G3.batchCoord (ix3 i b o) 2 + G3.offCoord (ix3 i b o) 2 = _
  rw [GatherDims.batchCoord_eq_zero _ _ _ List.not_mem_nil]
  unfold GatherDims.start GatherDims.offCoord
  rw [dif_neg (show ¬ (2 : Fin 3) ∈ G3.startIndexMap by decide),
    dif_pos (show (2 : Fin 3) ∈ G3.sKept by decide), Nat.zero_add]
  rfl

/-- The row gather read at `(i, b, o)`: the operand at the two start components, each read signed and clamped into its
    axis, and at `o` on the axis the slice keeps whole. -/
theorem gather_rows_apply {α : Type} (T : S128x129x128.Idx → α) :
    Host.gather G3 T idx (ix3 i b o)
      = T (ix3 (⟨min (idx (ix3 i b (0 : Fin 2))).toInt.toNat 127, by omega⟩ : Fin 128)
            (⟨min (idx (ix3 i b (1 : Fin 2))).toInt.toNat 128, by omega⟩ : Fin 129) o) := by
  unfold Host.gather
  congr 1
  funext a
  refine Fin.ext ?_
  match a with
  | ⟨0, _⟩ => exact G3_axis0 idx i b o
  | ⟨1, _⟩ => exact G3_axis1 idx i b o
  | ⟨2, _⟩ => exact G3_axis2 idx i b o

end

/-! ## The cell index -/

section
variable (x : (⟨S128x8192, .f32⟩ : BufTy).Contents (Elt Ideal))

/-- The host writes `exp (-|a|)` with its own negation and absolute value; the specification writes `exp (0 - |a|)`. -/
theorem expNegAbs_eq (a : EReal) :
    FloatOps.hostUnary (F := Ideal) (φ := .f32) .exp (FloatOps.hostNegf (FloatOps.hostAbsf a)) = expNegAbs a := by
  show Ideal.exp (-(FloatOps.absf (F := Ideal) (φ := .f32) a))
    = Ideal.exp (Ideal.ofBits .f32 0x00000000#32 - FloatOps.absf (F := Ideal) (φ := .f32) a)
  rw [Ideal.ofBits_zero_f32, zero_sub]

/-- The reference's cell index at an entry is the specification's `bucket` of that entry. -/
theorem cell_apply (j : S128x8192.Idx) : val_main_v15 (F := Ideal) x j = bucket (x j) := by
  rw [val_main_v15_apply, val_main_call1_v4_apply, val_main_call1_v3_apply, val_main_c_4_apply,
    val_main_call1_v2_apply, val_main_call1_v1_apply, val_main_call1_v0_apply, val_main_c_apply,
    val_main_v14_apply, val_main_v13_apply, val_main_v12_apply, val_main_cst_3_apply,
    val_main_v11_apply, val_main_v4_apply, val_main_v3_apply, val_main_cst_apply,
    val_main_v8_apply, val_main_v7_apply, val_main_cst_1_apply, val_main_v6_apply, val_main_v5_apply,
    val_main_cst_0_apply, val_main_v10_apply, val_main_v9_apply, val_main_cst_2_apply,
    val_main_v2_apply, val_main_v1_apply, val_main_v0_apply, expNegAbs_eq]
  rfl

/-- The cell index is a word below 128. -/
theorem cell_lt (j : S128x8192.Idx) : (val_main_v15 (F := Ideal) x j).toNat < 128 := by
  rw [cell_apply]; exact bucket_lt _

/-- The three index normalisations of the cell index return it: it is not negative. -/
theorem v23_eq (j : S128x8192.Idx) : val_main_v23 (F := Ideal) x j = val_main_v15 (F := Ideal) x j := by
  rw [val_main_v23_apply, val_main_v20_apply, val_main_v19_apply, val_main_c_8_apply]
  exact select_slt_zero_of_small _ (by have := cell_lt x j; omega) _ _

theorem v30_eq (j : S128x8192.Idx) : val_main_v30 (F := Ideal) x j = val_main_v15 (F := Ideal) x j := by
  rw [val_main_v30_apply, val_main_v27_apply, val_main_v26_apply, val_main_c_10_apply]
  exact select_slt_zero_of_small _ (by have := cell_lt x j; omega) _ _

theorem v47_eq (j : S128x8192.Idx) : val_main_v47 (F := Ideal) x j = val_main_v15 (F := Ideal) x j := by
  rw [val_main_v47_apply, val_main_v44_apply, val_main_v43_apply, val_main_c_14_apply]
  exact select_slt_zero_of_small _ (by have := cell_lt x j; omega) _ _

/-- The next cell's index, clamped into `[0, 128]`, is the successor. -/
theorem v18_eq (j : S128x8192.Idx) :
    val_main_v18 (F := Ideal) x j = IntOp.addi (val_main_v15 (F := Ideal) x j) 1#32 := by
  rw [val_main_v18_apply, val_main_call2_v4_apply, val_main_call2_v3_apply, val_main_c_7_apply,
    val_main_call2_v2_apply, val_main_call2_v1_apply, val_main_call2_v0_apply, val_main_c_6_apply,
    val_main_v17_apply, val_main_v16_apply, val_main_c_5_apply]
  exact clip_succ_of_small _ (cell_lt x j)

/-- Its index normalisation returns it: the successor is at most 128, so not negative. -/
theorem v62_eq (j : S128x8192.Idx) :
    val_main_v62 (F := Ideal) x j = IntOp.addi (val_main_v15 (F := Ideal) x j) 1#32 := by
  rw [val_main_v62_apply, val_main_v59_apply, val_main_v58_apply, val_main_c_18_apply, v18_eq]
  exact select_slt_zero_of_small _
    (by rw [toNat_succ_of_small _ (cell_lt x j)]; have := cell_lt x j; omega) _ _

end

/-! ## The row numbers -/

/-- The column of row numbers, normalised: row `i` holds the word `i`. -/
theorem v42_at (i : Fin 128) (c : Fin 1) : val_main_v42 (F := Ideal) (ix2 i c) = BitVec.ofNat 32 i.val := by
  rw [val_main_v42_apply, val_main_v39_apply, val_main_v38_apply, val_main_c_12_apply, val_main_v37_apply,
    val_main_v36_apply]
  show Scalar.select (IntOp.cmpi .slt (BitVec.ofNat 32 i.val) 0#32) _ (BitVec.ofNat 32 i.val) = _
  exact select_slt_zero_of_small _ (by rw [toNat_ofNat_row]; have := i.isLt; omega) _ _

/-- The second copy of that column, made for the right knots' gather. -/
theorem v57_at (i : Fin 128) (c : Fin 1) : val_main_v57 (F := Ideal) (ix2 i c) = BitVec.ofNat 32 i.val := by
  rw [val_main_v57_apply, val_main_v54_apply, val_main_v53_apply, val_main_c_16_apply, val_main_v37_apply,
    val_main_v36_apply]
  show Scalar.select (IntOp.cmpi .slt (BitVec.ofNat 32 i.val) 0#32) _ (BitVec.ofNat 32 i.val) = _
  exact select_slt_zero_of_small _ (by rw [toNat_ofNat_row]; have := i.isLt; omega) _ _

/-- The column broadcast along the batch axis: entry `(i, b)` holds the word `i`. -/
theorem v48_at (i : Fin 128) (b : Fin 8192) : val_main_v48 (F := Ideal) (ix2 i b) = BitVec.ofNat 32 i.val := by
  rw [val_main_v48_apply,
    show idx_main_v48 (ix2 i b) = ix2 i (⟨0, Nat.one_pos⟩ : Fin 1) from
      funext fun a => by match a with | ⟨0, _⟩ => rfl | ⟨1, _⟩ => rfl]
  exact v42_at i _

/-- The second copy, broadcast the same way. -/
theorem v63_at (i : Fin 128) (b : Fin 8192) : val_main_v63 (F := Ideal) (ix2 i b) = BitVec.ofNat 32 i.val := by
  rw [val_main_v63_apply,
    show idx_main_v63 (ix2 i b) = ix2 i (⟨0, Nat.one_pos⟩ : Fin 1) from
      funext fun a => by match a with | ⟨0, _⟩ => rfl | ⟨1, _⟩ => rfl]
  exact v57_at i _

/-! ## The start indices and the gathers -/

section
variable (x : (⟨S128x8192, .f32⟩ : BufTy).Contents (Elt Ideal)) (P : (⟨S129x128x128, .f32⟩ : BufTy).Contents (Elt Ideal))
  (bd : (⟨S129, .f32⟩ : BufTy).Contents (Elt Ideal)) (il : (⟨S128, .f32⟩ : BufTy).Contents (Elt Ideal))
  (i : Fin 128) (b : Fin 8192) (o : Fin 128)

/-- An index `[i, b, 0]` of an array with a trailing unit axis reads the `[i, b]` entry of what was broadcast into it. -/
theorem unit_idx (f : S128x8192x1.Idx → S128x8192.Idx)
    (hf : ∀ j : S128x8192x1.Idx, f j = fun a => match a with
      | ⟨0, _⟩ => ⟨(j 0).val, (j 0).isLt⟩
      | ⟨1, _⟩ => ⟨(j 1).val, (j 1).isLt⟩) (c : Fin 1) :
    f (ix3 i b c) = ix2 i b := by
  rw [hf]; funext a; match a with | ⟨0, _⟩ => rfl | ⟨1, _⟩ => rfl

/-- Component 0 of a start index of the left knots' gather is the row number … -/
theorem v51_row : val_main_v51 (F := Ideal) x (ix3 i b (0 : Fin 2)) = BitVec.ofNat 32 i.val := by
  unfold val_main_v51
  rw [concatenate_pair_apply_left (s₁ := S128x8192x1) (s₂ := S128x8192x1) (2 : Fin 3) _ _ _ (ix3 i b (0 : Fin 2)) rfl (ix3 i b (0 : Fin 1))
    (fun c => by match c with | ⟨0, _⟩ => rfl | ⟨1, _⟩ => rfl | ⟨2, _⟩ => rfl),
    val_main_v49_apply, unit_idx i b idx_main_v49 (fun _ => rfl)]
  exact v48_at i b

/-- … and component 1 is the cell index. -/
theorem v51_cell : val_main_v51 (F := Ideal) x (ix3 i b (1 : Fin 2)) = val_main_v15 (F := Ideal) x (ix2 i b) := by
  unfold val_main_v51
  rw [concatenate_pair_apply_right (s₁ := S128x8192x1) (s₂ := S128x8192x1) (2 : Fin 3) _ _ _ (ix3 i b (1 : Fin 2)) rfl rfl (ix3 i b (0 : Fin 1))
    (fun c => by
      match c with
      | ⟨0, _⟩ => exact fun _ => rfl
      | ⟨1, _⟩ => exact fun _ => rfl
      | ⟨2, _⟩ => exact fun h => absurd rfl h) rfl,
    val_main_v50_apply, unit_idx i b idx_main_v50 (fun _ => rfl)]
  exact v47_eq x _

/-- The same for the right knots' gather: the row number, and the successor of the cell index. -/
theorem v66_row : val_main_v66 (F := Ideal) x (ix3 i b (0 : Fin 2)) = BitVec.ofNat 32 i.val := by
  unfold val_main_v66
  rw [concatenate_pair_apply_left (s₁ := S128x8192x1) (s₂ := S128x8192x1) (2 : Fin 3) _ _ _ (ix3 i b (0 : Fin 2)) rfl (ix3 i b (0 : Fin 1))
    (fun c => by match c with | ⟨0, _⟩ => rfl | ⟨1, _⟩ => rfl | ⟨2, _⟩ => rfl),
    val_main_v64_apply, unit_idx i b idx_main_v64 (fun _ => rfl)]
  exact v63_at i b

/-- Component 1 of a start index of the right knots' gather is the successor of the cell index. -/
theorem v66_cell : val_main_v66 (F := Ideal) x (ix3 i b (1 : Fin 2))
    = IntOp.addi (val_main_v15 (F := Ideal) x (ix2 i b)) 1#32 := by
  unfold val_main_v66
  rw [concatenate_pair_apply_right (s₁ := S128x8192x1) (s₂ := S128x8192x1) (2 : Fin 3) _ _ _ (ix3 i b (1 : Fin 2)) rfl rfl (ix3 i b (0 : Fin 1))
    (fun c => by
      match c with
      | ⟨0, _⟩ => exact fun _ => rfl
      | ⟨1, _⟩ => exact fun _ => rfl
      | ⟨2, _⟩ => exact fun h => absurd rfl h) rfl,
    val_main_v65_apply, unit_idx i b idx_main_v65 (fun _ => rfl)]
  exact v62_eq x _

/-- The left knot the reference gathers for input dimension `i`, column `b` and output row `o`. -/
theorem left_at : val_main_v52 (F := Ideal) x P (ix3 i b o) = P (ix3 (knotL (x (ix2 i b))) o i) := by
  unfold val_main_v52
  refine (gather_rows_apply (val_main_v51 (F := Ideal) x) i b o (val_main_v35 (F := Ideal) P)).trans ?_
  rw [val_main_v35_apply]
  refine congrArg P (funext fun c => Fin.ext ?_)
  match c with
  | ⟨0, _⟩ =>
    show min (val_main_v51 (F := Ideal) x (ix3 i b (1 : Fin 2))).toInt.toNat 128 = (bucket (x (ix2 i b))).toNat
    rw [v51_cell, cell_apply]
    exact clamp_of_small _ 128 (by have := bucket_lt (x (ix2 i b)); omega) (by omega)
  | ⟨1, _⟩ => rfl
  | ⟨2, _⟩ =>
    show min (val_main_v51 (F := Ideal) x (ix3 i b (0 : Fin 2))).toInt.toNat 127 = i.val
    rw [v51_row, clamp_of_small _ 127 (by rw [toNat_ofNat_row]; have := i.isLt; omega) (by omega), toNat_ofNat_row]

/-- The right knot. -/
theorem right_at : val_main_v67 (F := Ideal) x P (ix3 i b o) = P (ix3 (knotR (x (ix2 i b))) o i) := by
  unfold val_main_v67
  refine (gather_rows_apply (val_main_v66 (F := Ideal) x) i b o (val_main_v35 (F := Ideal) P)).trans ?_
  rw [val_main_v35_apply]
  refine congrArg P (funext fun c => Fin.ext ?_)
  match c with
  | ⟨0, _⟩ =>
    show min (val_main_v66 (F := Ideal) x (ix3 i b (1 : Fin 2))).toInt.toNat 128 = (bucket (x (ix2 i b))).toNat + 1
    rw [v66_cell, cell_apply]
    have h := bucket_lt (x (ix2 i b))
    rw [clamp_of_small _ 128 (by rw [toNat_succ_of_small _ h]; omega) (by omega), toNat_succ_of_small _ h]
  | ⟨1, _⟩ => rfl
  | ⟨2, _⟩ =>
    show min (val_main_v66 (F := Ideal) x (ix3 i b (0 : Fin 2))).toInt.toNat 127 = i.val
    rw [v66_row, clamp_of_small _ 127 (by rw [toNat_ofNat_row]; have := i.isLt; omega) (by omega), toNat_ofNat_row]

/-- The cell's left border, gathered from `borders`. -/
theorem border_at : val_main_v25 (F := Ideal) x bd (ix2 i b) = bd (ix1 (knotL (x (ix2 i b)))) := by
  unfold val_main_v25
  refine (gather_take_apply (N := 129) (R := 128) (C := 8192) (by decide)
    gather_S129_S128x8192x1_S128x8192_n_0_n_n_0_2_1_wf bd (val_main_v24 (F := Ideal) x) (ix2 i b)).trans ?_
  refine congrArg bd (congrArg (fun t : Fin 129 => ix1 t) (Fin.ext ?_))
  show min (val_main_v24 (F := Ideal) x (takeIdx (ix2 i b))).toInt.toNat 128 = (bucket (x (ix2 i b))).toNat
  rw [val_main_v24_apply, show idx_main_v24 (takeIdx (ix2 i b)) = ix2 i b from
    funext fun a => by match a with | ⟨0, _⟩ => rfl | ⟨1, _⟩ => rfl, v23_eq, cell_apply]
  exact clamp_of_small _ 128 (by have := bucket_lt (x (ix2 i b)); omega) (by omega)

/-- The cell's inverse length, gathered from `inverse_chunk_lengths`. -/
theorem invlen_at : val_main_v32 (F := Ideal) x il (ix2 i b) = il (ix1 (bkt (x (ix2 i b)))) := by
  unfold val_main_v32
  refine (gather_take_apply (N := 128) (R := 128) (C := 8192) (by decide)
    gather_S128_S128x8192x1_S128x8192_n_0_n_n_0_2_1_wf il (val_main_v31 (F := Ideal) x) (ix2 i b)).trans ?_
  refine congrArg il (congrArg (fun t : Fin 128 => ix1 t) (Fin.ext ?_))
  show min (val_main_v31 (F := Ideal) x (takeIdx (ix2 i b))).toInt.toNat 127 = (bucket (x (ix2 i b))).toNat
  rw [val_main_v31_apply, show idx_main_v31 (takeIdx (ix2 i b)) = ix2 i b from
    funext fun a => by match a with | ⟨0, _⟩ => rfl | ⟨1, _⟩ => rfl, v30_eq, cell_apply]
  exact clamp_of_small _ 127 (by have := bucket_lt (x (ix2 i b)); omega) (by omega)

/-- The position inside the cell. -/
theorem weight_at : val_main_v34 (F := Ideal) x bd il (ix2 i b) = wgt bd il (x (ix2 i b)) := by
  rw [val_main_v34_apply, val_main_v33_apply, border_at, invlen_at]
  rfl

end

/-! ## The sum over the input dimensions -/

section
variable (x : (⟨S128x8192, .f32⟩ : BufTy).Contents (Elt Ideal)) (P : (⟨S129x128x128, .f32⟩ : BufTy).Contents (Elt Ideal))
  (bd : (⟨S129, .f32⟩ : BufTy).Contents (Elt Ideal)) (il : (⟨S128, .f32⟩ : BufTy).Contents (Elt Ideal))

/-- One input dimension's contribution to one output entry, as the reference computes it: the convex combination of
    the two knots around the input's cell. -/
theorem term_at (i : Fin 128) (b : Fin 8192) (o : Fin 128) :
    val_main_v76 (F := Ideal) x P bd il (ix3 i b o) = termR x P bd il i o b := by
  rw [val_main_v76_apply, val_main_v72_apply, val_main_v75_apply, val_main_v71_apply, val_main_v70_apply,
    val_main_v74_apply, val_main_v73_apply,
    show idx_main_v70 (idx_main_v71 (ix3 i b o)) = ix2 i b from
      funext fun a => by match a with | ⟨0, _⟩ => rfl | ⟨1, _⟩ => rfl,
    show idx_main_v73 (idx_main_v74 (ix3 i b o)) = ix2 i b from
      funext fun a => by match a with | ⟨0, _⟩ => rfl | ⟨1, _⟩ => rfl,
    val_main_v69_apply, val_main_v68_apply, val_main_cst_20_apply, weight_at, left_at, right_at]
  rfl

/-- The reference's result array is the specification's second form: the transposed sum over axis 0, from the initial
    value zero, of the contributions. -/
theorem result_eq : val_main_v78 (F := Ideal) x P bd il = GR x P bd il := by
  funext y
  obtain ⟨o, b, rfl⟩ : ∃ (o : Fin 128) (b : Fin 8192), y = ix2 o b := ⟨y 0, y 1, eq_ix2 y⟩
  rw [val_main_v78_apply, val_main_v77_apply, val_main_cst_21_apply]
  show Ideal.ofBits .f32 0x00000000#32 + _ = ∑ i : Fin 128, termR x P bd il i o b
  rw [Ideal.ofBits_zero_f32, zero_add]
  refine Finset.sum_congr rfl fun k _ => ?_
  rw [show idx_main_v77 (idx_main_v78 (ix2 o b)) k = ix3 k b o from
    funext fun a => by match a with | ⟨0, _⟩ => rfl | ⟨1, _⟩ => rfl | ⟨2, _⟩ => rfl]
  exact term_at x P bd il k b o

end

/-- Every weakly fair execution of the reference ends with its result array at the second form of the specification,
    read at the argument arrays, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78)
          = Cert.Interp.GR (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨(h c).1.trans ((RefRead.val_main_v78_eq m c).trans (result_eq _ _ _ _)), (h c).2⟩)
    (Cert.ReferenceIdeal.RefRun.run (F := Ideal) m ρ)

end Cert.ReferenceIdeal.RefValue

end
-- ==== Proof.KDefs.lean ====
/-
  Names shared by the modules that read the idealized kernel's run: the four argument arrays at their literal types,
  which input dimension and which batch column a trip and a local column of a grid point stand for, and the
  contribution of input dimension number `i` (zero past the last dimension), whose partial sums are what the output
  block holds while the grid walks through the chunks.
-/
import proofs.«113301_j2293512536822_2_alg».proof.Proof.Gen.KernelIdeal.Frame
import proofs.«113301_j2293512536822_2_alg».proof.Proof.Spec
import Idealize.ShloMosaic.Lib.ValueIdx

noncomputable section

namespace Cert.KernelIdeal.KDefs

open Cert.KernelIdeal Cert.KernelIdeal.Gen Cert.Interp Idealize.ShloMosaic Idealize.ShloMosaic.TcCoe Idealize.ShloMosaic.ValueIdx Idealize.SL.Sem

variable (m : (ℓ : Loc nD τ sig) → Buf (Elt Ideal) ℓ)

/-- The four argument arrays on core `c`, at their literal types. -/
abbrev argX (c : Dev nD) : XS.Idx → EReal := m ((c : Thread nD τ).loc main_arg0)
abbrev argP (c : Dev nD) : PS.Idx → EReal := m ((c : Thread nD τ).loc main_arg1)
abbrev argB (c : Dev nD) : BS.Idx → EReal := m ((c : Thread nD τ).loc main_arg2)
abbrev argL (c : Dev nD) : LS.Idx → EReal := m ((c : Thread nD τ).loc main_arg3)

theorem tval_lt (t : Fin cfg0.N) : t.val < 16 := lt_of_lt_of_eq t.isLt (show cfg0.N = 16 from N_0)

/-- The input dimension trip `k` of point `t` handles, and the batch column local column `b` of point `t` is. -/
def dimOf (t : Fin cfg0.N) (k : Fin 16) : Fin 128 := ⟨16 * (t.val % 8) + k.val, by have := tval_lt t; omega⟩
def colOf (t : Fin cfg0.N) (b : Fin 4096) : Fin 8192 := ⟨4096 * (t.val / 8) + b.val, by have := tval_lt t; omega⟩

/-- Input dimension number `i`'s contribution to output `(o, b)`; zero for `i ≥ 128`. -/
def termN (c : Dev nD) (i : ℕ) (o : Fin 128) (b : Fin 8192) : EReal :=
  if h : i < 128 then termK (argX m c) (argP m c) (argB m c) (argL m c) ⟨i, h⟩ o b else 0

end Cert.KernelIdeal.KDefs

end
-- ==== Proof.KTrip.lean ====
/-
  The inner loop of the kernel body, read as a fold. Each of the sixteen trips loads one row of the point's input
  block and the matching slab of its parameter block, loads the whole output block, and stores the whole output block
  back; so a trip is a function `step` from the block's contents before it to its contents after it, and the loop is
  the sixteen-fold composition `accN`. A point that starts a batch tile first stores the zero block, so there the fold
  starts from zero; every other point starts from what the point before left.
-/
import proofs.«113301_j2293512536822_2_alg».proof.Proof.Gen.KernelIdeal.Frame
import Idealize.ShloMosaic.Lib.Pipeline.Value
import Idealize.ShloMosaic.Lib.Tactic

set_option maxRecDepth 16384

noncomputable section
namespace Cert.KernelIdeal.KTrip
open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

theorem trips_eq : k0_t1_loop.trips = 16 := by decide

/-- One trip of the inner loop as a function of the point's input blocks, the two small tables, the column of cell
    numbers and the output block's contents before the trip. -/
def step (x0 : Vec F S16x1x4096 .f32) (x1 : Vec F S16x128x256 .bf16) (x2 x3 : Vec F S128x1 .f32) (cells : IVec S128x1 32)
    (k : Fin k0_t1_loop.trips) (acc : Vec F S128x4096 .f32) : Vec F S128x4096 .f32 :=
  k0_pay4 (k0_pay7 cells (View.ld x0 (Rect.unit (k0_off1 k) S1x1x4096.size (k0_off1_inb k))))
    (k0_pay8 (k0_pay2 x2) (k0_pay3 x3) cells (View.ld x0 (Rect.unit (k0_off1 k) S1x1x4096.size (k0_off1_inb k))))
    (View.ld x1 (Rect.unit (k0_off2 k) S1x128x128.size (k0_off2_inb k)))
    (View.ld x1 (Rect.unit (k0_off3 k) S1x128x128.size (k0_off3_inb k))) acc

section
variable (𝒱 : Variants) (c : Dev nD) (bd : Option 𝒱.V) (i : grid0.Coords) (arg2 : Memref sig .tc .vmem S16x1x4096 .f32) (harg2 : arg2.IsWhole) (arg3 : Memref sig .tc .vmem S16x128x256 .bf16) (harg3 : arg3.IsWhole) (arg4 : Memref sig .tc .vmem S128x1 .f32) (harg4 : arg4.IsWhole) (arg5 : Memref sig .tc .vmem S128x1 .f32) (harg5 : arg5.IsWhole) (arg6 : Memref sig .tc .vmem S128x4096 .f32) (harg6 : arg6.IsWhole)
  (x0 : Vec F S16x1x4096 .f32) (x1 : Vec F S16x128x256 .bf16) (x2 x3 : Vec F S128x1 .f32) (cells : IVec S128x1 32)

/-- The trip's one piece: a store of the whole block, of `step` at what the trip finds there. -/
theorem tripL_eq (k : Fin k0_t1_loop.trips) (f : BufTy.Contents (Elt F) arg6.view.ty) :
    tripL_k0_t1 (F := F) 𝒱 c bd i arg2 harg2 arg3 harg3 arg4 harg4 arg5 harg5 arg6 harg6 x2 x3 cells (harg2.unread x0) (harg3.unread x1) k f
      = [⟨Rect.unit ![0, 0] S128x4096.size inb_S128x4096_S128x4096_0_0, step x0 x1 x2 x3 cells k (arg6.view.read (Elt F) f)⟩] := by
  unfold tripL_k0_t1 trip_k0_t1
  dsimp only
  sl_unfold_words
  unfold step
  simp only [View.readAt_eq_ld, harg2.read_unread, harg3.read_unread, View.ld_unit_zero (S := S128x4096) hz]
  rfl

/-- The block after the first `n` trips, from its contents `a` before the loop. -/
def accN (x0 : Vec F S16x1x4096 .f32) (x1 : Vec F S16x128x256 .bf16) (x2 x3 : Vec F S128x1 .f32) (cells : IVec S128x1 32) :
    ℕ → Vec F S128x4096 .f32 → Vec F S128x4096 .f32
  | 0, a => a
  | n + 1, a => if h : n < k0_t1_loop.trips then step x0 x1 x2 x3 cells ⟨n, h⟩ (accN x0 x1 x2 x3 cells n a) else accN x0 x1 x2 x3 cells n a

/-- The pieces of the trips before `n + 1`: trip `n`'s piece, found at what the earlier trips left, in front of theirs. -/
theorem pb_succ' (G : BufTy.Contents (Elt F) arg6.view.ty) (n : ℕ) (hk : n < k0_t1_loop.trips) :
    pb_k0_t1 (F := F) 𝒱 c bd i arg2 harg2 arg3 harg3 arg4 harg4 arg5 harg5 arg6 harg6 x2 x3 cells (harg2.unread x0) (harg3.unread x1) G (n + 1)
      = tripL_k0_t1 (F := F) 𝒱 c bd i arg2 harg2 arg3 harg3 arg4 harg4 arg5 harg5 arg6 harg6 x2 x3 cells (harg2.unread x0) (harg3.unread x1) ⟨n, hk⟩ (arg6.view.writes (Elt F) G (pb_k0_t1 (F := F) 𝒱 c bd i arg2 harg2 arg3 harg3 arg4 harg4 arg5 harg5 arg6 harg6 x2 x3 cells (harg2.unread x0) (harg3.unread x1) G n))
        ++ pb_k0_t1 (F := F) 𝒱 c bd i arg2 harg2 arg3 harg3 arg4 harg4 arg5 harg5 arg6 harg6 x2 x3 cells (harg2.unread x0) (harg3.unread x1) G n :=
  pb_k0_t1_succ (F := F) 𝒱 c bd i arg2 harg2 arg3 harg3 arg4 harg4 arg5 harg5 arg6 harg6 x2 x3 cells (harg2.unread x0) (harg3.unread x1) G ⟨n, hk⟩

/-- The pieces of the first `n` trips, written over the contents `G` at loop entry, read back as the fold of `step`:
    each trip's piece covers the block, and its payload reads what the trips before left. -/
theorem read_pb (G : BufTy.Contents (Elt F) arg6.view.ty) : ∀ n, n ≤ k0_t1_loop.trips →
    arg6.view.read (Elt F) (arg6.view.writes (Elt F) G (pb_k0_t1 (F := F) 𝒱 c bd i arg2 harg2 arg3 harg3 arg4 harg4 arg5 harg5 arg6 harg6 x2 x3 cells (harg2.unread x0) (harg3.unread x1) G n))
      = accN x0 x1 x2 x3 cells n (arg6.view.read (Elt F) G)
  | 0, _ => rfl
  | n + 1, hn => by
    have hk : n < k0_t1_loop.trips := hn
    rw [pb_succ' 𝒱 c bd i arg2 harg2 arg3 harg3 arg4 harg4 arg5 harg5 arg6 harg6 x0 x1 x2 x3 cells G n hk]
    rw [tripL_eq, View.writes_append,
      View.read_writes_eq_canon _ _ _ (fun y => ⟨_, List.mem_singleton_self _, View.mem_set_unit_zero hz inb_S128x4096_S128x4096_0_0 y⟩),
      View.canon_unit_zero hz]
    rw [read_pb G n (Nat.le_of_lt hk)]
    simp only [accN, dif_pos hk]

/-- The column of cell numbers the body builds before the loop. -/
abbrev cellCol : IVec S128x1 32 := iota .tc S128x1 32 [0] iota_S128x1_d0_w32

/-- At a point that does not start a batch tile the body leaves, in the output block holding `xo4`, the fold of the
    sixteen trips from `xo4`. -/
theorem out_B (hc0 : ¬cond0_0 i) (xo4 : Vec F S128x4096 .f32) :
    out0_B_4 c i arg2 harg2 arg3 harg3 arg4 harg4 arg5 harg5 arg6 harg6 hc0 x0 x1 x2 x3 xo4 = accN x0 x1 x2 x3 cellCol k0_t1_loop.trips xo4 := by
  unfold out0_B_4
  rw [View.read_writes_of_cover VO0_4 VO0_4.junk arg6.view (harg6.unread xo4) _ (cover0_B_4 c i arg2 harg2 arg3 harg3 arg4 harg4 arg5 harg5 arg6 harg6 hc0 x0 x1 x2 x3 xo4)]
  unfold kernelRun0_B
  dsimp only
  sl_unfold_words
  simp only [View.readAt_eq_ld, harg4.read_unread, harg5.read_unread, View.ld_unit_zero (S := S128x1) hz]
  exact (read_pb Variants.none c none i arg2 harg2 arg3 harg3 arg4 harg4 arg5 harg5 arg6 harg6 x0 x1 x2 x3 cellCol (harg6.unread xo4) k0_t1_loop.trips le_rfl).trans (by rw [harg6.read_unread])

/-- At a point that starts a batch tile the body first stores the zero block, so it leaves the fold from zero. -/
theorem out_A (hc0 : cond0_0 i) :
    out0_A_4 c i arg2 harg2 arg3 harg3 arg4 harg4 arg5 harg5 arg6 harg6 hc0 x0 x1 x2 x3 = accN x0 x1 x2 x3 cellCol k0_t1_loop.trips (k0_pay1 (F := F)) := by
  unfold out0_A_4
  rw [View.read_writes_of_cover VO0_4 VO0_4.junk arg6.view arg6.view.junk _ (cover0_A_4 c i arg2 harg2 arg3 harg3 arg4 harg4 arg5 harg5 arg6 harg6 hc0 x0 x1 x2 x3)]
  unfold kernelRun0_A
  dsimp only
  sl_unfold_words
  simp only [View.readAt_eq_ld, harg4.read_unread, harg5.read_unread, View.ld_unit_zero (S := S128x1) hz]
  rw [View.writes_append]
  refine (read_pb Variants.none c none i arg2 harg2 arg3 harg3 arg4 harg4 arg5 harg5 arg6 harg6 x0 x1 x2 x3 cellCol (arg6.view.writes (Elt F) arg6.view.junk [⟨Rect.unit ![0, 0] S128x4096.size inb_S128x4096_S128x4096_0_0, k0_pay1⟩]) k0_t1_loop.trips le_rfl).trans ?_
  rw [View.read_writes_eq_canon _ _ _ (fun y => ⟨_, List.mem_singleton_self _, View.mem_set_unit_zero hz inb_S128x4096_S128x4096_0_0 y⟩),
    View.canon_unit_zero hz]

end
end Cert.KernelIdeal.KTrip
end
-- ==== Proof.KPay.lean ====
/-
  One trip of the kernel's inner loop, as arithmetic. The trip handles one input dimension: from that dimension's row
  of inputs it builds, per batch column, the indicator of the column's cell among the 128 cells; the cell's left border
  and inverse length are the indicator's sums against the two small tables; the two matrix products against the
  indicator (and against the indicator scaled by the weight) pick out the left knot and the weighted knot difference.
  So what the trip stores is what it found in the output block plus that dimension's contribution.
-/
import proofs.«113301_j2293512536822_2_alg».proof.Proof.Gen.KernelIdeal.Skeleton
import proofs.«113301_j2293512536822_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Cert.Interp Idealize.ShloMosaic Idealize.ShloMosaic.ValueIdx

/-! ## Layout operations at an index -/

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The trip's input row, with its leading unit axis dropped, at column `b`. -/
theorem pay5_apply (xrow : Vec Ideal S1x1x4096 .f32) (b : Fin 4096) :
    k0_pay5 (F := Ideal) xrow (ix2 (0 : Fin 1) b) = xrow (ix3 (0 : Fin 1) (0 : Fin 1) b) := by
  unfold k0_pay5
  exact shapeCast_1ab_ab_apply xrow shapeCasts_S1x1x4096_S1x4096 (0 : Fin 1) b

/-- The borders column passes through a cast between equal shapes. -/
theorem pay2_eq (v : Vec Ideal S128x1 .f32) : k0_pay2 (F := Ideal) v = v := by
  unfold k0_pay2
  exact shapeCast_self v _

/-- The inverse-lengths column likewise. -/
theorem pay3_eq (v : Vec Ideal S128x1 .f32) : k0_pay3 (F := Ideal) v = v := by
  unfold k0_pay3
  exact shapeCast_self v _

/-! ## The indicator of the column's cell -/

/-- The comparison word, widened and read signed, is 1 on equality and 0 otherwise. -/
theorem ind_word (x y : BitVec 32) :
    ((IntOp.cmpi .eq x y).setWidth 32).toInt = if x = y then 1 else 0 := by
  by_cases h : x = y
  · rw [if_pos h]; subst h
    have e : IntOp.cmpi .eq x x = 1#1 := by simp [IntOp.cmpi]
    rw [e]; decide
  · rw [if_neg h]
    have hb : (x == y) = false := beq_eq_false_iff_ne.mpr h
    have e : IntOp.cmpi .eq x y = 0#1 := by simp [IntOp.cmpi, hb]
    rw [e]; decide

/-- A cell number below 128, as a word, is the column's cell word exactly when it is the column's cell. -/
theorem cell_eq_iff (g : Fin 128) (a : EReal) : BitVec.ofNat 32 g.val = bucket a ↔ g = bkt a := by
  constructor
  · intro h
    apply Fin.ext
    show g.val = (bucket a).toNat
    rw [← h, BitVec.toNat_ofNat]
    exact (Nat.mod_eq_of_lt (by have := g.isLt; omega)).symm
  · intro h
    apply BitVec.eq_of_toNat_eq
    rw [BitVec.toNat_ofNat, h]
    show (bucket a).toNat % 2 ^ 32 = (bucket a).toNat
    exact Nat.mod_eq_of_lt (bucket a).isLt

/-- The indicator at cell `g` and column `b`: the comparison of the cell's number with the column's cell word. -/
theorem pay6_apply (cells : IVec S128x1 32) (xrow : Vec Ideal S1x1x4096 .f32) (g : Fin 128) (b : Fin 4096) :
    k0_pay6 (F := Ideal) cells xrow (ix2 g b)
      = ((((IntOp.cmpi .eq (cells (ix2 g (0 : Fin 1))) (bucket (xrow (ix3 (0 : Fin 1) (0 : Fin 1) b)))).setWidth 32).toInt : ℝ) : EReal) := by
  have e1 := broadcastTo_a1_ab_apply cells broadcasts_S128x1_S128x4096 g b
  have e2 : ∀ v : IVec S1x4096 32, broadcastTo S128x4096 v broadcasts_S1x4096_S128x4096 (ix2 g b) = v (ix2 (0 : Fin 1) b) :=
    fun v => broadcastTo_1b_ab_apply v _ g b
  rw [← pay5_apply xrow b]
  unfold k0_pay6
  show ((((IntOp.cmpi .eq (broadcastTo S128x4096 cells broadcasts_S128x1_S128x4096 (ix2 g b))
      (broadcastTo S128x4096 _ broadcasts_S1x4096_S128x4096 (ix2 g b))).setWidth 32).toInt : ℝ) : EReal) = _
  rw [e1, e2]
  rfl

/-- The indicator is 1 in the column's own cell and 0 in every other. -/
theorem ind_apply (cells : IVec S128x1 32) (hcells : ∀ g : Fin 128, cells (ix2 g (0 : Fin 1)) = BitVec.ofNat 32 g.val)
    (xrow : Vec Ideal S1x1x4096 .f32) (g : Fin 128) (b : Fin 4096) :
    k0_pay6 (F := Ideal) cells xrow (ix2 g b)
      = if g = bkt (xrow (ix3 (0 : Fin 1) (0 : Fin 1) b)) then (1 : EReal) else 0 := by
  rw [pay6_apply, hcells g, ind_word]
  by_cases h : g = bkt (xrow (ix3 (0 : Fin 1) (0 : Fin 1) b))
  · rw [if_pos h, if_pos ((cell_eq_iff g _).mpr h)]; simp
  · rw [if_neg h, if_neg (fun h' => h ((cell_eq_iff g _).mp h'))]; simp

/-- The indicator narrowed to the matrix unit's format is the indicator. -/
theorem pay7_apply (cells : IVec S128x1 32) (hcells : ∀ g : Fin 128, cells (ix2 g (0 : Fin 1)) = BitVec.ofNat 32 g.val)
    (xrow : Vec Ideal S1x1x4096 .f32) (g : Fin 128) (b : Fin 4096) :
    k0_pay7 (F := Ideal) cells xrow (ix2 g b)
      = if g = bkt (xrow (ix3 (0 : Fin 1) (0 : Fin 1) b)) then (1 : EReal) else 0 := by
  unfold k0_pay7
  exact ind_apply cells hcells xrow g b

/-! ## Sums against the indicator -/

/-- A sum against the indicator of `n`, indicator first, is the term at `n`. -/
theorem sum_ind_mul (n : Fin 128) (f : Fin 128 → EReal) :
    ∑ k : Fin 128, (if k = n then (1 : EReal) else 0) * f k = f n := by
  rw [Finset.sum_eq_single n]
  · rw [if_pos rfl, one_mul]
  · intro k _ hk; rw [if_neg hk, zero_mul]
  · intro h; exact absurd (Finset.mem_univ n) h

/-- The same with the indicator second. -/
theorem sum_mul_ind (n : Fin 128) (f : Fin 128 → EReal) :
    ∑ k : Fin 128, f k * (if k = n then (1 : EReal) else 0) = f n := by
  rw [Finset.sum_eq_single n]
  · rw [if_pos rfl, mul_one]
  · intro k _ hk; rw [if_neg hk, mul_zero]
  · intro h; exact absurd (Finset.mem_univ n) h

/-- The same with the indicator scaled by a weight: the term at `n` times the weight. -/
theorem sum_mul_w_ind (n : Fin 128) (f : Fin 128 → EReal) (w : EReal) :
    ∑ k : Fin 128, f k * (w * (if k = n then (1 : EReal) else 0)) = f n * w := by
  rw [Finset.sum_eq_single n]
  · rw [if_pos rfl, mul_one]
  · intro k _ hk; rw [if_neg hk, mul_zero, mul_zero]
  · intro h; exact absurd (Finset.mem_univ n) h

/-- A sum over the 128 cells of a `[128, 4096]` vector, at column `b`. -/
theorem laneSum_apply (src : FVec Ideal S128x4096 .f32) (hφ : FKind.Formats .f32)
    (hacc : (0x00000000#32 : BitVec 32) = 0x00000000#32) (b : Fin 4096) :
    multiReduction (F := Ideal) .add [0] S4096 src 0x00000000#32 reduces_S128x4096_S4096 hφ hacc (ix1 b)
      = ∑ k : Fin 128, src (ix2 k b) := by
  refine (Ideal.multiReduction_add_single src 0x00000000#32 reduces_S128x4096_S4096 hφ hacc (ix1 b)).trans ?_
  show ∑ k : Fin 128, src (reduces_S128x4096_S4096.lift (ix1 b) k) = _
  refine Finset.sum_congr rfl fun k _ => congrArg src ?_
  funext a
  refine Fin.ext ?_
  match a with
  | ⟨0, _⟩ => rfl
  | ⟨1, _⟩ => rfl

/-! ## The matrix product at an index -/

/-- The left operand's row coordinate is the output's row. -/
theorem lhs_dot_0 (i : S128x4096.Idx) (q : dot_S128x128_S128x4096_S128x4096_1_0_0_1_n_n.contr.Idx) :
    (dot_S128x128_S128x4096_S128x4096_1_0_0_1_n_n.lhsIdx i q 0).val = (i 0).val := by
  unfold DotDims.lhsIdx
  rw [dif_neg (show ¬(0 : Fin S128x128.rank) ∈ dot_S128x128_S128x4096_S128x4096_1_0_0_1_n_n.lhsBatch by decide),
    dif_pos (show (0 : Fin S128x128.rank) ∈ dot_S128x128_S128x4096_S128x4096_1_0_0_1_n_n.lhsNonContracting by decide)]
  rfl

/-- The left operand's column coordinate is the contraction position. -/
theorem lhs_dot_1 (i : S128x4096.Idx) (q : dot_S128x128_S128x4096_S128x4096_1_0_0_1_n_n.contr.Idx) :
    (dot_S128x128_S128x4096_S128x4096_1_0_0_1_n_n.lhsIdx i q 1).val = (q ⟨0, by decide⟩).val :=
  dot_S128x128_S128x4096_S128x4096_1_0_0_1_n_n.lhsIdx_val_of_single rfl i q

/-- The right operand's row coordinate is the contraction position. -/
theorem rhs_dot_0 (i : S128x4096.Idx) (q : dot_S128x128_S128x4096_S128x4096_1_0_0_1_n_n.contr.Idx) :
    (dot_S128x128_S128x4096_S128x4096_1_0_0_1_n_n.rhsIdx i q 0).val = (q ⟨0, by decide⟩).val :=
  dot_S128x128_S128x4096_S128x4096_1_0_0_1_n_n.rhsIdx_val_of_single rfl i q

/-- The right operand's column coordinate is the output's column. -/
theorem rhs_dot_1 (i : S128x4096.Idx) (q : dot_S128x128_S128x4096_S128x4096_1_0_0_1_n_n.contr.Idx) :
    (dot_S128x128_S128x4096_S128x4096_1_0_0_1_n_n.rhsIdx i q 1).val = (i 1).val := by
  unfold DotDims.rhsIdx
  rw [dif_neg (show ¬(1 : Fin S128x4096.rank) ∈ dot_S128x128_S128x4096_S128x4096_1_0_0_1_n_n.rhsBatch by decide),
    dif_pos (show (1 : Fin S128x4096.rank) ∈ dot_S128x128_S128x4096_S128x4096_1_0_0_1_n_n.rhsNonContracting by decide)]
  rfl

/-- The product of a `[128, 128]` matrix with a `[128, 4096]` one into a zero accumulator, at `(o, b)`: the sum over
    the 128 cells of row `o` of the first against column `b` of the second. -/
theorem matmul_apply_ix (lhs : FVec Ideal S128x128 .bf16) (rhs : FVec Ideal S128x4096 .bf16) (o : Fin 128) (b : Fin 4096) :
    matmul dot_S128x128_S128x4096_S128x4096_1_0_0_1_n_n none lhs rhs (constant (F := Ideal) S128x4096 .f32 0x00000000#32) (ix2 o b)
      = ∑ k : Fin 128, lhs (ix2 o k) * rhs (ix2 k b) := by
  simp only [matmul]
  rw [Ideal.matmul_constant_zero_apply, ← Equiv.sum_comp (contrEquiv1 dot_S128x128_S128x4096_S128x4096_1_0_0_1_n_n 128 rfl rfl).symm]
  refine Finset.sum_congr rfl fun k _ => ?_
  have hk := contrEquiv1_symm_val dot_S128x128_S128x4096_S128x4096_1_0_0_1_n_n 128 rfl rfl k
  have el : dot_S128x128_S128x4096_S128x4096_1_0_0_1_n_n.lhsIdx (ix2 o b) ((contrEquiv1 dot_S128x128_S128x4096_S128x4096_1_0_0_1_n_n 128 rfl rfl).symm k) = ix2 o k :=
    funext fun a => Fin.ext (by
      match a with
      | ⟨0, _⟩ => exact lhs_dot_0 _ _
      | ⟨1, _⟩ => exact (lhs_dot_1 _ _).trans hk)
  have er : dot_S128x128_S128x4096_S128x4096_1_0_0_1_n_n.rhsIdx (ix2 o b) ((contrEquiv1 dot_S128x128_S128x4096_S128x4096_1_0_0_1_n_n 128 rfl rfl).symm k) = ix2 k b :=
    funext fun a => Fin.ext (by
      match a with
      | ⟨0, _⟩ => exact (rhs_dot_0 _ _).trans hk
      | ⟨1, _⟩ => exact rhs_dot_1 _ _)
  rw [el, er]

/-! ## The weighted indicator -/

/-- The indicator scaled by the column's weight: the weight is the input less the cell's left border, times the cell's
    inverse length, both found as sums of the indicator against the tables. -/
theorem pay8_apply (bordersCol invlenCol : Vec Ideal S128x1 .f32) (cells : IVec S128x1 32)
    (hcells : ∀ g : Fin 128, cells (ix2 g (0 : Fin 1)) = BitVec.ofNat 32 g.val)
    (xrow : Vec Ideal S1x1x4096 .f32) (g : Fin 128) (b : Fin 4096) :
    k0_pay8 (F := Ideal) (k0_pay2 bordersCol) (k0_pay3 invlenCol) cells xrow (ix2 g b)
      = ((xrow (ix3 (0 : Fin 1) (0 : Fin 1) b) - bordersCol (ix2 (bkt (xrow (ix3 (0 : Fin 1) (0 : Fin 1) b))) (0 : Fin 1)))
            * invlenCol (ix2 (bkt (xrow (ix3 (0 : Fin 1) (0 : Fin 1) b))) (0 : Fin 1)))
          * (if g = bkt (xrow (ix3 (0 : Fin 1) (0 : Fin 1) b)) then (1 : EReal) else 0) := by
  rw [pay2_eq, pay3_eq]
  -- the two table sums at column `b`
  have hsum : ∀ tbl : Vec Ideal S128x1 .f32,
      (∑ k : Fin 128, mulf (k0_pay6 (F := Ideal) cells xrow) (broadcastTo S128x4096 tbl broadcasts_S128x1_S128x4096) (ix2 k b))
        = tbl (ix2 (bkt (xrow (ix3 (0 : Fin 1) (0 : Fin 1) b))) (0 : Fin 1)) := by
    intro tbl
    have e : ∀ k : Fin 128, mulf (k0_pay6 (F := Ideal) cells xrow) (broadcastTo S128x4096 tbl broadcasts_S128x1_S128x4096) (ix2 k b)
        = (if k = bkt (xrow (ix3 (0 : Fin 1) (0 : Fin 1) b)) then (1 : EReal) else 0) * tbl (ix2 k (0 : Fin 1)) := by
      intro k
      rw [mulf_apply, ind_apply cells hcells xrow k b, broadcastTo_a1_ab_apply tbl broadcasts_S128x1_S128x4096 k b]
    rw [Finset.sum_congr rfl fun k _ => e k]
    exact sum_ind_mul _ fun k => tbl (ix2 k (0 : Fin 1))
  unfold k0_pay8
  show (broadcastTo S128x4096 _ broadcasts_S1x4096_S128x4096 (ix2 g b)) * k0_pay6 (F := Ideal) cells xrow (ix2 g b) = _
  rw [broadcastTo_1b_ab_apply _ broadcasts_S1x4096_S128x4096 g b, ind_apply cells hcells xrow g b]
  refine congrArg (· * _) ?_
  show (k0_pay5 (F := Ideal) xrow (ix2 (0 : Fin 1) b) - shapeCast S1x4096 _ shapeCasts_S4096_S1x4096 (ix2 (0 : Fin 1) b))
      * shapeCast S1x4096 _ shapeCasts_S4096_S1x4096 (ix2 (0 : Fin 1) b) = _
  rw [shapeCast_a_1a_apply _ shapeCasts_S4096_S1x4096 (0 : Fin 1) b, shapeCast_a_1a_apply _ shapeCasts_S4096_S1x4096 (0 : Fin 1) b,
    laneSum_apply, laneSum_apply, hsum bordersCol, hsum invlenCol, pay5_apply]

/-! ## The trip -/

/-- The value one trip stores, at output row `o` and local column `b`: with `a` the trip's input at column `b` and
    `n = bkt a` its cell, the block's previous entry plus `L[o, n] + D[o, n] · ((a - borders[n]) · invlen[n])`, where `L`
    and `D` are the two halves of the trip's parameter slab. `cells` is the column of cell numbers 0 … 127. -/
theorem pay_apply (bordersCol invlenCol : Vec Ideal S128x1 .f32) (cells : IVec S128x1 32)
    (hcells : ∀ g : Fin 128, cells (ix2 g (0 : Fin 1)) = BitVec.ofNat 32 g.val)
    (xrow : Vec Ideal S1x1x4096 .f32) (slabL slabD : Vec Ideal S1x128x128 .bf16) (acc : Vec Ideal S128x4096 .f32)
    (o : Fin 128) (b : Fin 4096) :
    k0_pay4 (F := Ideal) (k0_pay7 cells xrow) (k0_pay8 (k0_pay2 bordersCol) (k0_pay3 invlenCol) cells xrow) slabL slabD acc (ix2 o b)
      = acc (ix2 o b)
        + (slabL (ix3 (0 : Fin 1) o (bkt (xrow (ix3 (0 : Fin 1) (0 : Fin 1) b))))
            + slabD (ix3 (0 : Fin 1) o (bkt (xrow (ix3 (0 : Fin 1) (0 : Fin 1) b))))
              * ((xrow (ix3 (0 : Fin 1) (0 : Fin 1) b) - bordersCol (ix2 (bkt (xrow (ix3 (0 : Fin 1) (0 : Fin 1) b))) (0 : Fin 1)))
                  * invlenCol (ix2 (bkt (xrow (ix3 (0 : Fin 1) (0 : Fin 1) b))) (0 : Fin 1)))) := by
  -- the left-knot product: the indicator picks column `n` of `L`
  have hL : (∑ k : Fin 128, shapeCast S128x128 slabL shapeCasts_S1x128x128_S128x128 (ix2 o k) * k0_pay7 (F := Ideal) cells xrow (ix2 k b))
      = slabL (ix3 (0 : Fin 1) o (bkt (xrow (ix3 (0 : Fin 1) (0 : Fin 1) b)))) := by
    rw [Finset.sum_congr rfl fun k _ => by
      rw [shapeCast_1ab_ab_apply slabL shapeCasts_S1x128x128_S128x128 o k, pay7_apply cells hcells xrow k b]]
    exact sum_mul_ind _ fun k => slabL (ix3 (0 : Fin 1) o k)
  -- the knot-difference product: the weighted indicator picks column `n` of `D`, times the weight
  have hD : (∑ k : Fin 128, shapeCast S128x128 slabD shapeCasts_S1x128x128_S128x128 (ix2 o k)
        * k0_pay8 (F := Ideal) (k0_pay2 bordersCol) (k0_pay3 invlenCol) cells xrow (ix2 k b))
      = slabD (ix3 (0 : Fin 1) o (bkt (xrow (ix3 (0 : Fin 1) (0 : Fin 1) b))))
          * ((xrow (ix3 (0 : Fin 1) (0 : Fin 1) b) - bordersCol (ix2 (bkt (xrow (ix3 (0 : Fin 1) (0 : Fin 1) b))) (0 : Fin 1)))
              * invlenCol (ix2 (bkt (xrow (ix3 (0 : Fin 1) (0 : Fin 1) b))) (0 : Fin 1))) := by
    rw [Finset.sum_congr rfl fun k _ => by
      rw [shapeCast_1ab_ab_apply slabD shapeCasts_S1x128x128_S128x128 o k, pay8_apply bordersCol invlenCol cells hcells xrow k b]]
    exact sum_mul_w_ind _ (fun k => slabD (ix3 (0 : Fin 1) o k)) _
  unfold k0_pay4
  show shapeCast S128x4096 acc shapeCasts_S128x4096_S128x4096 (ix2 o b)
      + (matmul dot_S128x128_S128x4096_S128x4096_1_0_0_1_n_n none (shapeCast S128x128 slabL shapeCasts_S1x128x128_S128x128) (k0_pay7 (F := Ideal) cells xrow)
            (constant (F := Ideal) S128x4096 .f32 0x00000000#32) (ix2 o b)
          + matmul dot_S128x128_S128x4096_S128x4096_1_0_0_1_n_n none (shapeCast S128x128 slabD shapeCasts_S1x128x128_S128x128)
              (k0_pay8 (F := Ideal) (k0_pay2 bordersCol) (k0_pay3 invlenCol) cells xrow)
              (constant (F := Ideal) S128x4096 .f32 0x00000000#32) (ix2 o b)) = _
  rw [shapeCast_self, matmul_apply_ix, matmul_apply_ix, hL, hD]

end Cert.KernelIdeal.KPay

end
-- ==== Proof.KBlocks.lean ====
/-
  What the kernel's four input windows hold at a grid point, in terms of the argument arrays. Point `t` of the 2 × 8
  grid has batch tile `t / 8` and chunk `t % 8`; the chunk names sixteen consecutive input dimensions
  `16 · (t % 8) + k`, the tile 4096 consecutive batch columns `4096 · (t / 8) + b`.
    window 0  the inputs `x` re-laid as [128, 1, 8192]: its block holds `x[16 (t % 8) + k, 4096 (t / 8) + b]`;
    window 1  the parameter table transposed to [input, output, knot] with, side by side along the last axis, the 128
              left knots and the 128 differences of consecutive knots: its block holds, for dimension
              `16 (t % 8) + k`, `P[g, o, i]` at column `g` and `P[g + 1, o, i] - P[g, o, i]` at column `128 + g`;
    window 2  the first 128 borders as a column;  window 3  the inverse cell lengths as a column.
-/
import proofs.«113301_j2293512536822_2_alg».proof.Proof.Gen.KernelIdeal.Frame
import proofs.«113301_j2293512536822_2_alg».proof.Proof.Spec
import proofs.«113301_j2293512536822_2_alg».proof.Proof.KDefs
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KBlocks

open Cert.KernelIdeal Cert.KernelIdeal.Gen Cert.KernelIdeal.KDefs Cert.Interp Idealize.ShloMosaic Idealize.ShloMosaic.TcCoe Idealize.ShloMosaic.ValueIdx Idealize.SL.Sem

variable (m : (ℓ : Loc nD τ sig) → Buf (Elt Ideal) ℓ)

/-- The four input blocks at point `t`, at their literal types. -/
abbrev xblk (c : Dev nD) (t : Fin cfg0.N) : Vec Ideal S16x1x4096 .f32 := iblk m c 0 t
abbrev pblk (c : Dev nD) (t : Fin cfg0.N) : Vec Ideal S16x128x256 .bf16 := iblk m c 1 t
abbrev bblk (c : Dev nD) (t : Fin cfg0.N) : Vec Ideal S128x1 .f32 := iblk m c 2 t
abbrev lblk (c : Dev nD) (t : Fin cfg0.N) : Vec Ideal S128x1 .f32 := iblk m c 3 t

/-! ## Where each window's block sits in its array -/

/-- The windows' block indices at point `t`: windows 0 and 1 follow the chunk `t % 8` on the leading axis, window 0 the
    batch tile `t / 8` on the last; windows 2 and 3 never move. -/
theorem idx_facts : ∀ t : Fin cfg0.N,
    (win0_0.index t 0 = t.val % 8 ∧ win0_0.index t 1 = 0 ∧ win0_0.index t 2 = t.val / 8)
  ∧ (win0_1.index t 0 = t.val % 8 ∧ win0_1.index t 1 = 0 ∧ win0_1.index t 2 = 0)
  ∧ (win0_2.index t 0 = 0 ∧ win0_2.index t 1 = 0) ∧ (win0_3.index t 0 = 0 ∧ win0_3.index t 1 = 0) :=
  (by decide +kernel : ∀ t : Fin grid0.N,
    (win0_0.index t 0 = t.val % 8 ∧ win0_0.index t 1 = 0 ∧ win0_0.index t 2 = t.val / 8)
  ∧ (win0_1.index t 0 = t.val % 8 ∧ win0_1.index t 1 = 0 ∧ win0_1.index t 2 = 0)
  ∧ (win0_2.index t 0 = 0 ∧ win0_2.index t 1 = 0) ∧ (win0_3.index t 0 = 0 ∧ win0_3.index t 1 = 0))

/-- Window 0's block read at `y` is its array read at `(16 (t % 8) + y₀, y₁, 4096 (t / 8) + y₂)`. -/
theorem xblk_read (c : Dev nD) (t : Fin cfg0.N) (y : S16x1x4096.Idx) (j : S128x1x8192.Idx)
    (h0 : (j 0).val = 16 * (t.val % 8) + (y 0).val) (h1 : (j 1).val = (y 1).val)
    (h2 : (j 2).val = 4096 * (t.val / 8) + (y 2).val) :
    (iblk m c 0 t : Vec Ideal S16x1x4096 .f32) y = (V m c main_v0 : S128x1x8192.Idx → EReal) j := by
  obtain ⟨⟨i0, i1, i2⟩, -⟩ := idx_facts t
  unfold iblk
  rw [View.read_apply]
  show (V m c main_v0 : S128x1x8192.Idx → EReal) _ = (V m c main_v0 : S128x1x8192.Idx → EReal) j
  refine congrArg (V m c main_v0 : S128x1x8192.Idx → EReal) (funext fun a => Fin.ext ?_)
  match a with
  | ⟨0, _⟩ => show win0_0.index t 0 * 16 + 1 * (y 0).val = (j 0).val; rw [i0, h0]; omega
  | ⟨1, _⟩ => show win0_0.index t 1 * 1 + 1 * (y 1).val = (j 1).val; rw [i1, h1]; omega
  | ⟨2, _⟩ => show win0_0.index t 2 * 4096 + 1 * (y 2).val = (j 2).val; rw [i2, h2]; omega

/-- Window 1's block read at `y` is its array read at `(16 (t % 8) + y₀, y₁, y₂)`. -/
theorem pblk_read (c : Dev nD) (t : Fin cfg0.N) (y : S16x128x256.Idx) (j : S128x128x256.Idx)
    (h0 : (j 0).val = 16 * (t.val % 8) + (y 0).val) (h1 : (j 1).val = (y 1).val) (h2 : (j 2).val = (y 2).val) :
    (iblk m c 1 t : Vec Ideal S16x128x256 .bf16) y = (V m c main_v6 : S128x128x256.Idx → EReal) j := by
  obtain ⟨-, ⟨i0, i1, i2⟩, -⟩ := idx_facts t
  unfold iblk
  rw [View.read_apply]
  show (V m c main_v6 : S128x128x256.Idx → EReal) _ = (V m c main_v6 : S128x128x256.Idx → EReal) j
  refine congrArg (V m c main_v6 : S128x128x256.Idx → EReal) (funext fun a => Fin.ext ?_)
  match a with
  | ⟨0, _⟩ => show win0_1.index t 0 * 16 + 1 * (y 0).val = (j 0).val; rw [i0, h0]; omega
  | ⟨1, _⟩ => show win0_1.index t 1 * 128 + 1 * (y 1).val = (j 1).val; rw [i1, h1]; omega
  | ⟨2, _⟩ => show win0_1.index t 2 * 256 + 1 * (y 2).val = (j 2).val; rw [i2, h2]; omega

/-- Windows 2 and 3 are their whole arrays at every point. -/
theorem bblk_read (c : Dev nD) (t : Fin cfg0.N) (y : S128x1.Idx) :
    (iblk m c 2 t : Vec Ideal S128x1 .f32) y = (V m c main_v8 : S128x1.Idx → EReal) y := by
  obtain ⟨-, -, ⟨i0, i1⟩, -⟩ := idx_facts t
  unfold iblk
  rw [View.read_apply]
  show (V m c main_v8 : S128x1.Idx → EReal) _ = (V m c main_v8 : S128x1.Idx → EReal) y
  refine congrArg (V m c main_v8 : S128x1.Idx → EReal) (funext fun a => Fin.ext ?_)
  match a with
  | ⟨0, _⟩ => show win0_2.index t 0 * 128 + 1 * (y 0).val = (y 0).val; rw [i0]; omega
  | ⟨1, _⟩ => show win0_2.index t 1 * 1 + 1 * (y 1).val = (y 1).val; rw [i1]; omega

theorem lblk_read (c : Dev nD) (t : Fin cfg0.N) (y : S128x1.Idx) :
    (iblk m c 3 t : Vec Ideal S128x1 .f32) y = (V m c main_v9 : S128x1.Idx → EReal) y := by
  obtain ⟨-, -, -, ⟨i0, i1⟩⟩ := idx_facts t
  unfold iblk
  rw [View.read_apply]
  show (V m c main_v9 : S128x1.Idx → EReal) _ = (V m c main_v9 : S128x1.Idx → EReal) y
  refine congrArg (V m c main_v9 : S128x1.Idx → EReal) (funext fun a => Fin.ext ?_)
  match a with
  | ⟨0, _⟩ => show win0_3.index t 0 * 128 + 1 * (y 0).val = (y 0).val; rw [i0]; omega
  | ⟨1, _⟩ => show win0_3.index t 1 * 1 + 1 * (y 1).val = (y 1).val; rw [i1]; omega

/-! ## The windows' arrays as the host operations leave them -/

/-- Window 0's array: the inputs re-laid as [128, 1, 8192]. -/
theorem v0_eq (c : Dev nD) : (V m c main_v0 : S128x1x8192.Idx → EReal)
    = shapeCast S128x1x8192 (argX m c) Facts₀.shapeCasts_S128x8192_S128x1x8192 := by
  dsimp only [Gen.V, Gen.hostOps0]; after_results; rfl

/-- The parameter table with its axes reversed: [input, output, knot]. -/
abbrev tableT (c : Dev nD) : S128x128x129.Idx → EReal :=
  transpose S128x128x129 [2, 1, 0] (argP m c) Facts₀.transposes_S129x128x128_S128x128x129_2_1_0

/-- Its first 128 knots, and its last 128 knots. -/
abbrev knotsLo (c : Dev nD) : S128x128x128.Idx → EReal :=
  extractStridedSlice S128x128x128 ![0, 0, 0] (tableT m c) Facts₀.slices_S128x128x129_S128x128x128_0_0_0
abbrev knotsHi (c : Dev nD) : S128x128x128.Idx → EReal :=
  extractStridedSlice S128x128x128 ![0, 0, 1] (tableT m c) Facts₀.slices_S128x128x129_S128x128x128_0_0_1

/-- Window 1's array: the left knots and, beside them along the last axis, the differences of consecutive knots. -/
theorem v6_eq (c : Dev nD) : (V m c main_v6 : S128x128x256.Idx → EReal)
    = truncf (F := Ideal) .bf16 (concatenate S128x128x256 2
        [⟨S128x128x128, knotsLo m c⟩, ⟨S128x128x128, subf (F := Ideal) (φ := .f32) (knotsHi m c) (knotsLo m c)⟩]
        Facts₀.concatenates_S128x128x128_S128x128x128_S128x128x256_d2 : FVec Ideal S128x128x256 .f32) Facts₀.bitsLt_bf16_f32 := by
  dsimp only [Gen.V, Gen.hostOps0]; after_results

/-- Window 2's array: the first 128 borders as a column. -/
theorem v8_eq (c : Dev nD) : (V m c main_v8 : S128x1.Idx → EReal)
    = shapeCast S128x1 (extractStridedSlice S128 ![0] (argB m c) Facts₀.slices_S129_S128_0 : S128.Idx → EReal)
        Facts₀.shapeCasts_S128_S128x1 := by
  dsimp only [Gen.V, Gen.hostOps0]; after_results; rfl

/-- Window 3's array: the inverse cell lengths as a column. -/
theorem v9_eq (c : Dev nD) : (V m c main_v9 : S128x1.Idx → EReal)
    = shapeCast S128x1 (argL m c) Facts₀.shapeCasts_S128_S128x1 := by
  dsimp only [Gen.V, Gen.hostOps0]; after_results; rfl

/-! ## The arrays read at an index -/

/-- The reversed table at `(i, o, g)` is the table at `(g, o, i)`. -/
theorem tableT_apply (c : Dev nD) (i o : Fin 128) (g : Fin 129) :
    tableT m c (ix3 i o g) = argP m c (ix3 g o i) :=
  transpose_apply [2, 1, 0] (argP m c) Facts₀.transposes_S129x128x128_S128x128x129_2_1_0 (ix3 i o g) (ix3 g o i) fun b => by
    match b with
    | ⟨0, _⟩ => rfl
    | ⟨1, _⟩ => rfl
    | ⟨2, _⟩ => rfl

/-- The left knots at `(i, o, g)`: knot `g`. -/
theorem knotsLo_apply (c : Dev nD) (i o g : Fin 128) :
    knotsLo m c (ix3 i o g) = argP m c (ix3 (⟨g.val, by omega⟩ : Fin 129) o i) :=
  (extractStridedSlice_apply ![0, 0, 0] (tableT m c) Facts₀.slices_S128x128x129_S128x128x128_0_0_0 (ix3 i o g)
    (ix3 i o (⟨g.val, by omega⟩ : Fin 129)) fun a => by
      match a with
      | ⟨0, _⟩ => show i.val = 0 + i.val; omega
      | ⟨1, _⟩ => show o.val = 0 + o.val; omega
      | ⟨2, _⟩ => show g.val = 0 + g.val; omega).trans (tableT_apply m c i o _)

/-- The right knots at `(i, o, g)`: knot `g + 1`. -/
theorem knotsHi_apply (c : Dev nD) (i o g : Fin 128) :
    knotsHi m c (ix3 i o g) = argP m c (ix3 (⟨g.val + 1, by omega⟩ : Fin 129) o i) :=
  (extractStridedSlice_apply ![0, 0, 1] (tableT m c) Facts₀.slices_S128x128x129_S128x128x128_0_0_1 (ix3 i o g)
    (ix3 i o (⟨g.val + 1, by omega⟩ : Fin 129)) fun a => by
      match a with
      | ⟨0, _⟩ => show i.val = 0 + i.val; omega
      | ⟨1, _⟩ => show o.val = 0 + o.val; omega
      | ⟨2, _⟩ => show g.val + 1 = 1 + g.val; omega).trans (tableT_apply m c i o _)

/-- Window 1's array at a column below 128: the left knot of that number. -/
theorem v6_apply_left (c : Dev nD) (i o g : Fin 128) :
    (V m c main_v6 : S128x128x256.Idx → EReal) (ix3 i o (⟨g.val, by omega⟩ : Fin 256))
      = argP m c (ix3 (⟨g.val, by omega⟩ : Fin 129) o i) := by
  refine (congrFun (v6_eq m c) _).trans ?_
  refine (concatenate_pair_apply_left _ (knotsLo m c) (subf (F := Ideal) (φ := .f32) (knotsHi m c) (knotsLo m c))
    Facts₀.concatenates_S128x128x128_S128x128x128_S128x128x256_d2 (ix3 i o (⟨g.val, by omega⟩ : Fin 256)) rfl (ix3 i o g) fun b => by
      match b with
      | ⟨0, _⟩ => rfl
      | ⟨1, _⟩ => rfl
      | ⟨2, _⟩ => rfl).trans (knotsLo_apply m c i o g)

/-- Window 1's array at column `128 + g`: knot `g + 1` less knot `g`. -/
theorem v6_apply_diff (c : Dev nD) (i o g : Fin 128) :
    (V m c main_v6 : S128x128x256.Idx → EReal) (ix3 i o (⟨128 + g.val, by omega⟩ : Fin 256))
      = argP m c (ix3 (⟨g.val + 1, by omega⟩ : Fin 129) o i) - argP m c (ix3 (⟨g.val, by omega⟩ : Fin 129) o i) := by
  refine (congrFun (v6_eq m c) _).trans ?_
  refine (concatenate_pair_apply_right _ (knotsLo m c) (subf (F := Ideal) (φ := .f32) (knotsHi m c) (knotsLo m c))
    Facts₀.concatenates_S128x128x128_S128x128x128_S128x128x256_d2 (ix3 i o (⟨128 + g.val, by omega⟩ : Fin 256)) rfl rfl (ix3 i o g)
    (fun b => by
      match b with
      | ⟨0, _⟩ => exact fun _ => rfl
      | ⟨1, _⟩ => exact fun _ => rfl
      | ⟨2, _⟩ => exact fun h => absurd rfl h)
    (by show g.val + 128 = 128 + g.val; omega)).trans ?_
  show knotsHi m c (ix3 i o g) - knotsLo m c (ix3 i o g) = _
  rw [knotsHi_apply, knotsLo_apply]

/-- Window 2's array at row `g`: border `g`. -/
theorem v8_apply (c : Dev nD) (g : Fin 128) :
    (V m c main_v8 : S128x1.Idx → EReal) (ix2 g (0 : Fin 1)) = argB m c (ix1 (⟨g.val, by omega⟩ : Fin 129)) := by
  refine (congrFun (v8_eq m c) _).trans ?_
  refine (shapeCast_apply _ Facts₀.shapeCasts_S128_S128x1 (ix2 g (0 : Fin 1)) (ix1 g) ?_).trans ?_
  · rw [Shape.rowMajor_val_one, Shape.rowMajor_val_two]
    show g.val = g.val * 1 + 0
    omega
  · exact extractStridedSlice_apply ![0] (argB m c) Facts₀.slices_S129_S128_0 (ix1 g) (ix1 (⟨g.val, by omega⟩ : Fin 129)) fun a => by
      match a with
      | ⟨0, _⟩ => show g.val = 0 + g.val; omega

/-- Window 3's array at row `g`: inverse length `g`. -/
theorem v9_apply (c : Dev nD) (g : Fin 128) :
    (V m c main_v9 : S128x1.Idx → EReal) (ix2 g (0 : Fin 1)) = argL m c (ix1 g) := by
  refine (congrFun (v9_eq m c) _).trans ?_
  refine shapeCast_apply _ Facts₀.shapeCasts_S128_S128x1 (ix2 g (0 : Fin 1)) (ix1 g) ?_
  rw [Shape.rowMajor_val_one, Shape.rowMajor_val_two]
  show g.val = g.val * 1 + 0
  omega

/-- Window 0's array at `(i, 0, b)`: the input `x[i, b]`. -/
theorem v0_apply (c : Dev nD) (i : Fin 128) (b : Fin 8192) :
    (V m c main_v0 : S128x1x8192.Idx → EReal) (ix3 i (0 : Fin 1) b) = argX m c (ix2 i b) := by
  refine (congrFun (v0_eq m c) _).trans ?_
  refine shapeCast_apply _ Facts₀.shapeCasts_S128x8192_S128x1x8192 (ix3 i (0 : Fin 1) b) (ix2 i b) ?_
  rw [Shape.rowMajor_val_two, Shape.rowMajor_val_three]
  show i.val * 8192 + b.val = (i.val * 1 + 0) * 8192 + b.val
  omega

/-! ## The blocks in terms of the arguments -/

theorem xblk_apply (c : Dev nD) (t : Fin cfg0.N) (k : Fin 16) (b : Fin 4096) :
    xblk m c t (ix3 k (0 : Fin 1) b) = argX m c (ix2 (dimOf t k) (colOf t b)) :=
  (xblk_read m c t (ix3 k (0 : Fin 1) b) (ix3 (dimOf t k) (0 : Fin 1) (colOf t b)) rfl rfl rfl).trans
    (v0_apply m c (dimOf t k) (colOf t b))

theorem pblk_apply_left (c : Dev nD) (t : Fin cfg0.N) (k : Fin 16) (o g : Fin 128) :
    pblk m c t (ix3 k o (⟨g.val, by omega⟩ : Fin 256))
      = argP m c (ix3 (⟨g.val, by omega⟩ : Fin 129) o (dimOf t k)) :=
  (pblk_read m c t (ix3 k o (⟨g.val, by omega⟩ : Fin 256)) (ix3 (dimOf t k) o (⟨g.val, by omega⟩ : Fin 256)) rfl rfl rfl).trans
    (v6_apply_left m c (dimOf t k) o g)

theorem pblk_apply_diff (c : Dev nD) (t : Fin cfg0.N) (k : Fin 16) (o g : Fin 128) :
    pblk m c t (ix3 k o (⟨128 + g.val, by omega⟩ : Fin 256))
      = argP m c (ix3 (⟨g.val + 1, by omega⟩ : Fin 129) o (dimOf t k))
        - argP m c (ix3 (⟨g.val, by omega⟩ : Fin 129) o (dimOf t k)) :=
  (pblk_read m c t (ix3 k o (⟨128 + g.val, by omega⟩ : Fin 256)) (ix3 (dimOf t k) o (⟨128 + g.val, by omega⟩ : Fin 256)) rfl rfl rfl).trans
    (v6_apply_diff m c (dimOf t k) o g)

theorem bblk_apply (c : Dev nD) (t : Fin cfg0.N) (g : Fin 128) :
    bblk m c t (ix2 g (0 : Fin 1)) = argB m c (ix1 (⟨g.val, by omega⟩ : Fin 129)) :=
  (bblk_read m c t (ix2 g (0 : Fin 1))).trans (v8_apply m c g)

theorem lblk_apply (c : Dev nD) (t : Fin cfg0.N) (g : Fin 128) :
    lblk m c t (ix2 g (0 : Fin 1)) = argL m c (ix1 g) :=
  (lblk_read m c t (ix2 g (0 : Fin 1))).trans (v9_apply m c g)

end Cert.KernelIdeal.KBlocks

end
-- ==== Proof.KValue.lean ====
/-
  The idealized kernel's output block, point by point. One trip of the inner loop adds to the block the contribution
  of one input dimension at the point's batch columns (the trip's arithmetic read at an index, with the point's
  input blocks read off the argument arrays); the sixteen trips of grid point `t` add the sixteen dimensions of
  chunk `t % 8`; a point that starts a batch tile starts from zero, every other point from what the point before
  left, and consecutive points of a tile share their batch columns. So after point `n` the block holds the
  contributions of the dimensions `0 … 16 (n % 8 + 1) - 1`, and after a tile's last chunk all 128.
-/
import proofs.«113301_j2293512536822_2_alg».proof.Proof.KDefs
import proofs.«113301_j2293512536822_2_alg».proof.Proof.KTrip
import proofs.«113301_j2293512536822_2_alg».proof.Proof.KPay
import proofs.«113301_j2293512536822_2_alg».proof.Proof.KBlocks
import Idealize.ShloMosaic.Lib.ValueIdx
import Idealize.ShloMosaic.Lib.Pipeline.Value
import Idealize.ShloMosaic.PureOps.Ideal.Laws

set_option maxRecDepth 16384

noncomputable section

namespace Cert.KernelIdeal.KValue

open Cert.KernelIdeal Cert.KernelIdeal.Gen Cert.KernelIdeal.KDefs Cert.KernelIdeal.KTrip Cert.KernelIdeal.KPay Cert.KernelIdeal.KBlocks Cert.Interp
open Idealize.ShloMosaic Idealize.ShloMosaic.TcCoe Idealize.ShloMosaic.ValueIdx Idealize.SL.Sem

variable (m : (ℓ : Loc nD τ sig) → Buf (Elt Ideal) ℓ)

/-- The column of cell numbers holds `g` in row `g`. -/
theorem cellCol_apply (g : Fin 128) : (cellCol : IVec S128x1 32) (ix2 g (0 : Fin 1)) = BitVec.ofNat 32 g.val := by
  show BitVec.ofNat 32 (0 * S128x1.size 0 + g.val) = _
  rw [Nat.zero_mul, Nat.zero_add]

theorem trip_lt (k : Fin k0_t1_loop.trips) : k.val < 16 := lt_of_lt_of_eq k.isLt trips_eq

/-- Row `k` of the input block, as trip `k` loads it. -/
theorem ld_row (x0 : Vec Ideal S16x1x4096 .f32) (k : Fin k0_t1_loop.trips) (b : Fin 4096) :
    View.ld x0 (Rect.unit (k0_off1 k) S1x1x4096.size (k0_off1_inb k)) (ix3 (0 : Fin 1) (0 : Fin 1) b)
      = x0 (ix3 (⟨k.val, trip_lt k⟩ : Fin 16) (0 : Fin 1) b) := by
  show x0 _ = x0 _
  congr 1
  funext a
  apply Fin.ext
  have e := k0_off1_eq k
  match a with
  | ⟨0, _⟩ => show (k0_off1 k) 0 + 1 * 0 = k.val; rw [congrFun e 0]; show k.val + 1 * 0 = k.val; omega
  | ⟨1, _⟩ => show (k0_off1 k) 1 + 1 * 0 = 0; rw [congrFun e 1]; rfl
  | ⟨2, _⟩ => show (k0_off1 k) 2 + 1 * b.val = b.val; rw [congrFun e 2]; show 0 + 1 * b.val = b.val; omega

/-- Slab `k` of the parameter block: its left half, as trip `k` loads it, -/
theorem ld_slabL (x1 : Vec Ideal S16x128x256 .bf16) (k : Fin k0_t1_loop.trips) (o g : Fin 128) :
    View.ld x1 (Rect.unit (k0_off2 k) S1x128x128.size (k0_off2_inb k)) (ix3 (0 : Fin 1) o g)
      = x1 (ix3 (⟨k.val, trip_lt k⟩ : Fin 16) o (⟨g.val, by omega⟩ : Fin 256)) := by
  show x1 _ = x1 _
  congr 1
  funext a
  apply Fin.ext
  have e := k0_off2_eq k
  match a with
  | ⟨0, _⟩ => show (k0_off2 k) 0 + 1 * 0 = k.val; rw [congrFun e 0]; show k.val + 1 * 0 = k.val; omega
  | ⟨1, _⟩ => show (k0_off2 k) 1 + 1 * o.val = o.val; rw [congrFun e 1]; show 0 + 1 * o.val = o.val; omega
  | ⟨2, _⟩ => show (k0_off2 k) 2 + 1 * g.val = g.val; rw [congrFun e 2]; show 0 + 1 * g.val = g.val; omega

/-- and its right half. -/
theorem ld_slabD (x1 : Vec Ideal S16x128x256 .bf16) (k : Fin k0_t1_loop.trips) (o g : Fin 128) :
    View.ld x1 (Rect.unit (k0_off3 k) S1x128x128.size (k0_off3_inb k)) (ix3 (0 : Fin 1) o g)
      = x1 (ix3 (⟨k.val, trip_lt k⟩ : Fin 16) o (⟨128 + g.val, by omega⟩ : Fin 256)) := by
  show x1 _ = x1 _
  congr 1
  funext a
  apply Fin.ext
  have e := k0_off3_eq k
  match a with
  | ⟨0, _⟩ => show (k0_off3 k) 0 + 1 * 0 = k.val; rw [congrFun e 0]; show k.val + 1 * 0 = k.val; omega
  | ⟨1, _⟩ => show (k0_off3 k) 1 + 1 * o.val = o.val; rw [congrFun e 1]; show 0 + 1 * o.val = o.val; omega
  | ⟨2, _⟩ => show (k0_off3 k) 2 + 1 * g.val = 128 + g.val; rw [congrFun e 2]; show 128 + 1 * g.val = 128 + g.val; omega

/-- ONE TRIP AT AN INDEX: trip `k` of point `t` adds input dimension `16 (t % 8) + k`'s contribution. -/
theorem step_apply (c : Dev nD) (t : Fin cfg0.N) (k : Fin k0_t1_loop.trips) (acc : Vec Ideal S128x4096 .f32) (o : Fin 128) (b : Fin 4096) :
    step (xblk m c t) (pblk m c t) (bblk m c t) (lblk m c t) cellCol k acc (ix2 o b)
      = acc (ix2 o b) + termN m c (16 * (t.val % 8) + k.val) o (colOf t b) := by
  unfold step
  rw [pay_apply (bblk m c t) (lblk m c t) cellCol cellCol_apply _ _ _ acc o b]
  rw [ld_row, ld_slabL, ld_slabD, xblk_apply m c t ⟨k.val, trip_lt k⟩ b]
  rw [pblk_apply_left m c t ⟨k.val, trip_lt k⟩ o (bkt (argX m c (ix2 (dimOf t ⟨k.val, trip_lt k⟩) (colOf t b)))),
    pblk_apply_diff m c t ⟨k.val, trip_lt k⟩ o (bkt (argX m c (ix2 (dimOf t ⟨k.val, trip_lt k⟩) (colOf t b)))),
    bblk_apply m c t (bkt (argX m c (ix2 (dimOf t ⟨k.val, trip_lt k⟩) (colOf t b)))),
    lblk_apply m c t (bkt (argX m c (ix2 (dimOf t ⟨k.val, trip_lt k⟩) (colOf t b))))]
  have hi : 16 * (t.val % 8) + k.val < 128 := by have := trip_lt k; omega
  unfold termN
  rw [dif_pos hi]
  rfl

/-- THE LOOP AT AN INDEX: the first `n` trips of point `t` add the contributions of the chunk's first `n` dimensions. -/
theorem accN_apply (c : Dev nD) (t : Fin cfg0.N) (a0 : Vec Ideal S128x4096 .f32) (o : Fin 128) (b : Fin 4096) :
    ∀ n, n ≤ k0_t1_loop.trips →
      accN (xblk m c t) (pblk m c t) (bblk m c t) (lblk m c t) cellCol n a0 (ix2 o b)
        = a0 (ix2 o b) + ∑ k ∈ Finset.range n, termN m c (16 * (t.val % 8) + k) o (colOf t b)
  | 0, _ => by simp [accN]
  | n + 1, hn => by
    have hk : n < k0_t1_loop.trips := hn
    simp only [accN, dif_pos hk]
    rw [step_apply m c t ⟨n, hk⟩ _ o b, accN_apply c t a0 o b n (Nat.le_of_lt hk), Finset.sum_range_succ, add_assoc]

/-- The sum over the first `j + 1` chunks splits into the first `j` chunks and chunk `j`. -/
theorem sum_chunks (f : ℕ → EReal) (j : ℕ) :
    ∑ i ∈ Finset.range (16 * (j + 1)), f i = ∑ i ∈ Finset.range (16 * j), f i + ∑ k ∈ Finset.range 16, f (16 * j + k) := by
  rw [show 16 * (j + 1) = 16 * j + 16 by ring, Finset.sum_range_add]

/-- The zero block is zero everywhere. -/
theorem pay1_apply (y : S128x4096.Idx) : (k0_pay1 (F := Ideal)) y = 0 := by
  show Ideal.ofBits .f32 0x00000000#32 = 0
  exact Ideal.ofBits_zero_f32

/-- A point that starts a batch tile leaves the first chunk's sixteen contributions. -/
theorem outsAt_first (c : Dev nD) (t : Fin cfg0.N) (h0 : t.val % 8 = 0) (o : Fin 128) (b : Fin 4096) :
    (outsAt0 m c t.val t.isLt : Vec Ideal S128x4096 .f32) (ix2 o b)
      = ∑ i ∈ Finset.range 16, termN m c i o (colOf t b) := by
  rw [outsAt0_A m c t h0]
  refine (congrFun (out_A c (grid0.coords t) (ms0_0 t) (hs0_0 t) (ms0_1 t) (hs0_1 t) (ms0_2 t) (hs0_2 t) (ms0_3 t) (hs0_3 t) (ms0_4 t) (hs0_4 t) (xblk m c t) (pblk m c t) (bblk m c t) (lblk m c t) ((hcond0_0 t).mpr h0)) (ix2 o b)).trans ?_
  rw [accN_apply m c t _ o b k0_t1_loop.trips le_rfl, pay1_apply, zero_add, h0, trips_eq]
  exact Finset.sum_congr rfl fun k _ => by rw [Nat.mul_zero, Nat.zero_add]

/-- Any other point adds its chunk's sixteen contributions to what the point before left. -/
theorem outsAt_next (c : Dev nD) (n : ℕ) (h : n + 1 < cfg0.N) (h0 : ¬(n + 1) % 8 = 0) (o : Fin 128) (b : Fin 4096) :
    (outsAt0 m c (n + 1) h : Vec Ideal S128x4096 .f32) (ix2 o b)
      = (outsAt0 m c n (Nat.lt_of_succ_lt h) : Vec Ideal S128x4096 .f32) (ix2 o b)
        + ∑ k ∈ Finset.range 16, termN m c (16 * ((n + 1) % 8) + k) o (colOf ⟨n + 1, h⟩ b) := by
  rw [outsAt0_B m c ⟨n + 1, h⟩ h0]
  refine (congrFun (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (xblk m c ⟨n + 1, h⟩) (pblk m c ⟨n + 1, h⟩) (bblk m c ⟨n + 1, h⟩) (lblk m c ⟨n + 1, h⟩)
    (fun hh => h0 ((hcond0_0 ⟨n + 1, h⟩).mp hh)) (outsAt0 m c n (Nat.lt_of_succ_lt h))) (ix2 o b)).trans ?_
  rw [accN_apply m c ⟨n + 1, h⟩ _ o b k0_t1_loop.trips le_rfl, trips_eq]

/-- THE ACCUMULATION ACROSS THE GRID: after point `n` the output block holds, at `(o, b)`, the contributions of the
    input dimensions of the chunks `0 … n % 8` at the point's batch column. -/
theorem outsAt_apply (c : Dev nD) : ∀ (n : ℕ) (h : n < cfg0.N) (o : Fin 128) (b : Fin 4096),
    (outsAt0 m c n h : Vec Ideal S128x4096 .f32) (ix2 o b)
      = ∑ i ∈ Finset.range (16 * (n % 8 + 1)), termN m c i o (colOf ⟨n, h⟩ b) := by
  intro n
  induction n with
  | zero =>
    intro h o b
    exact outsAt_first m c ⟨0, h⟩ rfl o b
  | succ n ih =>
    intro h o b
    by_cases h0 : (n + 1) % 8 = 0
    · rw [h0]
      exact outsAt_first m c ⟨n + 1, h⟩ h0 o b
    · have hN : n + 1 < 16 := lt_of_lt_of_eq h (show cfg0.N = 16 from N_0)
      have hcol : colOf ⟨n, Nat.lt_of_succ_lt h⟩ b = colOf ⟨n + 1, h⟩ b := by
        apply Fin.ext
        show 4096 * (n / 8) + b.val = 4096 * ((n + 1) / 8) + b.val
        have : n / 8 = (n + 1) / 8 := by omega
        rw [this]
      have hmod : (n + 1) % 8 = n % 8 + 1 := by omega
      rw [outsAt_next m c n h h0 o b, ih (Nat.lt_of_succ_lt h) o b, hcol, hmod,
        sum_chunks (fun i => termN m c i o (colOf ⟨n + 1, h⟩ b)) (n % 8 + 1)]

/-- So after a batch tile's last chunk the block holds the contributions of all 128 input dimensions. -/
theorem full_at_last (c : Dev nD) (t : Fin cfg0.N) (o : Fin 128) (b : Fin 4096) (h7 : t.val % 8 = 7) :
    (outsAt0 m c t.val t.isLt : Vec Ideal S128x4096 .f32) (ix2 o b) = ∑ i ∈ Finset.range 128, termN m c i o (colOf t b) := by
  rw [outsAt_apply m c t.val t.isLt o b, h7]

end Cert.KernelIdeal.KValue

end
-- ==== Proof.KFinal.lean ====
/-
  From what the output block holds at the two points that write it back to the whole result array. The output block
  of batch tile `t / 8` is written back after the tile's last chunk (points 7 and 15); by then it holds, at row `o` and
  local column `b`, the sum of all 128 contributions at column `4096 (t / 8) + b`. The two blocks are the left and the
  right half of the [128, 8192] result, so together they cover it, and the result array is the specification's.
-/
import proofs.«113301_j2293512536822_2_alg».proof.Proof.Gen.KernelIdeal.Value
import proofs.«113301_j2293512536822_2_alg».proof.Proof.KDefs
import proofs.«113301_j2293512536822_2_alg».proof.Proof.Spec
import Idealize.ShloMosaic.Lib.ValueIdx
import Idealize.ShloMosaic.Lib.Pipeline.Value

noncomputable section

namespace Cert.KernelIdeal.KFinal

open Cert.KernelIdeal Cert.KernelIdeal.Gen Cert.KernelIdeal.KDefs Cert.Interp Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What is assumed of the run's contents of the output block: after a tile's last chunk it holds the full sums. -/
def FullAtLast (c : Dev nD) : Prop :=
  ∀ (t : Fin cfg0.N) (o : Fin 128) (b : Fin 4096), t.val % 8 = 7 →
    (outsAt0 m c t.val t.isLt : Vec Ideal S128x4096 .f32) (ix2 o b) = ∑ i ∈ Finset.range 128, termN m c i o (colOf t b)

/-- The sum of the contributions numbered below 128 is the specification's sum over the 128 input dimensions. -/
theorem sum_termN (c : Dev nD) (o : Fin 128) (b : Fin 8192) :
    ∑ i ∈ Finset.range 128, termN m c i o b = ∑ i : Fin 128, termK (argX m c) (argP m c) (argB m c) (argL m c) i o b := by
  rw [Finset.sum_range]
  refine Finset.sum_congr rfl fun i _ => ?_
  unfold termN
  rw [dif_pos i.isLt]

/-- Where the output block sits in the result at point `t`: all 128 rows, and the columns of batch tile `t / 8`. -/
theorem outBlock_index : ∀ t : Fin cfg0.N, win0_4.index t (0 : Fin 2) = 0 ∧ win0_4.index t (1 : Fin 2) = t.val / 8 :=
  (by decide +kernel : ∀ t : Fin grid0.N, win0_4.index t (0 : Fin 2) = 0 ∧ win0_4.index t (1 : Fin 2) = t.val / 8)

/-- One entry of the full block, read as an entry of the specification's result: local index `x = (o, b)` of the block
    after the last chunk of tile `t / 8` and index `y = (o, 4096 (t / 8) + b)` of the result hold the same sum over the
    128 input dimensions. -/
theorem full_apply (c : Dev nD) (hfull : FullAtLast m c) (t : Fin cfg0.N) (h7 : t.val % 8 = 7)
    (x : S128x4096.Idx) (y : S128x8192.Idx)
    (hy0 : (y 0).val = (x 0).val) (hy1 : (y 1).val = 4096 * (t.val / 8) + (x 1).val) :
    (outsAt0 m c t.val t.isLt : Vec Ideal S128x4096 .f32) x = GK (argX m c) (argP m c) (argB m c) (argL m c) y := by
  have hsum : (outsAt0 m c t.val t.isLt : Vec Ideal S128x4096 .f32) x
      = ∑ i ∈ Finset.range 128, termN m c i (x 0) (colOf t (x 1)) :=
    (congrArg (outsAt0 m c t.val t.isLt : Vec Ideal S128x4096 .f32) (eq_ix2 x)).trans (hfull t (x 0) (x 1) h7)
  have ho : (x 0 : Fin 128) = ⟨(y 0).val, idx2_lt0 y⟩ := Fin.ext hy0.symm
  have hb : colOf t (x 1) = ⟨(y 1).val, idx2_lt1 y⟩ := Fin.ext hy1.symm
  have hG : GK (argX m c) (argP m c) (argB m c) (argL m c) y
      = ∑ i : Fin 128, termK (argX m c) (argP m c) (argB m c) (argL m c) i ⟨(y 0).val, idx2_lt0 y⟩ ⟨(y 1).val, idx2_lt1 y⟩ := rfl
  exact hsum.trans ((sum_termN m c (x 0) (colOf t (x 1))).trans
    ((Finset.sum_congr rfl fun i _ => congrArg₂ (termK (argX m c) (argP m c) (argB m c) (argL m c) i) ho hb).trans hG.symm))

/-- What a point that writes back writes is its block of the specification's result: the block is whole (128 × 4096
    blocks tile the 128 × 8192 array), its local index `j` sits at row `j 0` and column `4096 (t / 8) + j 1` of the array,
    and there both hold the full sum. -/
theorem flushed_eq (c : Dev nD) (hfull : FullAtLast m c) (t : Fin cfg0.N) (hf : (cfg0.win 4).flush t = true) :
    (dats m 0 c).flushed 4 t
      = ((cfg0.win 4).blk t).view.read (Elt Ideal) (GK (argX m c) (argP m c) (argB m c) (argL m c)) := by
  have h7 : t.val % 8 = 7 := (flush0_4 t).mp hf
  obtain ⟨e0, e1⟩ := outBlock_index t
  rw [Cert.KernelIdeal.Value.flushed4]
  funext j
  show (outsAt0 m c t.val t.isLt : Vec Ideal S128x4096 .f32) ((cfg0.win 4).xinj (grid0.coords t) j)
      = GK (argX m c) (argP m c) (argB m c) (argL m c) (((cfg0.win 4).blk t).view.emb j)
  refine full_apply m c hfull t h7 _ _ ?_ ?_
  · show win0_4.index t (0 : Fin 2) * 128 + 1 * (j 0).val = (j 0).val
    omega
  · show win0_4.index t (1 : Fin 2) * 4096 + 1 * (j 1).val = 4096 * (t.val / 8) + (j 1).val
    omega

/-- An index of the result is in point `t`'s block iff each coordinate is in the block's range on its axis. -/
theorem mem_outBlock (t : Fin cfg0.N) (i : S128x8192.Idx) :
    i ∈ ((cfg0.win 4).blk t).view.set
      ↔ ∀ a : Fin 2, win0_4.index t a * S128x4096.size a ≤ (i a).val
          ∧ (i a).val < win0_4.index t a * S128x4096.size a + S128x4096.size a := by
  show i ∈ ((View.whole main_v10).slice (win0_4.rect t)).set ↔ _
  rw [View.set_slice_whole, Rect.mem_set_unit]
  exact Iff.rfl

/-- The two blocks written back cover the result: column `y` lies in the block of tile `y / 4096`, written back at
    that tile's last point `8 (y / 4096) + 7`. -/
theorem covered (i : S128x8192.Idx) :
    ∃ t : Fin cfg0.N, (cfg0.win 4).flush t = true ∧ i ∈ ((cfg0.win 4).blk t).view.set := by
  have hN : cfg0.N = 16 := N_0
  have hi0 : (i 0).val < 128 := idx2_lt0 i
  have hi1 : (i 1).val < 8192 := idx2_lt1 i
  have hlt : 8 * ((i 1).val / 4096) + 7 < cfg0.N := by omega
  have h7 : (⟨8 * ((i 1).val / 4096) + 7, hlt⟩ : Fin cfg0.N).val % 8 = 7 := by
    show (8 * ((i 1).val / 4096) + 7) % 8 = 7
    omega
  obtain ⟨e0, e1⟩ := outBlock_index ⟨8 * ((i 1).val / 4096) + 7, hlt⟩
  have e1' : win0_4.index ⟨8 * ((i 1).val / 4096) + 7, hlt⟩ (1 : Fin 2) = (8 * ((i 1).val / 4096) + 7) / 8 := e1
  refine ⟨⟨8 * ((i 1).val / 4096) + 7, hlt⟩, (flush0_4 _).mpr h7, ?_⟩
  rw [mem_outBlock]
  intro a
  match a with
  | ⟨0, _⟩ =>
    show win0_4.index ⟨8 * ((i 1).val / 4096) + 7, hlt⟩ (0 : Fin 2) * 128 ≤ (i 0).val
      ∧ (i 0).val < win0_4.index ⟨8 * ((i 1).val / 4096) + 7, hlt⟩ (0 : Fin 2) * 128 + 128
    omega
  | ⟨1, _⟩ =>
    show win0_4.index ⟨8 * ((i 1).val / 4096) + 7, hlt⟩ (1 : Fin 2) * 4096 ≤ (i 1).val
      ∧ (i 1).val < win0_4.index ⟨8 * ((i 1).val / 4096) + 7, hlt⟩ (1 : Fin 2) * 4096 + 4096
    omega

/-- The result array after the run is the specification's first form of the argument arrays. -/
theorem final_of_full (c : Dev nD) (hfull : FullAtLast m c) :
    (dats m 0 c).arrAt 4 cfg0.N = GK (argX m c) (argP m c) (argB m c) (argL m c) :=
  (dats m 0 c).arrAt_eq_of_cover 4 (GK (argX m c) (argP m c) (argB m c) (argL m c))
    (fun t hf => flushed_eq m c hfull t hf) covered

/-- The run, read: the result array at the specification, the arguments unchanged. -/
theorem run_of_full (hfull : ∀ c, FullAtLast m c) :
    θ_run defs (onTc (τ := τ) (main (F := Ideal))) ⟨m, fun _ => 0, ρ⟩ fun r => ∀ c : Dev nD,
      r.2.mem ((c : Thread nD τ).loc main_v10) = GK (argX m c) (argP m c) (argB m c) (argL m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_of_full m c (hfull c)), (h c).2⟩)
    (Cert.KernelIdeal.Value.run_blocks m ρ)

end Cert.KernelIdeal.KFinal

end
-- ==== Proof.lean ====
/-
  The kernel evaluates, for every batch column, a sum over 128 input dimensions of piecewise-linear functions: each
  input is sent through the Laplace distribution function to one of 128 cells, and the function with knots
  `P[·, o, i]` is read inside that cell at the input's position `w` there. The kernel finds the cell with a 0/1
  indicator over the cells and two matrix products against it, which give the left knot plus `w` times the knot
  difference; the reference gathers the two knots and forms `(1 - w) · left + w · right`. Over the reals these are the
  same number, and the precondition makes every quantity involved a real, so the two result arrays agree entry by
  entry (`Cert.Interp.GR_eq_GK`).
    The kernel's side: one trip of its inner loop adds one input dimension's contribution to the output block
  (Proof/KPay.lean, Proof/KBlocks.lean, Proof/KTrip.lean), the sixteen trips of a grid point add a chunk of sixteen
  dimensions, the eight chunks of a batch tile add all 128 (Proof/KValue.lean), and the two tiles' blocks are the two
  halves of the result (Proof/KFinal.lean).
    The reference's side: its line of host operations is run stretch by stretch (Proof/RefStretches.lean,
  Proof/RefChain.lean); read at an index its stages are the gathers of the two knots, of the border and of the inverse
  length at the input's cell, and a sum over the input dimensions (Proof/RefValue.lean).
    The three frame claims are the generated frame runs; the idealization rewrote no operation.
-/
import proofs.«113301_j2293512536822_2_alg».proof.Defs
import proofs.«113301_j2293512536822_2_alg».proof.Proof.Gen.Kernel
import proofs.«113301_j2293512536822_2_alg».proof.Proof.Gen.Kernel.Skeleton
import proofs.«113301_j2293512536822_2_alg».proof.Proof.Gen.Kernel.Loops
import proofs.«113301_j2293512536822_2_alg».proof.Proof.Gen.Kernel.Launch
import proofs.«113301_j2293512536822_2_alg».proof.Proof.Gen.Kernel.Points
import proofs.«113301_j2293512536822_2_alg».proof.Proof.Gen.Kernel.Frame
import proofs.«113301_j2293512536822_2_alg».proof.Proof.Gen.KernelIdeal
import proofs.«113301_j2293512536822_2_alg».proof.Proof.Gen.KernelIdeal.Skeleton
import proofs.«113301_j2293512536822_2_alg».proof.Proof.Gen.KernelIdeal.Loops
import proofs.«113301_j2293512536822_2_alg».proof.Proof.Gen.KernelIdeal.Launch
import proofs.«113301_j2293512536822_2_alg».proof.Proof.Gen.KernelIdeal.Points
import proofs.«113301_j2293512536822_2_alg».proof.Proof.Gen.KernelIdeal.Frame
import proofs.«113301_j2293512536822_2_alg».proof.Proof.Gen.ReferenceIdeal
import proofs.«113301_j2293512536822_2_alg».proof.Proof.Gen.Pre_finite_inputs
import proofs.«113301_j2293512536822_2_alg».proof.Proof.Gen.KernelIdeal.Value
import proofs.«113301_j2293512536822_2_alg».proof.Proof.Spec
import proofs.«113301_j2293512536822_2_alg».proof.Proof.Facts
import proofs.«113301_j2293512536822_2_alg».proof.Proof.Finite
import proofs.«113301_j2293512536822_2_alg».proof.Proof.RefRun
import proofs.«113301_j2293512536822_2_alg».proof.Proof.RefValue
import proofs.«113301_j2293512536822_2_alg».proof.Proof.KDefs
import proofs.«113301_j2293512536822_2_alg».proof.Proof.KValue
import proofs.«113301_j2293512536822_2_alg».proof.Proof.KFinal
import Idealize.ShloMosaic.Adequacy
import Idealize.ShloMosaic.Init

noncomputable section

namespace Cert.Proof

open Idealize.ShloMosaic Idealize.SL.Sem

/-- The word-level kernel and its idealization run, and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- No operation was rewritten when the kernel was idealized. -/
theorem preserves : Cert.preserves_Kernel_KernelIdeal := trivial

/-- Both runs end at one array: the kernel's at the sum of left knot plus weighted difference, the reference's at the
    sum of convex combinations, of arguments that agree and are finite. -/
theorem algebraic : Cert.algebraic_KernelIdeal_ReferenceIdeal := by
  intro m ρ m' ρ' hpre hagree
  refine ⟨fun c => Cert.Interp.GK (Cert.KernelIdeal.KDefs.argX m c) (Cert.KernelIdeal.KDefs.argP m c)
      (Cert.KernelIdeal.KDefs.argB m c) (Cert.KernelIdeal.KDefs.argL m c), ?_, ?_⟩
  · exact Cert.KernelIdeal.KFinal.run_of_full m ρ
      (fun c t o b h7 => Cert.KernelIdeal.KValue.full_at_last m c t o b h7)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2]
    obtain ⟨hx, hP, hb, hl⟩ := Cert.Interp.finite_of_pre m hpre c
    exact Cert.Interp.GR_eq_GK _ _ _ _ hx hP hb hl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
